-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S15000x768 : Shape := ⟨2, ![15000, 768]⟩
abbrev S100000x768 : Shape := ⟨2, ![100000, 768]⟩
abbrev S768x10 : Shape := ⟨2, ![768, 10]⟩
abbrev S10 : Shape := ⟨1, ![10]⟩
abbrev S10x128 : Shape := ⟨2, ![10, 128]⟩
abbrev S128 : Shape := ⟨1, ![128]⟩
abbrev S512x1024 : Shape := ⟨2, ![512, 1024]⟩
abbrev S512x128 : Shape := ⟨2, ![512, 128]⟩
abbrev S512 : Shape := ⟨1, ![512]⟩
abbrev S2x200000 : Shape := ⟨2, ![2, 200000]⟩
abbrev S100000x3 : Shape := ⟨2, ![100000, 3]⟩
abbrev S_ : Shape := ⟨0, ![]⟩

class Facts : Prop where
  bcast_S_S15000x768 : S_.BroadcastsInDim S15000x768 (![] : Fin 0 → Fin S15000x768.rank)
  reducesTo_S15000x768_S_d0_1 : S15000x768.ReducesTo [0, 1] S_
  h_S_ : 0 < S_.numel
  bcast_S_S100000x768 : S_.BroadcastsInDim S100000x768 (![] : Fin 0 → Fin S100000x768.rank)
  reducesTo_S100000x768_S_d0_1 : S100000x768.ReducesTo [0, 1] S_
  bcast_S_S768x10 : S_.BroadcastsInDim S768x10 (![] : Fin 0 → Fin S768x10.rank)
  reducesTo_S768x10_S_d0_1 : S768x10.ReducesTo [0, 1] S_
  bcast_S_S10 : S_.BroadcastsInDim S10 (![] : Fin 0 → Fin S10.rank)
  reducesTo_S10_S_d0 : S10.ReducesTo [0] S_
  bcast_S_S10x128 : S_.BroadcastsInDim S10x128 (![] : Fin 0 → Fin S10x128.rank)
  reducesTo_S10x128_S_d0_1 : S10x128.ReducesTo [0, 1] S_
  bcast_S_S128 : S_.BroadcastsInDim S128 (![] : Fin 0 → Fin S128.rank)
  reducesTo_S128_S_d0 : S128.ReducesTo [0] S_
  bcast_S_S512x1024 : S_.BroadcastsInDim S512x1024 (![] : Fin 0 → Fin S512x1024.rank)
  reducesTo_S512x1024_S_d0_1 : S512x1024.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x128 .f32) (main_arg8 : FVec F S512 .f32) (main_arg9 : FVec F S512 .f32) (main_v33 : IVec S_ 1) : IVec S_ 1 :=
  let main_v34 : FVec F S512x128 .f32 := Host.absf main_arg7
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S10x128 .f32) (main_arg5 : FVec F S128 .f32) (main_arg6 : FVec F S512x1024 .f32) (main_arg7 : FVec F S512x128 .f32) (main_arg8 : FVec F S512 .f32) (main_arg9 : FVec F S512 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10x128 .f32 := Host.absf main_arg4
  let main_cst_6 : FVec F S_ .f32 := constant S_ .f32 0x7F800000#32
  let main_v20 : FVec F S10x128 .f32 := broadcastInDim S10x128 ![] bcast_S_S10x128 main_cst_6
  let main_v21 : IVec S10x128 1 := cmpf .olt main_v19 main_v20
  let main_c_7 : IVec S_ 1 := constantI S_ 1 1#1
  let main_v22 : IVec S_ 1 := (fun x v => Host.reduce IntOp.andi x v reducesTo_S10x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S15000x768 .f32) (main_arg1 : FVec F S100000x768 .f32) (main_arg2 : FVec F S768x10 .f32) (main_arg3 : FVec F S10 .f32) (main_arg4 : FVec F S10x128 .f32) (main_arg5 : FVec F S128 .f32) (main_arg6 : FVec F S512x1024 .f32) (main_arg7 : FVec F S512x128 .f32) (main_arg8 : FVec F S512 .f32) (main_arg9 : FVec F S512 .f32) (main_arg10 : IVec S2x200000 32) (main_arg11 : IVec S100000x3 32) : IVec S_ 1 :=
  let main_v0 : FVec F S15000x768 .f32 := Host.absf main_arg0
  let main_cst : FVec F S_ .f32 := constant S_ .f32 0x7F800000#32
  let main_v1 : FVec F S15000x768 .f32 := broadcastInDim S15000x768 ![] bcast_S_S15000x768 main_cst
  let main_v2 : IVec S15000x768 1 := cmpf .olt main_v0 main_v1
  let main_c : IVec S_ 1 := constantI S_ 1 1#1
  let main_v3 : IVec S_ 1 := (fun x v => Host.reduce IntOp.andi x v reducesTo_S15000x768_S_d0_1 h_S_) main_v2 main_c
  let main_v4 : FVec F S100000x768 .f32 := Host.absf main_arg1
  let main_cst_0 : FVec F S_ .f32 := constant S_ .f32 0x7F800000#32
  let main_v5 : FVec F S100000x768 .f32 := broadcastInDim S100000x768 ![] bcast_S_S100000x768 main_cst_0
  let main_v6 : IVec S100000x768 1 := cmpf .olt main_v4 main_v5
  let main_c_1 : IVec S_ 1 := constantI S_ 1 1#1
  let main_v7 : IVec S_ 1 := (fun x v => Host.reduce IntOp.andi x v reducesTo_S100000x768_S_d0_1 h_S_) main_v6 main_c_1
  let main_v8 : IVec S_ 1 := andi main_v3 main_v7
  let main_v9 : FVec F S768x10 .f32 := Host.absf main_arg2
  let main_cst_2 : FVec F S_ .f32 := constant S_ .f32 0x7F800000#32
  let main_v10 : FVec F S768x10 .f32 := broadcastInDim S768x10 ![] bcast_S_S768x10 main_cst_2
  let main_v11 : IVec S768x10 1 := cmpf .olt main_v9 main_v10
  let main_c_3 : IVec S_ 1 := constantI S_ 1 1#1
  let main_v12 : IVec S_ 1 := (fun x v => Host.reduce IntOp.andi x v reducesTo_S768x10_S_d0_1 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg4 main_arg5 main_arg6 main_arg7 main_arg8 main_arg9 main_v13 main_v16
-- ==== Kernel.lean ====
abbrev S15000x768 : Shape := ⟨2, ![15000, 768]⟩
abbrev S100000x768 : Shape := ⟨2, ![100000, 768]⟩
abbrev S768x10 : Shape := ⟨2, ![768, 10]⟩
abbrev S10 : Shape := ⟨1, ![10]⟩
abbrev S10x128 : Shape := ⟨2, ![10, 128]⟩
abbrev S128 : Shape := ⟨1, ![128]⟩
abbrev S512x1024 : Shape := ⟨2, ![512, 1024]⟩
abbrev S512x128 : Shape := ⟨2, ![512, 128]⟩
abbrev S512 : Shape := ⟨1, ![512]⟩
abbrev S2x200000 : Shape := ⟨2, ![2, 200000]⟩
abbrev S100000x3 : Shape := ⟨2, ![100000, 3]⟩
abbrev S15000 : Shape := ⟨1, ![15000]⟩
abbrev S1x200000 : Shape := ⟨2, ![1, 200000]⟩
abbrev S200000 : Shape := ⟨1, ![200000]⟩
abbrev S215000 : Shape := ⟨1, ![215000]⟩
abbrev S_ : Shape := ⟨0, ![]⟩
abbrev S215000x1 : Shape := ⟨2, ![215000, 1]⟩
abbrev S15000x10 : Shape := ⟨2, ![15000, 10]⟩
abbrev S1000x768 : Shape := ⟨2, ![1000, 768]⟩
abbrev S1000x10 : Shape := ⟨2, ![1000, 10]⟩
abbrev S215000x10 : Shape := ⟨2, ![215000, 10]⟩
abbrev S1x10 : Shape := ⟨2, ![1, 10]⟩
abbrev S15000x128 : Shape := ⟨2, ![15000, 128]⟩
abbrev S1000x128 : Shape := ⟨2, ![1000, 128]⟩
abbrev S215000x128 : Shape := ⟨2, ![215000, 128]⟩
abbrev S1x128 : Shape := ⟨2, ![1, 128]⟩
abbrev S100000x1 : Shape := ⟨2, ![100000, 1]⟩
abbrev S100000 : Shape := ⟨1, ![100000]⟩
abbrev S100000x128 : Shape := ⟨2, ![100000, 128]⟩
abbrev S128x512 : Shape := ⟨2, ![128, 512]⟩
abbrev S512x768 : Shape := ⟨2, ![512, 768]⟩
abbrev S768x512 : Shape := ⟨2, ![768, 512]⟩
abbrev S1x512 : Shape := ⟨2, ![1, 512]⟩
abbrev S2048x128 : Shape := ⟨2, ![2048, 128]⟩
abbrev S2048x768 : Shape := ⟨2, ![2048, 768]⟩
abbrev S2048 : Shape := ⟨1, ![2048]⟩
abbrev S2048x512 : Shape := ⟨2, ![2048, 512]⟩

abbrev nBuf : Space → Nat
  | .hbm => 126
  | .vmem => 22
  | .smem => 0
  | _ => 0

abbrev bufTy : (tb : Table) → Fin (tcTables nBuf tb) → BufTy
  | .hbm, ⟨0, _⟩ => ⟨S15000x768, .f32⟩
  | .hbm, ⟨1, _⟩ => ⟨S100000x768, .f32⟩
  | .hbm, ⟨2, _⟩ => ⟨S768x10, .f32⟩
  | .hbm, ⟨3, _⟩ => ⟨S10, .f32⟩
  | .hbm, ⟨4, _⟩ => ⟨S10x128, .f32⟩
  | .hbm, ⟨5, _⟩ => ⟨S128, .f32⟩
  | .hbm, ⟨6, _⟩ => ⟨S512x1024, .f32⟩
  | .hbm, ⟨7, _⟩ => ⟨S512x128, .f32⟩
  | .hbm, ⟨8, _⟩ => ⟨S512, .f32⟩
  | .hbm, ⟨9, _⟩ => ⟨S512, .f32⟩
  | .hbm, ⟨10, _⟩ => ⟨S2x200000, .i32⟩
  | .hbm, ⟨11, _⟩ => ⟨S100000x3, .i32⟩
  | .hbm, ⟨12, _⟩ => ⟨S15000, .i32⟩
  | .hbm, ⟨13, _⟩ => ⟨S1x200000, .i32⟩
  | .hbm, ⟨14, _⟩ => ⟨S200000, .i32⟩
  | .hbm, ⟨15, _⟩ => ⟨S215000, .i32⟩
  | .hbm, ⟨16, _⟩ => ⟨S1x200000, .i32⟩
  | .hbm, ⟨17, _⟩ => ⟨S200000, .i32⟩
  | .hbm, ⟨18, _⟩ => ⟨S215000, .i32⟩
  | .hbm, ⟨19, _⟩ => ⟨S_, .f32⟩
  | .hbm, ⟨20, _⟩ => ⟨S215000, .f32⟩
  | .hbm, ⟨21, _⟩ => ⟨S_, .f32⟩
  | .hbm, ⟨22, _⟩ => ⟨S15000, .f32⟩
  | .hbm, ⟨23, _⟩ => ⟨S215000x1, .i32⟩
  | .hbm, ⟨24, _⟩ => ⟨S15000, .f32⟩
  | .hbm, ⟨25, _⟩ => ⟨S_, .f32⟩
  | .hbm, ⟨26, _⟩ => ⟨S15000, .f32⟩
  | .hbm, ⟨27, _⟩ => ⟨S15000, .i1⟩
  | .hbm, ⟨28, _⟩ => ⟨S15000, .f32⟩
  | .hbm, ⟨29, _⟩ => ⟨S_, .f32⟩
  | .hbm, ⟨30, _⟩ => ⟨S_, .f32⟩
  | .hbm, ⟨31, _⟩ => ⟨S15000, .f32⟩
  | .hbm, ⟨32, _⟩ => ⟨S15000, .f32⟩
  | .hbm, ⟨33, _⟩ => ⟨S_, .i32⟩
  | .hbm, ⟨34, _⟩ => ⟨S215000, .i32⟩
  | .hbm, ⟨35, _⟩ => ⟨S215000, .i1⟩
  | .hbm, ⟨36, _⟩ => ⟨S_, .i32⟩
  | .hbm, ⟨37, _⟩ => ⟨S215000, .i32⟩
  | .hbm, ⟨38, _⟩ => ⟨S215000, .i32⟩
  | .hbm, ⟨39, _⟩ => ⟨S215000, .i32⟩
  | .hbm, ⟨40, _⟩ => ⟨S215000x1, .i32⟩
  | .hbm, ⟨41, _⟩ => ⟨S215000, .f32⟩
  | .hbm, ⟨42, _⟩ => ⟨S_, .i32⟩
  | .hbm, ⟨43, _⟩ => ⟨S215000, .i32⟩
  | .hbm, ⟨44, _⟩ => ⟨S215000, .i1⟩
  | .hbm, ⟨45, _⟩ => ⟨S_, .i32⟩
  | .hbm, ⟨46, _⟩ => ⟨S215000, .i32⟩
  | .hbm, ⟨47, _⟩ => ⟨S215000, .i32⟩
  | .hbm, ⟨48, _⟩ => ⟨S215000, .i32⟩
  | .hbm, ⟨49, _⟩ => ⟨S215000x1, .i32⟩
  | .hbm, ⟨50, _⟩ => ⟨S215000, .f32⟩
  | .hbm, ⟨51, _⟩ => ⟨S215000, .f32⟩
  | .hbm, ⟨52, _⟩ => ⟨S15000x10, .f32⟩
  | .hbm, ⟨53, _⟩ => ⟨S_, .i32⟩
  | .hbm, ⟨54, _⟩ => ⟨S215000, .i32⟩
  | .hbm, ⟨55, _⟩ => ⟨S215000, .i1⟩
  | .hbm, ⟨56, _⟩ => ⟨S_, .i32⟩
  | .hbm, ⟨57, _⟩ => ⟨S215000, .i32⟩
  | .hbm, ⟨58, _⟩ => ⟨S215000, .i32⟩
  | .hbm, ⟨59, _⟩ => ⟨S215000, .i32⟩
  | .hbm, ⟨60, _⟩ => ⟨S215000x1, .i32⟩
  | .hbm, ⟨61, _⟩ => ⟨S215000x10, .f32⟩
  | .hbm, ⟨62, _⟩ => ⟨S215000x1, .f32⟩
  | .hbm, ⟨63, _⟩ => ⟨S215000x10, .f32⟩
  | .hbm, ⟨64, _⟩ => ⟨S215000x10, .f32⟩
  | .hbm, ⟨65, _⟩ => ⟨S_, .f32⟩
  | .hbm, ⟨66, _⟩ => ⟨S15000x10, .f32⟩
  | .hbm, ⟨67, _⟩ => ⟨S215000x1, .i32⟩
  | .hbm, ⟨68, _⟩ => ⟨S15000x10, .f32⟩
  | .hbm, ⟨69, _⟩ => ⟨S1x10, .f32⟩
  | .hbm, ⟨70, _⟩ => ⟨S15000x10, .f32⟩
  | .hbm, ⟨71, _⟩ => ⟨S15000x10, .f32⟩
  | .hbm, ⟨72, _⟩ => ⟨S_, .f32⟩
  | .hbm, ⟨73, _⟩ => ⟨S15000x10, .f32⟩
  | .hbm, ⟨74, _⟩ => ⟨S15000x10, .f32⟩
  | .hbm, ⟨75, _⟩ => ⟨S15000x128, .f32⟩
  | .hbm, ⟨76, _⟩ => ⟨S_, .i32⟩
  | .hbm, ⟨77, _⟩ => ⟨S215000, .i32⟩
  | .hbm, ⟨78, _⟩ => ⟨S215000, .i1⟩
  | .hbm, ⟨79, _⟩ => ⟨S_, .i32⟩
  | .hbm, ⟨80, _⟩ => ⟨S215000, .i32⟩
  | .hbm, ⟨81, _⟩ => ⟨S215000, .i32⟩
  | .hbm, ⟨82, _⟩ => ⟨S215000, .i32⟩
  | .hbm, ⟨83, _⟩ => ⟨S215000x1, .i32⟩
  | .hbm, ⟨84, _⟩ => ⟨S215000x128, .f32⟩
  | .hbm, ⟨85, _⟩ => ⟨S215000x1, .f32⟩
  | .hbm, ⟨86, _⟩ => ⟨S215000x128, .f32⟩
  | .hbm, ⟨87, _⟩ => ⟨S215000x128, .f32⟩
  | .hbm, ⟨88, _⟩ => ⟨S_, .f32⟩
  | .hbm, ⟨89, _⟩ => ⟨S15000x128, .f32⟩
  | .hbm, ⟨90, _⟩ => ⟨S215000x1, .i32⟩
  | .hbm, ⟨91, _⟩ => ⟨S15000x128, .f32⟩
  | .hbm, ⟨92, _⟩ => ⟨S1x128, .f32⟩
  | .hbm, ⟨93, _⟩ => ⟨S15000x128, .f32⟩
  | .hbm, ⟨94, _⟩ => ⟨S15000x128, .f32⟩
  | .hbm, ⟨95, _⟩ => ⟨S100000x1, .i32⟩
  | .hbm, ⟨96, _⟩ => ⟨S100000, .i32⟩
  | .hbm, ⟨97, _⟩ => ⟨S_, .i32⟩
  | .hbm, ⟨98, _⟩ => ⟨S100000, .i32⟩
  | .hbm, ⟨99, _⟩ => ⟨S100000, .i1⟩
  | .hbm, ⟨100, _⟩ => ⟨S_, .i32⟩
  | .hbm, ⟨101, _⟩ => ⟨S100000, .i32⟩
  | .hbm, ⟨102, _⟩ => ⟨S100000, .i32⟩
  | .hbm, ⟨103, _⟩ => ⟨S100000, .i32⟩
  | .hbm, ⟨104, _⟩ => ⟨S100000x1, .i32⟩
  | .hbm, ⟨105, _⟩ => ⟨S100000x128, .f32⟩
  | .hbm, ⟨106, _⟩ => ⟨S100000x1, .i32⟩
  | .hbm, ⟨107, _⟩ => ⟨S100000, .i32⟩
  | .hbm, ⟨108, _⟩ => ⟨S_, .i32⟩
  | .hbm, ⟨109, _⟩ => ⟨S100000, .i32⟩
  | .hbm, ⟨110, _⟩ => ⟨S100000, .i1⟩
  | .hbm, ⟨111, _⟩ => ⟨S_, .i32⟩
  | .hbm, ⟨112, _⟩ => ⟨S100000, .i32⟩
  | .hbm, ⟨113, _⟩ => ⟨S100000, .i32⟩
  | .hbm, ⟨114, _⟩ => ⟨S100000, .i32⟩
  | .hbm, ⟨115, _⟩ => ⟨S100000x1, .i32⟩
  | .hbm, ⟨116, _⟩ => ⟨S100000x128, .f32⟩
  | .hbm, ⟨117, _⟩ => ⟨S512x128, .f32⟩
  | .hbm, ⟨118, _⟩ => ⟨S128x512, .f32⟩
  | .hbm, ⟨119, _⟩ => ⟨S512x768, .f32⟩
  | .hbm, ⟨120, _⟩ => ⟨S768x512, .f32⟩
  | .hbm, ⟨121, _⟩ => ⟨S512x128, .f32⟩
  | .hbm, ⟨122, _⟩ => ⟨S128x512, .f32⟩
  | .hbm, ⟨123, _⟩ => ⟨S512, .f32⟩
  | .hbm, ⟨124, _⟩ => ⟨S1x512, .f32⟩
  | .hbm, ⟨125, _⟩ => ⟨S100000, .f32⟩
  | .local _ .vmem, ⟨0, _⟩ => ⟨S1000x768, .f32⟩
  | .local _ .vmem, ⟨1, _⟩ => ⟨S1000x768, .f32⟩
  | .local _ .vmem, ⟨2, _⟩ => ⟨S768x10, .f32⟩
  | .local _ .vmem, ⟨3, _⟩ => ⟨S1000x10, .f32⟩
  | .local _ .vmem, ⟨4, _⟩ => ⟨S1000x10, .f32⟩
  | .local _ .vmem, ⟨5, _⟩ => ⟨S1000x10, .f32⟩
  | .local _ .vmem, ⟨6, _⟩ => ⟨S1000x10, .f32⟩
  | .local _ .vmem, ⟨7, _⟩ => ⟨S10x128, .f32⟩
  | .local _ .vmem, ⟨8, _⟩ => ⟨S1000x128, .f32⟩
  | .local _ .vmem, ⟨9, _⟩ => ⟨S1000x128, .f32⟩
  | .local _ .vmem, ⟨10, _⟩ => ⟨S2048x128, .f32⟩
  | .local _ .vmem, ⟨11, _⟩ => ⟨S2048x128, .f32⟩
  | .local _ .vmem, ⟨12, _⟩ => ⟨S2048x768, .f32⟩
  | .local _ .vmem, ⟨13, _⟩ => ⟨S2048x768, .f32⟩
  | .local _ .vmem, ⟨14, _⟩ => ⟨S2048x128, .f32⟩
  | .local _ .vmem, ⟨15, _⟩ => ⟨S2048x128, .f32⟩
  | .local _ .vmem, ⟨16, _⟩ => ⟨S128x512, .f32⟩
  | .local _ .vmem, ⟨17, _⟩ => ⟨S768x512, .f32⟩
  | .local _ .vmem, ⟨18, _⟩ => ⟨S128x512, .f32⟩
  | .local _ .vmem, ⟨19, _⟩ => ⟨S1x512, .f32⟩
  | .local _ .vmem, ⟨20, _⟩ => ⟨S2048, .f32⟩
  | .local _ .vmem, ⟨21, _⟩ => ⟨S2048, .f32⟩
  | _, _ => ⟨S15000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_14 : Ref sig .tc := ⟨.hbm, 108, rfl⟩
abbrev main_v76 : Ref sig .tc := ⟨.hbm, 109, rfl⟩
abbrev main_v77 : Ref sig .tc := ⟨.hbm, 110, rfl⟩
abbrev main_c_15 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S768x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x200000_S1x200000_0_0 : S2x200000.Slices ![0, 0] S1x200000
  shapeCasts_S1x200000_S200000 : S1x200000.ShapeCasts S200000
  concatenates_S200000_S15000_S215000_d0 : Shape.Concatenates [S200000, S15000] S215000 0
  slices_S2x200000_S1x200000_1_0 : S2x200000.Slices ![1, 0] S1x200000
  bcast_S_S215000 : S_.BroadcastsInDim S215000 (![] : Fin 0 → Fin S215000.rank)
  bcast_S_S15000 : S_.BroadcastsInDim S15000 (![] : Fin 0 → Fin S15000.rank)
  bcast_S215000_S215000x1_0 : S215000.BroadcastsInDim S215000x1 (![0] : Fin 1 → Fin S215000x1.rank)
  inb_S1000x768_S1000x768_0_0 : ∀ a, (![0, 0] : Fin 2 → Nat) a + S1000x768.size a ≤ S1000x768.size a
  h_S1000x768 : 0 < S1000x768.numel
  bitsLt_bf16_f32 : FTy.bits .bf16 < FTy.bits .f32
  inb_S768x10_S768x10_0_0 : ∀ a, (![0, 0] : Fin 2 → Nat) a + S768x10.size a ≤ S768x10.size a
  h_S768x10 : 0 < S768x10.numel
  inb_S1000x10_S1000x10_0_0 : ∀ a, (![0, 0] : Fin 2 → Nat) a + S1000x10.size a ≤ S1000x10.size a
  h_S1000x10 : 0 < S1000x10.numel
  bcast_S215000x1_S215000x10_0_1 : S215000x1.BroadcastsInDim S215000x10 (![0, 1] : Fin 2 → Fin S215000x10.rank)
  bcast_S_S15000x10 : S_.BroadcastsInDim S15000x10 (![] : Fin 0 → Fin S15000x10.rank)
  bcast_S10_S1x10_1 : S10.BroadcastsInDim S1x10 (![1] : Fin 1 → Fin S1x10.rank)
  bcast_S1x10_S15000x10_0_1 : S1x10.BroadcastsInDim S15000x10 (![0, 1] : Fin 2 → Fin S15000x10.rank)
  shapeCasts_S1000x10_S1000x10 : S1000x10.ShapeCasts S1000x10
  inb_S10x128_S10x128_0_0 : ∀ a, (![0, 0] : Fin 2 → Nat) a + S10x128.size a ≤ S10x128.size a
  h_S10x128 : 0 < S10x128.numel
  inb_S1000x128_S1000x128_0_0 : ∀ a, (![0, 0] : Fin 2 → Nat) a + S1000x128.size a ≤ S1000x128.size a
  h_S1000x128 : 0 < S1000x128.numel
  bcast_S215000x1_S215000x128_0_1 : S215000x1.BroadcastsInDim S215000x128 (![0, 1] : Fin 2 → Fin S215000x128.rank)
  bcast_S_S15000x128 : S_.BroadcastsInDim S15000x128 (![] : Fin 0 → Fin S15000x128.rank)
  bcast_S128_S1x128_1 : S128.BroadcastsInDim S1x128 (![1] : Fin 1 → Fin S1x128.rank)
  bcast_S1x128_S15000x128_0_1 : S1x128.BroadcastsInDim S15000x128 (![0, 1] : Fin 2 → Fin S15000x128.rank)
  slices_S100000x3_S100000x1_0_0 : S100000x3.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x3_S100000x1_0_2 : S100000x3.Slices ![0, 2] S100000x1
  slices_S512x1024_S512x128_0_0 : S512x1024.Slices ![0, 0] S512x128
  transposes_S512x128_S128x512_1_0 : S512x128.Transposes [1, 0] S128x512
  slices_S512x1024_S512x768_0_128 : S512x1024.Slices ![0, 128] S512x768
  transposes_S512x768_S768x512_1_0 : S512x768.Transposes [1, 0] S768x512
  slices_S512x1024_S512x128_0_896 : S512x1024.Slices ![0, 896] S512x128
  shapeCasts_S512_S1x512 : S512.ShapeCasts S1x512
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x768_S2048x768_0_0 : ∀ a, (![0, 0] : Fin 2 → Nat) a + S2048x768.size a ≤ S2048x768.size a
  h_S2048x768 : 0 < S2048x768.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x128 : S2048x512.Slices ![0, 0] S2048x128
  slices_S2048x512_o0_256_S2048x128 : S2048x512.Slices ![0, 256] S2048x128
  slices_S2048x512_o0_384_S2048x128 : S2048x512.Slices ![0, 384] S2048x128
  reduces_S2048x128_S2048 : S2048x128.Reduces [1] S2048
  inb_S2048_S2048_0 : ∀ a, (![0] : Fin 1 → Nat) a + S2048.size a ≤ S2048.size a
  h_S2048 : 0 < S2048.numel
  scatter_S15000_S215000x1_S215000_n_0_0_1_wf : ScatterDims.WF S15000 S215000x1 S215000 [] [0] [0] 1
  gather_S15000_S215000x1_S215000_n_0_n_n_0_1_1_wf : GatherDims.WF S15000 S215000x1 S215000 [] [0] [] [0] [] 1 ![1]
  dot_S1000x768_S768x10_S1000x10_1_0_0_1_n_n_wf : DotDims.WF S1000x768 S768x10 S1000x10 [1] [0] [0] [1] [] []
  gather_S15000x10_S215000x1_S215000x10_1_0_n_n_0_1_110_wf : GatherDims.WF S15000x10 S215000x1 S215000x10 [1] [0] [] [0] [] 1 ![1, 10]
  scatter_S15000x10_S215000x1_S215000x10_1_0_0_1_wf : ScatterDims.WF S15000x10 S215000x1 S215000x10 [1] [0] [0] 1
  dot_S1000x10_S10x128_S1000x128_1_0_0_1_n_n_wf : DotDims.WF S1000x10 S10x128 S1000x128 [1] [0] [0] [1] [] []
  gather_S15000x128_S215000x1_S215000x128_1_0_n_n_0_1_1128_wf : GatherDims.WF S15000x128 S215000x1 S215000x128 [1] [0] [] [0] [] 1 ![1, 128]
  scatter_S15000x128_S215000x1_S215000x128_1_0_0_1_wf : ScatterDims.WF S15000x128 S215000x1 S215000x128 [1] [0] [0] 1
  gather_S15000x128_S100000x1_S100000x128_1_0_n_n_0_1_1128_wf : GatherDims.WF S15000x128 S100000x1 S100000x128 [1] [0] [] [0] [] 1 ![1, 128]
  dot_S2048x128_S128x512_S2048x512_1_0_0_1_n_n_wf : DotDims.WF S2048x128 S128x512 S2048x512 [1] [0] [0] [1] [] []
  dot_S2048x768_S768x512_S2048x512_1_0_0_1_n_n_wf : DotDims.WF S2048x768 S768x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x768.size a ≤ S15000x768.size a
  hwx0_0 : ∀ i : grid0.Coords, EltTy.bits .f32 = 32 ∨ (Rect.block (s := S15000x768) S1000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x10.size a ≤ S768x10.size a
  hwx0_1 : ∀ i : grid0.Coords, EltTy.bits .f32 = 32 ∨ (Rect.block (s := S768x10) S768x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x10.size a ≤ S15000x10.size a
  hwx0_2 : ∀ i : grid0.Coords, EltTy.bits .f32 = 32 ∨ (Rect.block (s := S15000x10) S1000x10.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10.size a ≤ S15000x10.size a
  hwx1_0 : ∀ i : grid1.Coords, EltTy.bits .f32 = 32 ∨ (Rect.block (s := S15000x10) S1000x10.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10x128.size a ≤ S10x128.size a
  hwx1_1 : ∀ i : grid1.Coords, EltTy.bits .f32 = 32 ∨ (Rect.block (s := S10x128) S10x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S15000x128.size a
  hwx1_2 : ∀ i : grid1.Coords, EltTy.bits .f32 = 32 ∨ (Rect.block (s := S15000x128) S1000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S2048x128.size a < S100000x128.size a
  hwx2_0 : ∀ i : grid2.Coords, EltTy.bits .f32 = 32 ∨ (Rect.unit (s := S100000x128) (fun a => cc2_transform_0 i a * S2048x128.size a) (fun a => (Pipeline.Clip.of (cc2_transform_0 i a) (S2048x128.size a) (S100000x128.size a)).extent (S2048x128.size a)) fun a => Pipeline.Clip.inb (Pipeline.Clip.ok_of (hstart2_0 i a))).WholeWords (EltTy.packing .f32)
  hwxs2_0 : ∀ i : grid2.Coords, EltTy.bits .f32 = 32 ∨ (Rect.unit (s := S2048x128) (fun _ => 0) (fun a => (Pipeline.Clip.of (cc2_transform_0 i a) (S2048x128.size a) (S100000x128.size a)).extent (S2048x128.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S2048x768.size a < S100000x768.size a
  hwx2_1 : ∀ i : grid2.Coords, EltTy.bits .f32 = 32 ∨ (Rect.unit (s := S100000x768) (fun a => cc2_transform_1 i a * S2048x768.size a) (fun a => (Pipeline.Clip.of (cc2_transform_1 i a) (S2048x768.size a) (S100000x768.size a)).extent (S2048x768.size a)) fun a => Pipeline.Clip.inb (Pipeline.Clip.ok_of (hstart2_1 i a))).WholeWords (EltTy.packing .f32)
  hwxs2_1 : ∀ i : grid2.Coords, EltTy.bits .f32 = 32 ∨ (Rect.unit (s := S2048x768) (fun _ => 0) (fun a => (Pipeline.Clip.of (cc2_transform_1 i a) (S2048x768.size a) (S100000x768.size a)).extent (S2048x768.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S2048x128.size a < S100000x128.size a
  hwx2_2 : ∀ i : grid2.Coords, EltTy.bits .f32 = 32 ∨ (Rect.unit (s := S100000x128) (fun a => cc2_transform_2 i a * S2048x128.size a) (fun a => (Pipeline.Clip.of (cc2_transform_2 i a) (S2048x128.size a) (S100000x128.size a)).extent (S2048x128.size a)) fun a => Pipeline.Clip.inb (Pipeline.Clip.ok_of (hstart2_2 i a))).WholeWords (EltTy.packing .f32)
  hwxs2_2 : ∀ i : grid2.Coords, EltTy.bits .f32 = 32 ∨ (Rect.unit (s := S2048x128) (fun _ => 0) (fun a => (Pipeline.Clip.of (cc2_transform_2 i a) (S2048x128.size a) (S100000x128.size a)).extent (S2048x128.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x512.size a ≤ S128x512.size a
  hwx2_3 : ∀ i : grid2.Coords, EltTy.bits .f32 = 32 ∨ (Rect.block (s := S128x512) S128x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S768x512.size a ≤ S768x512.size a
  hwx2_4 : ∀ i : grid2.Coords, EltTy.bits .f32 = 32 ∨ (Rect.block (s := S768x512) S768x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x512.size a ≤ S128x512.size a
  hwx2_5 : ∀ i : grid2.Coords, EltTy.bits .f32 = 32 ∨ (Rect.block (s := S128x512) S128x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hstart2_7 : ∀ (i : grid2.Coords) a, cc2_transform_7 i a * S2048.size a < S100000.size a
  hwx2_7 : ∀ i : grid2.Coords, EltTy.bits .f32 = 32 ∨ (Rect.unit (s := S100000) (fun a => cc2_transform_7 i a * S2048.size a) (fun a => (Pipeline.Clip.of (cc2_transform_7 i a) (S2048.size a) (S100000.size a)).extent (S2048.size a)) fun a => Pipeline.Clip.inb (Pipeline.Clip.ok_of (hstart2_7 i a))).WholeWords (EltTy.packing .f32)
  hwxs2_7 : ∀ i : grid2.Coords, EltTy.bits .f32 = 32 ∨ (Rect.unit (s := S2048) (fun _ => 0) (fun a => (Pipeline.Clip.of (cc2_transform_7 i a) (S2048.size a) (S100000.size a)).extent (S2048.size a)) fun a => (Nat.zero_add _).trans_le (Pipeline.Clip.extent_le (Pipeline.Clip.ok_of (hstart2_7 i a)))).WholeWords (EltTy.packing .f32)

variable [Facts₀]

def scatter_S15000_S215000x1_S215000_n_0_0_1 : ScatterDims S15000 S215000x1 S215000 where
  updateWindowDims := []
  insertedWindowDims := [0]
  scatterDimsToOperandDims := [0]
  indexVectorDim := 1
  wf := scatter_S15000_S215000x1_S215000_n_0_0_1_wf
def gather_S15000_S215000x1_S215000_n_0_n_n_0_1_1 : GatherDims S15000 S215000x1 S215000 where
  offsetDims := []
  collapsedSliceDims := [0]
  operandBatchingDims := []
  startIndicesBatchingDims := []
  startIndexMap := [0]
  indexVectorDim := 1
  sliceSizes := ![1]
  wf := gather_S15000_S215000x1_S215000_n_0_n_n_0_1_1_wf
def dot_S1000x768_S768x10_S1000x10_1_0_0_1_n_n : DotDims S1000x768 S768x10 S1000x10 where
  lhsContracting := [1]
  rhsContracting := [0]
  lhsNonContracting := [0]
  rhsNonContracting := [1]
  lhsBatch := []
  rhsBatch := []
  wf := dot_S1000x768_S768x10_S1000x10_1_0_0_1_n_n_wf
def gather_S15000x10_S215000x1_S215000x10_1_0_n_n_0_1_110 : GatherDims S15000x10 S215000x1 S215000x10 where
  offsetDims := [1]
  collapsedSliceDims := [0]
  operandBatchingDims := []
  startIndicesBatchingDims := []
  startIndexMap := [0]
  indexVectorDim := 1
  sliceSizes := ![1, 10]
  wf := gather_S15000x10_S215000x1_S215000x10_1_0_n_n_0_1_110_wf
def scatter_S15000x10_S215000x1_S215000x10_1_0_0_1 : ScatterDims S15000x10 S215000x1 S215000x10 where
  updateWindowDims := [1]
  insertedWindowDims := [0]
  scatterDimsToOperandDims := [0]
  indexVectorDim := 1
  wf := scatter_S15000x10_S215000x1_S215000x10_1_0_0_1_wf
def dot_S1000x10_S10x128_S1000x128_1_0_0_1_n_n : DotDims S1000x10 S10x128 S1000x128 where
  lhsContracting := [1]
  rhsContracting := [0]
  lhsNonContracting := [0]
  rhsNonContracting := [1]
  lhsBatch := []
  rhsBatch := []
  wf := dot_S1000x10_S10x128_S1000x128_1_0_0_1_n_n_wf
def gather_S15000x128_S215000x1_S215000x128_1_0_n_n_0_1_1128 : GatherDims S15000x128 S215000x1 S215000x128 where
  offsetDims := [1]
  collapsedSliceDims := [0]
  operandBatchingDims := []
  startIndicesBatchingDims := []
  startIndexMap := [0]
  indexVectorDim := 1
  sliceSizes := ![1, 128]
  wf := gather_S15000x128_S215000x1_S215000x128_1_0_n_n_0_1_1128_wf
def scatter_S15000x128_S215000x1_S215000x128_1_0_0_1 : ScatterDims S15000x128 S215000x1 S215000x128 where
  updateWindowDims := [1]
  insertedWindowDims := [0]
  scatterDimsToOperandDims := [0]
  indexVectorDim := 1
  wf := scatter_S15000x128_S215000x1_S215000x128_1_0_0_1_wf
def gather_S15000x128_S100000x1_S100000x128_1_0_n_n_0_1_1128 : GatherDims S15000x128 S100000x1 S100000x128 where
  offsetDims := [1]
  collapsedSliceDims := [0]
  operandBatchingDims := []
  startIndicesBatchingDims := []
  startIndexMap := [0]
  indexVectorDim := 1
  sliceSizes := ![1, 128]
  wf := gather_S15000x128_S100000x1_S100000x128_1_0_n_n_0_1_1128_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x768_S768x512_S2048x512_1_0_0_1_n_n : DotDims S2048x768 S768x512 S2048x512 where
  lhsContracting := [1]
  rhsContracting := [0]
  lhsNonContracting := [0]
  rhsNonContracting := [1]
  lhsBatch := []
  rhsBatch := []
  wf := dot_S2048x768_S768x512_S2048x512_1_0_0_1_n_n_wf

abbrev win0_0 : Pipeline.Window sig grid0 :=
  Pipeline.Window.ofSpec (Memref.whole main_arg0) S1000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1000x10.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S1000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S10x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpecClip (Memref.whole main_v73) S2048x128.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_arg1) S2048x768.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v82) S2048x128.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpec (Memref.whole main_v84) S128x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v86) S768x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v88) S128x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v90) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpecClip (Memref.whole main_v91) S2048.size cc2_transform_7 reads2_7 true false 2 stage2_7 sem2_7
    hrank2 hreads2_7 hstart2_7 nbuf2_7 (Memref.isWhole_whole _) hwx2_7 hwxs2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S15000x768 : Shape := ⟨2, ![15000, 768]⟩
abbrev S100000x768 : Shape := ⟨2, ![100000, 768]⟩
abbrev S768x10 : Shape := ⟨2, ![768, 10]⟩
abbrev S10 : Shape := ⟨1, ![10]⟩
abbrev S10x128 : Shape := ⟨2, ![10, 128]⟩
abbrev S128 : Shape := ⟨1, ![128]⟩
abbrev S512x1024 : Shape := ⟨2, ![512, 1024]⟩
abbrev S512x128 : Shape := ⟨2, ![512, 128]⟩
abbrev S512 : Shape := ⟨1, ![512]⟩
abbrev S2x200000 : Shape := ⟨2, ![2, 200000]⟩
abbrev S100000x3 : Shape := ⟨2, ![100000, 3]⟩
abbrev S15000 : Shape := ⟨1, ![15000]⟩
abbrev S1x200000 : Shape := ⟨2, ![1, 200000]⟩
abbrev S200000 : Shape := ⟨1, ![200000]⟩
abbrev S215000 : Shape := ⟨1, ![215000]⟩
abbrev S_ : Shape := ⟨0, ![]⟩
abbrev S215000x1 : Shape := ⟨2, ![215000, 1]⟩
abbrev S15000x10 : Shape := ⟨2, ![15000, 10]⟩
abbrev S215000x10 : Shape := ⟨2, ![215000, 10]⟩
abbrev S1x10 : Shape := ⟨2, ![1, 10]⟩
abbrev S15000x128 : Shape := ⟨2, ![15000, 128]⟩
abbrev S215000x128 : Shape := ⟨2, ![215000, 128]⟩
abbrev S1x128 : Shape := ⟨2, ![1, 128]⟩
abbrev S100000x1 : Shape := ⟨2, ![100000, 1]⟩
abbrev S100000 : Shape := ⟨1, ![100000]⟩
abbrev S100000x128 : Shape := ⟨2, ![100000, 128]⟩
abbrev S100000x1024 : Shape := ⟨2, ![100000, 1024]⟩
abbrev S1024x512 : Shape := ⟨2, ![1024, 512]⟩
abbrev S100000x512 : Shape := ⟨2, ![100000, 512]⟩
abbrev S1x512 : Shape := ⟨2, ![1, 512]⟩

abbrev nBuf : Space → Nat
  | .hbm => 158
  | .vmem => 0
  | .smem => 0
  | _ => 0

abbrev hbmTy0_0 (i : Nat) : BufTy := match i % 128 with
  | 0 => ⟨S15000x768, .f32⟩
  | 1 => ⟨S100000x768, .f32⟩
  | 2 => ⟨S768x10, .f32⟩
  | 3 => ⟨S10, .f32⟩
  | 4 => ⟨S10x128, .f32⟩
  | 5 => ⟨S128, .f32⟩
  | 6 => ⟨S512x1024, .f32⟩
  | 7 => ⟨S512x128, .f32⟩
  | 8 => ⟨S512, .f32⟩
  | 9 => ⟨S512, .f32⟩
  | 10 => ⟨S2x200000, .i32⟩
  | 11 => ⟨S100000x3, .i32⟩
  | 12 => ⟨S15000, .i32⟩
  | 13 => ⟨S1x200000, .i32⟩
  | 14 => ⟨S200000, .i32⟩
  | 15 => ⟨S215000, .i32⟩
  | 16 => ⟨S1x200000, .i32⟩
  | 17 => ⟨S200000, .i32⟩
  | 18 => ⟨S215000, .i32⟩
  | 19 => ⟨S_, .f32⟩
  | 20 => ⟨S215000, .f32⟩
  | 21 => ⟨S_, .f32⟩
  | 22 => ⟨S15000, .f32⟩
  | 23 => ⟨S215000x1, .i32⟩
  | 24 => ⟨S15000, .f32⟩
  | 25 => ⟨S_, .f32⟩
  | 26 => ⟨S15000, .f32⟩
  | 27 => ⟨S15000, .i1⟩
  | 28 => ⟨S15000, .f32⟩
  | 29 => ⟨S_, .f32⟩
  | 30 => ⟨S_, .f32⟩
  | 31 => ⟨S15000, .f32⟩
  | 32 => ⟨S15000, .f32⟩
  | 33 => ⟨S_, .i32⟩
  | 34 => ⟨S215000, .i32⟩
  | 35 => ⟨S215000, .i1⟩
  | 36 => ⟨S_, .i32⟩
  | 37 => ⟨S215000, .i32⟩
  | 38 => ⟨S215000, .i32⟩
  | 39 => ⟨S215000, .i32⟩
  | 40 => ⟨S215000x1, .i32⟩
  | 41 => ⟨S215000, .f32⟩
  | 42 => ⟨S_, .i32⟩
  | 43 => ⟨S215000, .i32⟩
  | 44 => ⟨S215000, .i1⟩
  | 45 => ⟨S_, .i32⟩
  | 46 => ⟨S215000, .i32⟩
  | 47 => ⟨S215000, .i32⟩
  | 48 => ⟨S215000, .i32⟩
  | 49 => ⟨S215000x1, .i32⟩
  | 50 => ⟨S215000, .f32⟩
  | 51 => ⟨S215000, .f32⟩
  | 52 => ⟨S15000x10, .f32⟩
  | 53 => ⟨S_, .i32⟩
  | 54 => ⟨S215000, .i32⟩
  | 55 => ⟨S215000, .i1⟩
  | 56 => ⟨S_, .i32⟩
  | 57 => ⟨S215000, .i32⟩
  | 58 => ⟨S215000, .i32⟩
  | 59 => ⟨S215000, .i32⟩
  | 60 => ⟨S215000x1, .i32⟩
  | 61 => ⟨S215000x10, .f32⟩
  | 62 => ⟨S215000x1, .f32⟩
  | 63 => ⟨S215000x10, .f32⟩
  | 64 => ⟨S215000x10, .f32⟩
  | 65 => ⟨S_, .f32⟩
  | 66 => ⟨S15000x10, .f32⟩
  | 67 => ⟨S215000x1, .i32⟩
  | 68 => ⟨S15000x10, .f32⟩
  | 69 => ⟨S1x10, .f32⟩
  | 70 => ⟨S15000x10, .f32⟩
  | 71 => ⟨S15000x10, .f32⟩
  | 72 => ⟨S_, .f32⟩
  | 73 => ⟨S15000x10, .f32⟩
  | 74 => ⟨S15000x10, .f32⟩
  | 75 => ⟨S15000x128, .f32⟩
  | 76 => ⟨S_, .i32⟩
  | 77 => ⟨S215000, .i32⟩
  | 78 => ⟨S215000, .i1⟩
  | 79 => ⟨S_, .i32⟩
  | 80 => ⟨S215000, .i32⟩
  | 81 => ⟨S215000, .i32⟩
  | 82 => ⟨S215000, .i32⟩
  | 83 => ⟨S215000x1, .i32⟩
  | 84 => ⟨S215000x128, .f32⟩
  | 85 => ⟨S215000x1, .f32⟩
  | 86 => ⟨S215000x128, .f32⟩
  | 87 => ⟨S215000x128, .f32⟩
  | 88 => ⟨S_, .f32⟩
  | 89 => ⟨S15000x128, .f32⟩
  | 90 => ⟨S215000x1, .i32⟩
  | 91 => ⟨S15000x128, .f32⟩
  | 92 => ⟨S1x128, .f32⟩
  | 93 => ⟨S15000x128, .f32⟩
  | 94 => ⟨S15000x128, .f32⟩
  | 95 => ⟨S100000x1, .i32⟩
  | 96 => ⟨S100000, .i32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S100000x1, .i32⟩
  | 105 => ⟨S100000x128, .f32⟩
  | 106 => ⟨S100000x1, .i32⟩
  | 107 => ⟨S100000, .i32⟩
  | 108 => ⟨S_, .i32⟩
  | 109 => ⟨S100000, .i32⟩
  | 110 => ⟨S100000, .i1⟩
  | 111 => ⟨S_, .i32⟩
  | 112 => ⟨S100000, .i32⟩
  | 113 => ⟨S100000, .i32⟩
  | 114 => ⟨S100000, .i32⟩
  | 115 => ⟨S100000x1, .i32⟩
  | 116 => ⟨S100000x128, .f32⟩
  | 117 => ⟨S100000x1024, .f32⟩
  | 118 => ⟨S1024x512, .f32⟩
  | 119 => ⟨S100000x512, .f32⟩
  | 120 => ⟨S512, .f32⟩
  | 121 => ⟨S1x512, .f32⟩
  | 122 => ⟨S100000x512, .f32⟩
  | 123 => ⟨S100000x512, .f32⟩
  | 124 => ⟨S100000x128, .f32⟩
  | 125 => ⟨S100000x128, .f32⟩
  | 126 => ⟨S100000x128, .f32⟩
  | 127 => ⟨S100000x128, .f32⟩
  | _ => ⟨S15000x768, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S100000x128, .f32⟩
  | 9 => ⟨S100000x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S100000x128, .f32⟩
  | 19 => ⟨S100000x128, .f32⟩
  | 20 => ⟨S_, .f32⟩
  | 21 => ⟨S100000, .f32⟩
  | 22 => ⟨S100000, .f32⟩
  | 23 => ⟨S100000, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | _ => ⟨S15000x768, .f32⟩

abbrev hbmTy (i : Nat) : BufTy := match i / 128 with
  | 0 => hbmTy0_0 i
  | 1 => hbmTy0_1 i
  | _ => ⟨S15000x768, .f32⟩

abbrev bufTy : (tb : Table) → Fin (tcTables nBuf tb) → BufTy
  | .hbm, ⟨i, _⟩ => hbmTy i
  | _, _ => ⟨S15000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_14 : Ref sig .tc := ⟨.hbm, 108, rfl⟩
abbrev main_v76 : Ref sig .tc := ⟨.hbm, 109, rfl⟩
abbrev main_v77 : Ref sig .tc := ⟨.hbm, 110, rfl⟩
abbrev main_c_15 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_16 : Ref sig .tc := ⟨.hbm, 130, rfl⟩
abbrev main_v96 : Ref sig .tc := ⟨.hbm, 131, rfl⟩
abbrev main_v97 : Ref sig .tc := ⟨.hbm, 132, rfl⟩
abbrev main_cst_17 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_18 : Ref sig .tc := ⟨.hbm, 140, rfl⟩
abbrev main_v104 : Ref sig .tc := ⟨.hbm, 141, rfl⟩
abbrev main_v105 : Ref sig .tc := ⟨.hbm, 142, rfl⟩
abbrev main_cst_19 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_20 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_21 : Ref sig .tc := ⟨.hbm, 152, rfl⟩
abbrev main_v113 : Ref sig .tc := ⟨.hbm, 153, rfl⟩
abbrev main_v114 : Ref sig .tc := ⟨.hbm, 154, rfl⟩
abbrev main_cst_22 : Ref sig .tc := ⟨.hbm, 155, rfl⟩
abbrev main_v115 : Ref sig .tc := ⟨.hbm, 156, rfl⟩
abbrev main_v116 : Ref sig .tc := ⟨.hbm, 157, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  concatenates_S200000_S15000_S215000_d0 : Shape.Concatenates [S200000, S15000] S215000 0
  slices_S2x200000_S1x200000_1_0 : S2x200000.Slices ![1, 0] S1x200000
  bcast_S_S215000 : S_.BroadcastsInDim S215000 (![] : Fin 0 → Fin S215000.rank)
  bcast_S_S15000 : S_.BroadcastsInDim S15000 (![] : Fin 0 → Fin S15000.rank)
  bcast_S215000_S215000x1_0 : S215000.BroadcastsInDim S215000x1 (![0] : Fin 1 → Fin S215000x1.rank)
  bcast_S215000x1_S215000x10_0_1 : S215000x1.BroadcastsInDim S215000x10 (![0, 1] : Fin 2 → Fin S215000x10.rank)
  bcast_S_S15000x10 : S_.BroadcastsInDim S15000x10 (![] : Fin 0 → Fin S15000x10.rank)
  bcast_S10_S1x10_1 : S10.BroadcastsInDim S1x10 (![1] : Fin 1 → Fin S1x10.rank)
  bcast_S1x10_S15000x10_0_1 : S1x10.BroadcastsInDim S15000x10 (![0, 1] : Fin 2 → Fin S15000x10.rank)
  bcast_S215000x1_S215000x128_0_1 : S215000x1.BroadcastsInDim S215000x128 (![0, 1] : Fin 2 → Fin S215000x128.rank)
  bcast_S_S15000x128 : S_.BroadcastsInDim S15000x128 (![] : Fin 0 → Fin S15000x128.rank)
  bcast_S128_S1x128_1 : S128.BroadcastsInDim S1x128 (![1] : Fin 1 → Fin S1x128.rank)
  bcast_S1x128_S15000x128_0_1 : S1x128.BroadcastsInDim S15000x128 (![0, 1] : Fin 2 → Fin S15000x128.rank)
  slices_S100000x3_S100000x1_0_0 : S100000x3.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x3_S100000x1_0_2 : S100000x3.Slices ![0, 2] S100000x1
  concatenates_S100000x128_S100000x768_S100000x128_S100000x1024_d1 : Shape.Concatenates [S100000x128, S100000x768, S100000x128] S100000x1024 1
  transposes_S512x1024_S1024x512_1_0 : S512x1024.Transposes [1, 0] S1024x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  slices_S100000x512_S100000x128_0_0 : S100000x512.Slices ![0, 0] S100000x128
  slices_S100000x512_S100000x128_0_128 : S100000x512.Slices ![0, 128] S100000x128
  slices_S100000x512_S100000x128_0_256 : S100000x512.Slices ![0, 256] S100000x128
  slices_S100000x512_S100000x128_0_384 : S100000x512.Slices ![0, 384] S100000x128
  bcast_S_S100000x128 : S_.BroadcastsInDim S100000x128 (![] : Fin 0 → Fin S100000x128.rank)
  reducesTo_S100000x128_S100000_d1 : S100000x128.ReducesTo [1] S100000
  h_S_ : 0 < S_.numel
  scatter_S15000_S215000x1_S215000_n_0_0_1_wf : ScatterDims.WF S15000 S215000x1 S215000 [] [0] [0] 1
  gather_S15000_S215000x1_S215000_n_0_n_n_0_1_1_wf : GatherDims.WF S15000 S215000x1 S215000 [] [0] [] [0] [] 1 ![1]
  dot_S15000x768_S768x10_S15000x10_1_0_0_1_n_n_wf : DotDims.WF S15000x768 S768x10 S15000x10 [1] [0] [0] [1] [] []
  gather_S15000x10_S215000x1_S215000x10_1_0_n_n_0_1_110_wf : GatherDims.WF S15000x10 S215000x1 S215000x10 [1] [0] [] [0] [] 1 ![1, 10]
  scatter_S15000x10_S215000x1_S215000x10_1_0_0_1_wf : ScatterDims.WF S15000x10 S215000x1 S215000x10 [1] [0] [0] 1
  dot_S15000x10_S10x128_S15000x128_1_0_0_1_n_n_wf : DotDims.WF S15000x10 S10x128 S15000x128 [1] [0] [0] [1] [] []
  gather_S15000x128_S215000x1_S215000x128_1_0_n_n_0_1_1128_wf : GatherDims.WF S15000x128 S215000x1 S215000x128 [1] [0] [] [0] [] 1 ![1, 128]
  scatter_S15000x128_S215000x1_S215000x128_1_0_0_1_wf : ScatterDims.WF S15000x128 S215000x1 S215000x128 [1] [0] [0] 1
  gather_S15000x128_S100000x1_S100000x128_1_0_n_n_0_1_1128_wf : GatherDims.WF S15000x128 S100000x1 S100000x128 [1] [0] [] [0] [] 1 ![1, 128]
  dot_S100000x1024_S1024x512_S100000x512_1_0_0_1_n_n_wf : DotDims.WF S100000x1024 S1024x512 S100000x512 [1] [0] [0] [1] [] []

variable [Facts₀]

def scatter_S15000_S215000x1_S215000_n_0_0_1 : ScatterDims S15000 S215000x1 S215000 where
  updateWindowDims := []
  insertedWindowDims := [0]
  scatterDimsToOperandDims := [0]
  indexVectorDim := 1
  wf := scatter_S15000_S215000x1_S215000_n_0_0_1_wf
def gather_S15000_S215000x1_S215000_n_0_n_n_0_1_1 : GatherDims S15000 S215000x1 S215000 where
  offsetDims := []
  collapsedSliceDims := [0]
  operandBatchingDims := []
  startIndicesBatchingDims := []
  startIndexMap := [0]
  indexVectorDim := 1
  sliceSizes := ![1]
  wf := gather_S15000_S215000x1_S215000_n_0_n_n_0_1_1_wf
def dot_S15000x768_S768x10_S15000x10_1_0_0_1_n_n : DotDims S15000x768 S768x10 S15000x10 where
  lhsContracting := [1]
  rhsContracting := [0]
  lhsNonContracting := [0]
  rhsNonContracting := [1]
  lhsBatch := []
  rhsBatch := []
  wf := dot_S15000x768_S768x10_S15000x10_1_0_0_1_n_n_wf
def gather_S15000x10_S215000x1_S215000x10_1_0_n_n_0_1_110 : GatherDims S15000x10 S215000x1 S215000x10 where
  offsetDims := [1]
  collapsedSliceDims := [0]
  operandBatchingDims := []
  startIndicesBatchingDims := []
  startIndexMap := [0]
  indexVectorDim := 1
  sliceSizes := ![1, 10]
  wf := gather_S15000x10_S215000x1_S215000x10_1_0_n_n_0_1_110_wf
def scatter_S15000x10_S215000x1_S215000x10_1_0_0_1 : ScatterDims S15000x10 S215000x1 S215000x10 where
  updateWindowDims := [1]
  insertedWindowDims := [0]
  scatterDimsToOperandDims := [0]
  indexVectorDim := 1
  wf := scatter_S15000x10_S215000x1_S215000x10_1_0_0_1_wf
def dot_S15000x10_S10x128_S15000x128_1_0_0_1_n_n : DotDims S15000x10 S10x128 S15000x128 where
  lhsContracting := [1]
  rhsContracting := [0]
  lhsNonContracting := [0]
  rhsNonContracting := [1]
  lhsBatch := []
  rhsBatch := []
  wf := dot_S15000x10_S10x128_S15000x128_1_0_0_1_n_n_wf
def gather_S15000x128_S215000x1_S215000x128_1_0_n_n_0_1_1128 : GatherDims S15000x128 S215000x1 S215000x128 where
  offsetDims := [1]
  collapsedSliceDims := [0]
  operandBatchingDims := []
  startIndicesBatchingDims := []
  startIndexMap := [0]
  indexVectorDim := 1
  sliceSizes := ![1, 128]
  wf := gather_S15000x128_S215000x1_S215000x128_1_0_n_n_0_1_1128_wf
def scatter_S15000x128_S215000x1_S215000x128_1_0_0_1 : ScatterDims S15000x128 S215000x1 S215000x128 where
  updateWindowDims := [1]
  insertedWindowDims := [0]
  scatterDimsToOperandDims := [0]
  indexVectorDim := 1
  wf := scatter_S15000x128_S215000x1_S215000x128_1_0_0_1_wf
def gather_S15000x128_S100000x1_S100000x128_1_0_n_n_0_1_1128 : GatherDims S15000x128 S100000x1 S100000x128 where
  offsetDims := [1]
  collapsedSliceDims := [0]
  operandBatchingDims := []
  startIndicesBatchingDims := []
  startIndexMap := [0]
  indexVectorDim := 1
  sliceSizes := ![1, 128]
  wf := gather_S15000x128_S100000x1_S100000x128_1_0_n_n_0_1_1128_wf
def dot_S100000x1024_S1024x512_S100000x512_1_0_0_1_n_n : DotDims S100000x1024 S1024x512 S100000x512 where
  lhsContracting := [1]
  rhsContracting := [0]
  lhsNonContracting := [0]
  rhsNonContracting := [1]
  lhsBatch := []
  rhsBatch := []
  wf := dot_S100000x1024_S1024x512_S100000x512_1_0_0_1_n_n_wf

class Facts : Prop extends Facts₀ where

variable [Facts]
-- ==== Proof.KReg0.lean ====
/-
  Region 0 of the program: the first dense layer's product, one block of 1000 rows of the node features
  (1000 x 768) against the whole weight matrix (768 x 10) per grid point, fifteen points. The kernel body
  loads both staged blocks whole, multiplies them (the narrowing to bf16 is part of the payload) and stores
  the 1000 x 10 product whole. Stated at a parameter `V`, the buffer contents when the region is entered.
-/
import proofs.«132953_j50156628082716_1_alg».proof.Proof.Gen.Kernel.Launch
import proofs.«132953_j50156628082716_1_alg».proof.Proof.Gen.Kernel.Skeleton
import proofs.«132953_j50156628082716_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one rectangle the body stores through: the whole 1000 x 10 staging block. -/
abbrev r0_out : Rect S1000x10 := Rect.unit (s := S1000x10) ![0, 0] S1000x10.size inb_S1000x10_S1000x10_0_0

/-- The rectangles the body loads through: each input's whole staging block. -/
abbrev r0_x : Rect S1000x768 := Rect.unit (s := S1000x768) ![0, 0] S1000x768.size inb_S1000x768_S1000x768_0_0
abbrev r0_w : Rect S768x10 := Rect.unit (s := S768x10) ![0, 0] S768x10.size inb_S768x10_S768x10_0_0

/-- What the body leaves in the output's staging block: the product payload of the two input blocks as loaded. -/
def out0_2 (x0 : Vec F S1000x768 .f32) (x1 : Vec F S768x10 .f32) : Vec F S1000x10 .f32 :=
  View.canon [⟨r0_out, k0_pay1 (View.ld x0 r0_x) (View.ld x1 r0_w)⟩]

theorem cover0_2 (p0 : Vec F S1000x10 .f32) (y : S1000x10.Idx) :
    ∃ pc ∈ ([⟨r0_out, p0⟩] : List (View.Piece (Elt F) S1000x10 .f32)), y ∈ pc.1.set :=
  View.cover_of_tiled [⟨r0_out, p0⟩] S1000x10.size (by rfl) y

set_option maxHeartbeats 1000000 in
/-- The body on whole staging memrefs: the inputs are read and left as they were, the output ends at the product. -/
theorem sound_kernel0 (c : Dev nD) (E : Set ℕ) (i : grid0.Coords)
    (arg1 : Memref sig .tc .vmem S1000x768 .f32) (harg1 : arg1.IsWhole) (arg2 : Memref sig .tc .vmem S768x10 .f32) (harg2 : arg2.IsWhole)
    (arg3 : Memref sig .tc .vmem S1000x10 .f32) (harg3 : arg3.IsWhole)
    (x0 : Vec F S1000x768 .f32) (x1 : Vec F S768x10 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 (F := F) _)

/-- The proof data of pipeline 0 on core `c`: arrays as found; after the body each input's buffer at its block,
    the output's at the product of the two blocks; the class invariant; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
/- Region 1 of the program: the second dense layer's product, one block of 1000 rows of the hidden features
  (1000 x 10) against the whole weight matrix (10 x 128) per grid point, fifteen points. The kernel body
  loads both staged blocks whole, multiplies them and stores the 1000 x 128 product whole. Stated at a
  parameter `V`, the buffer contents when the region is entered.
-/
import proofs.«132953_j50156628082716_1_alg».proof.Proof.Gen.Kernel.Launch
import proofs.«132953_j50156628082716_1_alg».proof.Proof.Gen.Kernel.Skeleton
import proofs.«132953_j50156628082716_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The one rectangle the body stores through: the whole 1000 x 10 staging block. -/
abbrev r1_out : Rect S1000x128 := Rect.unit (s := S1000x128) ![0, 0] S1000x128.size inb_S1000x128_S1000x128_0_0

/-- The rectangles the body loads through: each input's whole staging block. -/
abbrev r1_x : Rect S1000x10 := Rect.unit (s := S1000x10) ![0, 0] S1000x10.size inb_S1000x10_S1000x10_0_0
abbrev r1_w : Rect S10x128 := Rect.unit (s := S10x128) ![0, 0] S10x128.size inb_S10x128_S10x128_0_0

/-- What the body leaves in the output's staging block: the product payload of the two input blocks as loaded. -/
def out1_2 (x0 : Vec F S1000x10 .f32) (x1 : Vec F S10x128 .f32) : Vec F S1000x128 .f32 :=
  View.canon [⟨r1_out, k1_pay1 (View.ld x0 r1_x) (View.ld x1 r1_w)⟩]

theorem cover1_2 (p0 : Vec F S1000x128 .f32) (y : S1000x128.Idx) :
    ∃ pc ∈ ([⟨r1_out, p0⟩] : List (View.Piece (Elt F) S1000x128 .f32)), y ∈ pc.1.set :=
  View.cover_of_tiled [⟨r1_out, p0⟩] S1000x128.size (by rfl) y

set_option maxHeartbeats 1000000 in
/-- The body on whole staging memrefs: the inputs are read and left as they were, the output ends at the product. -/
theorem sound_kernel1 (c : Dev nD) (E : Set ℕ) (i : grid1.Coords)
    (arg1 : Memref sig .tc .vmem S1000x10 .f32) (harg1 : arg1.IsWhole) (arg2 : Memref sig .tc .vmem S10x128 .f32) (harg2 : arg2.IsWhole)
    (arg3 : Memref sig .tc .vmem S1000x128 .f32) (harg3 : arg3.IsWhole)
    (x0 : Vec F S1000x10 .f32) (x1 : Vec F S10x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 (F := F) _)

/-- The proof data of pipeline 1 on core `c`: arrays as found; after the body each input's buffer at its block,
    the output's at the product of the two blocks; the class invariant; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2.lean ====
/-
  Region 2 of the program: the per-triple scoring launch, 49 grid points of 2048 triples each over 100000 triples,
  so the last block (rows 98304..100351) overhangs the arrays by 352 rows. The three row-blocked inputs (head
  vectors, relation embeddings, tail vectors) and the row-blocked output are cut at the arrays' end; the four
  weight operands are whole and fetched once. The body loads the seven staged blocks whole, computes one score
  per row and stores the 2048 scores whole. Stated at a parameter `V`, the buffer contents at region entry.
  Rows of a staging buffer past the arrays' end hold words nothing names: every statement below speaks of the
  rows inside the array only.
-/
import proofs.«132953_j50156628082716_1_alg».proof.Proof.Gen.Kernel.Launch
import proofs.«132953_j50156628082716_1_alg».proof.Proof.Gen.Kernel.Skeleton
import proofs.«132953_j50156628082716_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at grid point `t`, its part inside the array, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The same block filled out to the staging buffer's 2048 rows with the zero word past the array's end
    (a filler of the proof's choosing: nothing reads it). -/
def fblk2_0 (c : Dev nD) (t : Fin cfg2.N) : S2048x128.Idx → Elt F .f32 :=
  win2_0.fill (grid2.coords t) (fun _ => Scalar.ofBits .f32 0#32) (iblk2 V c 0 t)
def fblk2_1 (c : Dev nD) (t : Fin cfg2.N) : S2048x768.Idx → Elt F .f32 :=
  win2_1.fill (grid2.coords t) (fun _ => Scalar.ofBits .f32 0#32) (iblk2 V c 1 t)
def fblk2_2 (c : Dev nD) (t : Fin cfg2.N) : S2048x128.Idx → Elt F .f32 :=
  win2_2.fill (grid2.coords t) (fun _ => Scalar.ofBits .f32 0#32) (iblk2 V c 2 t)

/-- The rectangles of the body's whole loads and its whole store. -/
abbrev r2_h : Rect S2048x128 := Rect.unit (s := S2048x128) ![0, 0] S2048x128.size inb_S2048x128_S2048x128_0_0
abbrev r2_r : Rect S2048x768 := Rect.unit (s := S2048x768) ![0, 0] S2048x768.size inb_S2048x768_S2048x768_0_0
abbrev r2_wa : Rect S128x512 := Rect.unit (s := S128x512) ![0, 0] S128x512.size inb_S128x512_S128x512_0_0
abbrev r2_wb : Rect S768x512 := Rect.unit (s := S768x512) ![0, 0] S768x512.size inb_S768x512_S768x512_0_0
abbrev r2_b : Rect S1x512 := Rect.unit (s := S1x512) ![0, 0] S1x512.size inb_S1x512_S1x512_0_0
abbrev r2_out : Rect S2048 := Rect.unit (s := S2048) ![0] S2048.size inb_S2048_S2048_0

/-- What the body leaves in the output's staging buffer, from what the seven input buffers hold. -/
def out2_7 (x0 : Vec F S2048x128 .f32) (x1 : Vec F S2048x768 .f32) (x2 : Vec F S2048x128 .f32)
    (x3 : Vec F S128x512 .f32) (x4 : Vec F S768x512 .f32) (x5 : Vec F S128x512 .f32) (x6 : Vec F S1x512 .f32) : Vec F S2048 .f32 :=
  View.canon [⟨r2_out, k2_pay1 (View.ld x0 r2_h) (View.ld x1 r2_r) (View.ld x2 r2_h) (View.ld x3 r2_wa) (View.ld x4 r2_wb) (View.ld x5 r2_wa) (View.ld x6 r2_b)⟩]

/-- The one stored rectangle is the whole staging block: every index of the block lies in it. -/
theorem cover2_7 (p0 : Vec F S2048 .f32) (y : S2048.Idx) :
    ∃ pc ∈ ([⟨r2_out, p0⟩] : List (View.Piece (Elt F) S2048 .f32)), y ∈ pc.1.set :=
  View.cover_of_tiled [⟨r2_out, p0⟩] S2048.size (by rfl) y

set_option maxHeartbeats 1000000 in
/-- The body on whole staging memrefs: the seven inputs are read and left as they were, whatever they hold;
    the output's buffer ends at `out2_7` of what they hold. -/
theorem sound_kernel2 (c : Dev nD) (E : Set ℕ) (i : grid2.Coords)
    (arg1 : Memref sig .tc .vmem S2048x128 .f32) (harg1 : arg1.IsWhole) (arg2 : Memref sig .tc .vmem S2048x768 .f32) (harg2 : arg2.IsWhole)
    (arg3 : Memref sig .tc .vmem S2048x128 .f32) (harg3 : arg3.IsWhole) (arg4 : Memref sig .tc .vmem S128x512 .f32) (harg4 : arg4.IsWhole)
    (arg5 : Memref sig .tc .vmem S768x512 .f32) (harg5 : arg5.IsWhole) (arg6 : Memref sig .tc .vmem S128x512 .f32) (harg6 : arg6.IsWhole)
    (arg7 : Memref sig .tc .vmem S1x512 .f32) (harg7 : arg7.IsWhole) (arg8 : Memref sig .tc .vmem S2048 .f32) (harg8 : arg8.IsWhole)
    (x0 : Vec F S2048x128 .f32) (x1 : Vec F S2048x768 .f32) (x2 : Vec F S2048x128 .f32)
    (x3 : Vec F S128x512 .f32) (x4 : Vec F S768x512 .f32) (x5 : Vec F S128x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E
          (cc2__lstm_score_kernel i arg1 harg1 arg2 harg2 arg3 harg3 arg4 harg4 arg5 harg5 arg6 harg6 arg7 harg7 arg8 harg8) K := by
  simp only [cc2__lstm_score_kernel_eq_skeleton]; unfold cc2__lstm_score_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 (F := F) _)

/-- The proof data of pipeline 2 on core `c`: arrays as found; after the body the three cut inputs' buffers at
    their blocks (zero-filled past the array), the four weight buffers at their blocks, the output's at the scores of
    the zero-filled blocks; the class invariant; nothing owed; full shares. -/
def dat2 (c : Dev nD) : Dat τ (Elt F) Unit ℕ (Pipeline.UD sig nD τ) ℕ cfg2 c where
  A w := V c (Pipeline.arrRef spec2 w)
  after w t := match w with
    | ⟨0, _⟩ => fblk2_0 V c t
    | ⟨1, _⟩ => fblk2_1 V c t
    | ⟨2, _⟩ => fblk2_2 V c t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (fblk2_0 V c t) (fblk2_1 V c t) (fblk2_2 V c t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = fblk2_0 V c t := by dsimp only [dat2]
theorem after2_1 (c : Dev nD) (t : Fin cfg2.N) : (dat2 V c).after 1 t = fblk2_1 V c t := by dsimp only [dat2]
theorem after2_2 (c : Dev nD) (t : Fin cfg2.N) : (dat2 V c).after 2 t = fblk2_2 V c t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t
    = out2_7 (fblk2_0 V c t) (fblk2_1 V c t) (fblk2_2 V c t) (iblk2 V c 3 t) (iblk2 V c 4 t) (iblk2 V c 5 t) (iblk2 V c 6 t) := by dsimp only [dat2]

/-- What the body finds: a cut input's buffer just fetched holds its block on the rows inside the array and `d` past them; -/
theorem before2_0 (c : Dev nD) (t : Fin cfg2.N) (d) :
    (dat2 V c).before 0 t d = win2_0.fill (grid2.coords t) d (iblk2 V c 0 t) := by
  unfold Dat.before; rw [if_pos (fetch2_0 t)]; rfl
theorem before2_1 (c : Dev nD) (t : Fin cfg2.N) (d) :
    (dat2 V c).before 1 t d = win2_1.fill (grid2.coords t) d (iblk2 V c 1 t) := by
  unfold Dat.before; rw [if_pos (fetch2_1 t)]; rfl
theorem before2_2 (c : Dev nD) (t : Fin cfg2.N) (d) :
    (dat2 V c).before 2 t d = win2_2.fill (grid2.coords t) d (iblk2 V c 2 t) := by
  unfold Dat.before; rw [if_pos (fetch2_2 t)]; rfl
/-- a weight buffer holds its whole block at every point, fetched there or not. -/
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)

/-- The body as the pipeline calls it at point `t`, on the point's current staging buffers: `sound_kernel2` there. -/
theorem sound_at2 (c : Dev nD) (t : Fin cfg2.N)
    (x0 : Vec F S2048x128 .f32) (x1 : Vec F S2048x768 .f32) (x2 : Vec F S2048x128 .f32)
    (x3 : Vec F S128x512 .f32) (x4 : Vec F S768x512 .f32) (x5 : Vec F S128x512 .f32) (x6 : Vec F S1x512 .f32) (K : PUnit → sProp 𝕄) :
    iprop(owns (c : Thread nD τ) (st2_0 t) fullShare x0 ∗ owns (c : Thread nD τ) (st2_1 t) fullShare x1 ∗ owns (c : Thread nD τ) (st2_2 t) fullShare x2
        ∗ owns (c : Thread nD τ) (st2_3 t) fullShare x3 ∗ owns (c : Thread nD τ) (st2_4 t) fullShare x4 ∗ owns (c : Thread nD τ) (st2_5 t) fullShare x5
        ∗ owns (c : Thread nD τ) (st2_6 t) fullShare x6 ∗ (∃ d, owns (c : Thread nD τ) (st2_7 t) fullShare d)
        ∗ (iprop(owns (c : Thread nD τ) (st2_0 t) fullShare x0 ∗ owns (c : Thread nD τ) (st2_1 t) fullShare x1 ∗ owns (c : Thread nD τ) (st2_2 t) fullShare x2
            ∗ owns (c : Thread nD τ) (st2_3 t) fullShare x3 ∗ owns (c : Thread nD τ) (st2_4 t) fullShare x4 ∗ owns (c : Thread nD τ) (st2_5 t) fullShare x5
            ∗ owns (c : Thread nD τ) (st2_6 t) fullShare x6 ∗ owns (c : Thread nD τ) (st2_7 t) fullShare (out2_7 x0 x1 x2 x3 x4 x5 x6)) -∗ K ⟨⟩))
      ⊢ wp frame (wpE (defs₀ (F := F)) Variants.none c none) Set.univ (defs₀ (F := F) .tc cfg2.body (cfg2.bodyArgs t (cfg2.slots t))) K :=
  sound_kernel2 c Set.univ (grid2.coords t) _ (hstage2_0 ((cfg2.slots t 0).cast nbuf2_0)) _ (hstage2_1 ((cfg2.slots t 1).cast nbuf2_1))
    _ (hstage2_2 ((cfg2.slots t 2).cast nbuf2_2)) _ (hstage2_3 ((cfg2.slots t 3).cast nbuf2_3)) _ (hstage2_4 ((cfg2.slots t 4).cast nbuf2_4))
    _ (hstage2_5 ((cfg2.slots t 5).cast nbuf2_5)) _ (hstage2_6 ((cfg2.slots t 6).cast nbuf2_6)) _ (hstage2_7 ((cfg2.slots t 7).cast nbuf2_7))
    x0 x1 x2 x3 x4 x5 x6 K

/-- The body obligation with the OUTPUT window (7) left unnamed: at any float instance the inputs are handed back as
    found (each cut one stated on the rows inside the array), the output at whatever the body wrote. This is what
    a claim that does not read the scores needs. -/
theorem body_obligation2_unnamed (c : Dev nD) :
    BodyObligationLoose (dat2 (F := F) V c) (defs₀ (F := F)) Variants.none () Set.univ
      (fun w => match w with | ⟨7, _⟩ => true | _ => false) := fun t => by
  rw [bigSep_W2, bigSep_W2]
  simp only [show (7 : Fin 8) = ⟨7, by omega⟩ from rfl]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%X7, H7⟩⟩
  rw [before2_0 V c t d0, before2_1 V c t d1, before2_2 V c t d2, before2_3 V c t d3, before2_4 V c t d4,
    before2_5 V c t d5, before2_6 V c t d6, after2_0, after2_1, after2_2, after2_3, after2_4, after2_5, after2_6]
  iapply (sound_at2 c t (win2_0.fill (grid2.coords t) d0 (iblk2 V c 0 t)) (win2_1.fill (grid2.coords t) d1 (iblk2 V c 1 t))
    (win2_2.fill (grid2.coords t) d2 (iblk2 V c 2 t)) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  have h0 : win2_0.cut (grid2.coords t) (fblk2_0 V c t) = iblk2 V c 0 t := win2_0.cut_fill _ _ _
  have h1 : win2_1.cut (grid2.coords t) (fblk2_1 V c t) = iblk2 V c 1 t := win2_1.cut_fill _ _ _
  have h2 : win2_2.cut (grid2.coords t) (fblk2_2 V c t) = iblk2 V c 2 t := win2_2.cut_fill _ _ _
  isplitl [H0]
  · iexists d0
    change _ ⊢ owns (c : Thread nD τ) (st2_0 t) fullShare (win2_0.fill (grid2.coords t) d0 (win2_0.cut (grid2.coords t) (fblk2_0 V c t)))
    rw [h0]
  isplitl [H1]
  · iexists d1
    change _ ⊢ owns (c : Thread nD τ) (st2_1 t) fullShare (win2_1.fill (grid2.coords t) d1 (win2_1.cut (grid2.coords t) (fblk2_1 V c t)))
    rw [h1]
  isplitl [H2]
  · iexists d2
    change _ ⊢ owns (c : Thread nD τ) (st2_2 t) fullShare (win2_2.fill (grid2.coords t) d2 (win2_2.cut (grid2.coords t) (fblk2_2 V c t)))
    rw [h2]
  isplitl [H3]; · iexact H3
  isplitl [H4]; · iexact H4
  isplitl [H5]; · iexact H5
  isplitl [H6]; · iexact H6
  iexists _; iexact H7

/-- The body obligation with the output NAMED, given that the rows of the scores inside the array do not depend on
    what the cut inputs' buffers hold past the array's end (true where the arithmetic is row by row: at the exact
    instance; the hypothesis is discharged there). -/
theorem body_obligation2_of (c : Dev nD)
    (hrow : ∀ (t : Fin cfg2.N) (d0 : S2048x128.Idx → Elt F .f32) (d1 : S2048x768.Idx → Elt F .f32) (d2 : S2048x128.Idx → Elt F .f32),
      win2_7.cut (grid2.coords t) (out2_7 (win2_0.fill (grid2.coords t) d0 (iblk2 V c 0 t)) (win2_1.fill (grid2.coords t) d1 (iblk2 V c 1 t))
          (win2_2.fill (grid2.coords t) d2 (iblk2 V c 2 t)) (iblk2 V c 3 t) (iblk2 V c 4 t) (iblk2 V c 5 t) (iblk2 V c 6 t))
        = win2_7.cut (grid2.coords t) (out2_7 (fblk2_0 V c t) (fblk2_1 V c t) (fblk2_2 V c t) (iblk2 V c 3 t) (iblk2 V c 4 t) (iblk2 V c 5 t) (iblk2 V c 6 t))) :
    BodyObligationLoose (dat2 (F := F) V c) (defs₀ (F := F)) Variants.none () Set.univ := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before2_0 V c t d0, before2_1 V c t d1, before2_2 V c t d2, before2_3 V c t d3, before2_4 V c t d4,
    before2_5 V c t d5, before2_6 V c t d6, after2_0, after2_1, after2_2, after2_3, after2_4, after2_5, after2_6, after2_7]
  iapply (sound_at2 c t (win2_0.fill (grid2.coords t) d0 (iblk2 V c 0 t)) (win2_1.fill (grid2.coords t) d1 (iblk2 V c 1 t))
    (win2_2.fill (grid2.coords t) d2 (iblk2 V c 2 t)) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  have h0 : win2_0.cut (grid2.coords t) (fblk2_0 V c t) = iblk2 V c 0 t := win2_0.cut_fill _ _ _
  have h1 : win2_1.cut (grid2.coords t) (fblk2_1 V c t) = iblk2 V c 1 t := win2_1.cut_fill _ _ _
  have h2 : win2_2.cut (grid2.coords t) (fblk2_2 V c t) = iblk2 V c 2 t := win2_2.cut_fill _ _ _
  isplitl [H0]
  · iexists d0
    change _ ⊢ owns (c : Thread nD τ) (st2_0 t) fullShare (win2_0.fill (grid2.coords t) d0 (win2_0.cut (grid2.coords t) (fblk2_0 V c t)))
    rw [h0]
  isplitl [H1]
  · iexists d1
    change _ ⊢ owns (c : Thread nD τ) (st2_1 t) fullShare (win2_1.fill (grid2.coords t) d1 (win2_1.cut (grid2.coords t) (fblk2_1 V c t)))
    rw [h1]
  isplitl [H2]
  · iexists d2
    change _ ⊢ owns (c : Thread nD τ) (st2_2 t) fullShare (win2_2.fill (grid2.coords t) d2 (win2_2.cut (grid2.coords t) (fblk2_2 V c t)))
    rw [h2]
  isplitl [H3]; · iexact H3
  isplitl [H4]; · iexact H4
  isplitl [H5]; · iexact H5
  isplitl [H6]; · iexact H6
  -- the scores as computed agree on the rows inside the array with the scores of the zero-filled blocks (`hrow`):
  -- the buffer's own contents are the filler that states them so
  iexists (out2_7 (win2_0.fill (grid2.coords t) d0 (iblk2 V c 0 t)) (win2_1.fill (grid2.coords t) d1 (iblk2 V c 1 t))
    (win2_2.fill (grid2.coords t) d2 (iblk2 V c 2 t)) (iblk2 V c 3 t) (iblk2 V c 4 t) (iblk2 V c 5 t) (iblk2 V c 6 t))
  change _ ⊢ owns (c : Thread nD τ) (st2_7 t) fullShare (win2_7.fill (grid2.coords t)
    (out2_7 (win2_0.fill (grid2.coords t) d0 (iblk2 V c 0 t)) (win2_1.fill (grid2.coords t) d1 (iblk2 V c 1 t))
      (win2_2.fill (grid2.coords t) d2 (iblk2 V c 2 t)) (iblk2 V c 3 t) (iblk2 V c 4 t) (iblk2 V c 5 t) (iblk2 V c 6 t))
    (win2_7.cut (grid2.coords t) (out2_7 (fblk2_0 V c t) (fblk2_1 V c t) (fblk2_2 V c t) (iblk2 V c 3 t) (iblk2 V c 4 t) (iblk2 V c 5 t) (iblk2 V c 6 t))))
  rw [← hrow t d0 d1 d2, win2_7.fill_cut]

end Cert.Kernel.Hand

end
-- ==== Proof.KRun.lean ====
/-
  The frame of the word-level program. @main is nine items: three stretches of host operations, launch 0 (the first
  dense product), two stretches, launch 1 (the second dense product), one stretch, launch 2 (the scores). The contents
  of every unscoped buffer are followed from the launch memory through each item: a host stretch applies its
  operations, launches 0 and 1 leave their arrays at what their write-backs leave. Launch 2 is the last item; its
  row-blocked windows are cut at the arrays' end, and what its body leaves in the output's staging buffer past the
  array is not named, so the output array ends at SOME contents: the launch is read relationally, the output window
  forgotten. Every weakly fair execution terminates, and each of the twelve arguments ends as launched: no host
  stretch writes one, a launch reads one through an input window or bypasses it.
-/
import proofs.«132953_j50156628082716_1_alg».proof.Proof.KReg0
import proofs.«132953_j50156628082716_1_alg».proof.Proof.KReg1
import proofs.«132953_j50156628082716_1_alg».proof.Proof.KReg2
import proofs.«132953_j50156628082716_1_alg».proof.Proof.Gen.Kernel.Regions
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ)

/-! ## The buffers' contents between the items -/

/-- Core `c`'s unscoped buffers at launch, then after each of the first three host stretches. -/
abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
/-- The same read at the TensorCore's references: what launch 0 is entered with. -/
abbrev U3 : (c : Dev nD) → (b : Ref sig .tc) → Buf (Elt F) ((c : Thread nD τ).loc b) := fun c b => W3 m c b

/-- After launch 0: its arrays at what the write-backs leave, every other buffer as the launch found it. -/
def W4 (c : Dev nD) : Valuation τ sig (Elt F) :=
  Pipeline.withArrays spec0 c (W3 m c) fun w => (dat0 (U3 m) c).arrAt w cfg0.N
theorem W4_arr (c : Dev nD) (w : Fin cfg0.W) :
    W4 m c (Proc.devRef .tc (Pipeline.arrRef spec0 w)) = (dat0 (U3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem hF0 (c : Dev nD) (w : Fin cfg0.W) : (dat0 (U3 m) c).arrAt w cfg0.N = W4 m c (Pipeline.arrRef spec0 w) :=
  (W4_arr m c w).symm
theorem hrest0 (c : Dev nD) : ∀ b, b ∉ Finset.univ.image (Pipeline.arrRef spec0) → (fun b : Ref sig .tc => W4 m c b) b = U3 m c b :=
  fun b hb => W4_of_ne m c b fun w e => hb (Finset.mem_image.mpr ⟨w, Finset.mem_univ _, e⟩)

abbrev W5 (c : Dev nD) : Valuation τ sig (Elt F) := StableHlo.after hostOps1 (W4 m c)
abbrev W6 (c : Dev nD) : Valuation τ sig (Elt F) := StableHlo.after hostOps1_1 (W5 m c)
/-- What launch 1 is entered with. -/
abbrev U6 : (c : Dev nD) → (b : Ref sig .tc) → Buf (Elt F) ((c : Thread nD τ).loc b) := fun c b => W6 m c b

/-- After launch 1: its arrays at what the write-backs leave, every other buffer as the launch found it. -/
def W7 (c : Dev nD) : Valuation τ sig (Elt F) :=
  Pipeline.withArrays spec1 c (W6 m c) fun w => (dat1 (U6 m) c).arrAt w cfg1.N
theorem W7_arr (c : Dev nD) (w : Fin cfg1.W) :
    W7 m c (Proc.devRef .tc (Pipeline.arrRef spec1 w)) = (dat1 (U6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
theorem hF1 (c : Dev nD) (w : Fin cfg1.W) : (dat1 (U6 m) c).arrAt w cfg1.N = W7 m c (Pipeline.arrRef spec1 w) :=
  (W7_arr m c w).symm
theorem hrest1 (c : Dev nD) : ∀ b, b ∉ Finset.univ.image (Pipeline.arrRef spec1) → (fun b : Ref sig .tc => W7 m c b) b = U6 m c b :=
  fun b hb => W7_of_ne m c b fun w e => hb (Finset.mem_image.mpr ⟨w, Finset.mem_univ _, e⟩)

abbrev W8 (c : Dev nD) : Valuation τ sig (Elt F) := StableHlo.after hostOps2 (W7 m c)
/-- What launch 2 is entered with. -/
abbrev U8 : (c : Dev nD) → (b : Ref sig .tc) → Buf (Elt F) ((c : Thread nD τ).loc b) := fun c b => W8 m c b

/-! ## The proof data family and the thread state -/

/-- No launch has a prefetched table. -/
abbrev adm : (p : Fin 3) → (pcfgs (F := F) p).Adm := fun p => (cfgs p).toPCfg_adm
/-- Launch 2's output window, of whose array nothing is said. -/
abbrev fgt7 : Fin cfg2.W → Bool := fun w => match w with | ⟨7, _⟩ => true | _ => false
/-- Each launch's exact proof data at the contents it is entered with (a literal match on the launch's number). -/
def pdats : (p : Fin 3) → (c : Dev nD) → Dat τ (Elt F) Unit ℕ (Pipeline.UD sig nD τ) ℕ (Pipeline.pin (pcfgs (F := F)) adm p) c
  | ⟨0, _⟩ => fun c => dat0 (U3 m) c
  | ⟨1, _⟩ => fun c => dat1 (U6 m) c
  | ⟨2, _⟩ => fun c => dat2 (U8 m) c
/-- The same read relationally: launches 0 and 1 in full (what their arrays may end at is what the exact data names),
    launch 2 with its output window forgotten (its array may end at anything). -/
def rdats : (p : Fin 3) → (c : Dev nD) → RDat τ (Elt F) Unit ℕ (Pipeline.UD sig nD τ) ℕ (Pipeline.pin (pcfgs (F := F)) adm p) c
  | ⟨0, _⟩ => fun c => (dat0 (U3 m) c).toR
  | ⟨1, _⟩ => fun c => (dat1 (U6 m) c).toR
  | ⟨2, _⟩ => fun c => (dat2 (U8 m) c).toRForget fgt7
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The launches as segments -/

-- unification of the library's statements over the pinned configuration unfolds plain definitions in a metavariable's type
set_option backward.isDefEq.respectTransparency.types false in
/-- Launch 0 as a segment of @main: entered with every unscoped buffer at `W3`, left with them at `W4`.
    The launch's arrays are split out of the unscoped buffers at entry and put back at exit at what the
    write-backs leave (the only contents the exact data read relationally allows); the generator register goes
    into the class invariant and comes back; nothing is owed. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m) c).loose.toR
  hwaits := Pipeline.RDat.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (U3 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (U3 m c) (fun b => W4 m c b) ((pdats m 0 c).arrAt · cfg0.N) (hF0 m c) (hrest0 m c)
    rw [Pipeline.unscopedBufs_held] at hjoin
    refine (sep_mono (Entails.of_eq ((pdats m 0 c).toR_arraysAt_eq cfg0.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- unification of the library's statements over the pinned configuration unfolds plain definitions in a metavariable's type
set_option backward.isDefEq.respectTransparency.types false in
/-- Launch 1 as a segment of @main: entered with every unscoped buffer at `W6`, left with them at `W7`.
    The launch's arrays are split out of the unscoped buffers at entry and put back at exit at what the
    write-backs leave (the only contents the exact data read relationally allows); the generator register goes
    into the class invariant and comes back; nothing is owed. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U6 m) c).loose.toR
  hwaits := Pipeline.RDat.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (U6 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (U6 m c) (fun b => W7 m c b) ((pdats m 1 c).arrAt · cfg1.N) (hF1 m c) (hrest1 m c)
    rw [Pipeline.unscopedBufs_held] at hjoin
    refine (sep_mono (Entails.of_eq ((pdats m 1 c).toR_arraysAt_eq cfg1.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## Launch 2, its output window forgotten -/

/-- The arrays at some contents the relation allows are the arrays at one family of contents, each allowed. -/
theorem arraysAt_elim {cfg : Cfg sig Λ₀} {c : Dev nD} (rd : RDat τ (Elt F) Unit ℕ (Pipeline.UD sig nD τ) ℕ cfg c) (n : Nat) :
    (rd.arraysAt n : sProp 𝕄) ⊢ iprop(∃ Fs, ⌜∀ w, rd.ArrAt w n (Fs w)⌝ ∗ rd.arrays Fs) := by
  classical
  unfold Pipeline.RDat.arraysAt Pipeline.RDat.arrays
  refine (BI.bigSep_exists_pi Finset.univ _).trans ?_
  iintro ⟨%Fs, H⟩
  ihave H2 := (BI.bigSep_pure_sep Finset.univ _ _) $$ H
  icases H2 with ⟨%h, H⟩
  iexists Fs
  isplitr; · ipureintro; exact fun w => h w (Finset.mem_univ w)
  iexact H

/-- Only the output window is forgotten, and every other window is an input. -/
theorem fgt7_of_ne : ∀ w : Fin cfg2.W, Pipeline.arrRef spec2 w ≠ main_v91 → fgt7 w = false := by decide
theorem in2_of_ne : ∀ w : Fin cfg2.W, Pipeline.arrRef spec2 w ≠ main_v91 → (cfg2.win w).isOut = false := by decide

/-- A valuation that agrees with `W8` at every buffer other than launch 2's output array. -/
def Off91 (c : Dev nD) (V : Valuation τ sig (Elt F)) : Prop :=
  ∀ b : Ref sig .tc, b ≠ main_v91 → V (Proc.devRef .tc b) = W8 m c (Proc.devRef .tc b)

/-- Launch 2's arrays at any contents the relation allows, every other buffer as found: only the output array may
    differ from what the launch was entered with, an input array being left as found. -/
theorem off91_withArrays (c : Dev nD) (Fs : (w : Fin cfg2.W) → Buf (Elt F) ((cfg2.win w).arr.view.loc (c : Thread nD τ)))
    (hFs : ∀ w, (rdats m 2 c).ArrAt w cfg2.N (Fs w)) : Off91 m c (Pipeline.withArrays spec2 c (W8 m c) Fs) := fun b hb => by
  by_cases h : ∃ w, Pipeline.arrRef spec2 w = b
  · obtain ⟨w, rfl⟩ := h
    rw [Pipeline.withArrays_arr spec2 launch2.win.arr_inj c _ _ w]
    exact (((dat2 (U8 m) c).toRForget_arrAt_iff (fgt7_of_ne w hb) cfg2.N (Fs w)).mp (hFs w)).trans
      (((dat2 (U8 m) c).arrAt_in w (in2_of_ne w hb) _).trans (A_eq2 (U8 m) c w))
  · exact Pipeline.withArrays_of_ne spec2 c _ _ b fun w e => h ⟨w, e⟩

-- unification of the library's statements over the pinned configuration unfolds plain definitions in a metavariable's type
set_option backward.isDefEq.respectTransparency.types false in
/-- Launch 2 as a segment of @main: entered with every unscoped buffer at `W8`, left with them at contents that
    agree with `W8` off the output array. The launch's arrays are split out of the unscoped buffers at entry and put
    back at exit at whatever the relation allows; the generator register goes into the class invariant and comes
    back; nothing is owed. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2_unnamed (U8 m) c).toRForget
  hwaits := Pipeline.RDat.hwaits_of_owed_zero _ _ _ _ L lv 2 fun _ _ => rfl
  pre c := iprop(StableHlo.held (c : Thread nD τ) (Pipeline.ucRefs τ sig) (W8 m c) ∗ R c)
  post c := iprop((∃ V, ⌜Off91 m c V⌝ ∗ StableHlo.held (c : Thread nD τ) (Pipeline.ucRefs τ sig) V) ∗ R c)
  X c := iprop(∃ r, prngReg c r)
  Y c := iprop(∃ r, prngReg c r)
  Z c := Pipeline.unscopedRest (Ix := Unit) (Name := ℕ) (U := Pipeline.UD sig nD τ) (Lvl := ℕ) spec2 c (U8 m c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (U8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    have helim : ((rdats m 2 c).arraysAt cfg2.N : sProp 𝕄)
        ⊢ iprop(∃ Fs, ⌜∀ w, (rdats m 2 c).ArrAt w cfg2.N (Fs w)⌝ ∗ (pdats m 2 c).arrays Fs) := arraysAt_elim (rdats m 2 c) cfg2.N
    iintro ⟨Ha, HO, HY, Hrest⟩
    ihave Ha' := helim $$ Ha
    icases Ha' with ⟨%Fs, %hFs, Ha⟩
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (U8 m c) (fun b => Pipeline.withArrays spec2 c (W8 m c) Fs b) Fs
      (fun w => (Pipeline.withArrays_arr spec2 launch2.win.arr_inj c _ _ w).symm)
      (fun b hb => Pipeline.withArrays_of_ne spec2 c _ _ b fun w e => hb (Finset.mem_image.mpr ⟨w, Finset.mem_univ _, e⟩))
    rw [Pipeline.unscopedBufs_held] at hjoin
    imodintro
    isplitl [Ha Hrest]
    · iexists (Pipeline.withArrays spec2 c (W8 m c) Fs)
      isplitr; · ipureintro; exact off91_withArrays m c Fs hFs
      iapply hjoin; isplitl [Ha] <;> iassumption
    isplitl [HY]; · iexact HY
    unfold Pipeline.RDat.owesAt Pipeline.owesWithin
    icases HO with ⟨%W, -, HO⟩; iexists W; iexact HO

/-! ## The arguments reach launch 2 as launched

No host stretch writes an argument; a launch leaves an input array as it found it and every buffer that is none
of its arrays as it found it. -/

/-- Launch 0 leaves an input array as found. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (U3 m) c).arrAt_in w hin _).trans (A_eq0 (U3 m) c w))
/-- Launch 1 leaves an input array as found. -/
theorem W7_in (c : Dev nD) (w : Fin cfg1.W) (hin : (cfg1.win w).isOut = false) :
    W7 m c (Proc.devRef .tc (Pipeline.arrRef spec1 w)) = W6 m c (Proc.devRef .tc (Pipeline.arrRef spec1 w)) :=
  (W7_arr m c w).trans (((dat1 (U6 m) c).arrAt_in w hin _).trans (A_eq1 (U6 m) c w))

/-- A buffer no host stretch writes and neither of the first two launches changes is, when launch 2 is entered, as launched. -/
theorem W8_of (c : Dev nD) (r : Ref sig .tc) (h0 : r ∉ hostOps0_W) (h1 : r ∉ hostOps0_1_W) (h2 : r ∉ hostOps0_2_W)
    (h4 : r ∉ hostOps1_W) (h5 : r ∉ hostOps1_1_W) (h7 : r ∉ hostOps2_W)
    (hl0 : W4 m c (Proc.devRef .tc r) = W3 m c (Proc.devRef .tc r)) (hl1 : W7 m c (Proc.devRef .tc r) = W6 m c (Proc.devRef .tc r)) :
    W8 m c (Proc.devRef .tc r) = m ((c : Thread nD τ).loc r) :=
  calc W8 m c (Proc.devRef .tc r)
    _ = W7 m c (Proc.devRef .tc r) := StableHlo.after_of_writes_sub hostOps2 _ hostOps2_writes h7
    _ = W6 m c (Proc.devRef .tc r) := hl1
    _ = W5 m c (Proc.devRef .tc r) := StableHlo.after_of_writes_sub hostOps1_1 _ hostOps1_1_writes h5
    _ = W4 m c (Proc.devRef .tc r) := StableHlo.after_of_writes_sub hostOps1 _ hostOps1_writes h4
    _ = W3 m c (Proc.devRef .tc r) := hl0
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl
theorem W8_main_arg0 (c : Dev nD) : W8 m c (Proc.devRef .tc main_arg0) = m ((c : Thread nD τ).loc main_arg0) :=
  W8_of m c main_arg0 (by decide) (by decide) (by decide) (by decide) (by decide) (by decide) (W4_in m c 0 rfl) (W7_of_ne m c main_arg0 (by decide))
theorem W8_main_arg1 (c : Dev nD) : W8 m c (Proc.devRef .tc main_arg1) = m ((c : Thread nD τ).loc main_arg1) :=
  W8_of m c main_arg1 (by decide) (by decide) (by decide) (by decide) (by decide) (by decide) (W4_of_ne m c main_arg1 (by decide)) (W7_of_ne m c main_arg1 (by decide))
theorem W8_main_arg2 (c : Dev nD) : W8 m c (Proc.devRef .tc main_arg2) = m ((c : Thread nD τ).loc main_arg2) :=
  W8_of m c main_arg2 (by decide) (by decide) (by decide) (by decide) (by decide) (by decide) (W4_in m c 1 rfl) (W7_of_ne m c main_arg2 (by decide))
theorem W8_main_arg3 (c : Dev nD) : W8 m c (Proc.devRef .tc main_arg3) = m ((c : Thread nD τ).loc main_arg3) :=
  W8_of m c main_arg3 (by decide) (by decide) (by decide) (by decide) (by decide) (by decide) (W4_of_ne m c main_arg3 (by decide)) (W7_of_ne m c main_arg3 (by decide))
theorem W8_main_arg4 (c : Dev nD) : W8 m c (Proc.devRef .tc main_arg4) = m ((c : Thread nD τ).loc main_arg4) :=
  W8_of m c main_arg4 (by decide) (by decide) (by decide) (by decide) (by decide) (by decide) (W4_of_ne m c main_arg4 (by decide)) (W7_in m c 1 rfl)
theorem W8_main_arg5 (c : Dev nD) : W8 m c (Proc.devRef .tc main_arg5) = m ((c : Thread nD τ).loc main_arg5) :=
  W8_of m c main_arg5 (by decide) (by decide) (by decide) (by decide) (by decide) (by decide) (W4_of_ne m c main_arg5 (by decide)) (W7_of_ne m c main_arg5 (by decide))
theorem W8_main_arg6 (c : Dev nD) : W8 m c (Proc.devRef .tc main_arg6) = m ((c : Thread nD τ).loc main_arg6) :=
  W8_of m c main_arg6 (by decide) (by decide) (by decide) (by decide) (by decide) (by decide) (W4_of_ne m c main_arg6 (by decide)) (W7_of_ne m c main_arg6 (by decide))
theorem W8_main_arg7 (c : Dev nD) : W8 m c (Proc.devRef .tc main_arg7) = m ((c : Thread nD τ).loc main_arg7) :=
  W8_of m c main_arg7 (by decide) (by decide) (by decide) (by decide) (by decide) (by decide) (W4_of_ne m c main_arg7 (by decide)) (W7_of_ne m c main_arg7 (by decide))
theorem W8_main_arg8 (c : Dev nD) : W8 m c (Proc.devRef .tc main_arg8) = m ((c : Thread nD τ).loc main_arg8) :=
  W8_of m c main_arg8 (by decide) (by decide) (by decide) (by decide) (by decide) (by decide) (W4_of_ne m c main_arg8 (by decide)) (W7_of_ne m c main_arg8 (by decide))
theorem W8_main_arg9 (c : Dev nD) : W8 m c (Proc.devRef .tc main_arg9) = m ((c : Thread nD τ).loc main_arg9) :=
  W8_of m c main_arg9 (by decide) (by decide) (by decide) (by decide) (by decide) (by decide) (W4_of_ne m c main_arg9 (by decide)) (W7_of_ne m c main_arg9 (by decide))
theorem W8_main_arg10 (c : Dev nD) : W8 m c (Proc.devRef .tc main_arg10) = m ((c : Thread nD τ).loc main_arg10) :=
  W8_of m c main_arg10 (by decide) (by decide) (by decide) (by decide) (by decide) (by decide) (W4_of_ne m c main_arg10 (by decide)) (W7_of_ne m c main_arg10 (by decide))
theorem W8_main_arg11 (c : Dev nD) : W8 m c (Proc.devRef .tc main_arg11) = m ((c : Thread nD τ).loc main_arg11) :=
  W8_of m c main_arg11 (by decide) (by decide) (by decide) (by decide) (by decide) (by decide) (W4_of_ne m c main_arg11 (by decide)) (W7_of_ne m c main_arg11 (by decide))

/-! ## @main as segments, and the launch -/

abbrev segs : List (Pipeline.RDat.Seg (pcfgs (F := F)) adm (rdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .region (reg1 m),
    .host (hseg hostOps2 hostOps2_sub hostOps2_fresh (W7 m)),
    .region (reg2 m) ]

theorem main_run (c : Dev nD) : main (F := F) c = Pipeline.RDat.Seg.run (segs m) := (main_chain c).trans (by chain_rfl)

/-- The last thread state without the `owes`: every unscoped buffer at contents that agree with `W8` off launch 2's
    output array, the register at some state. -/
abbrev Tₙ (c : Dev nD) : sProp 𝕄 :=
  iprop((∃ V, ⌜Off91 m c V⌝ ∗ StableHlo.held (c : Thread nD τ) (Pipeline.ucRefs τ sig) V) ∗ ∃ r, prngReg c r)

set_option backward.isDefEq.respectTransparency.types false in
/-- Every weakly fair execution of @main from memory `m` with zero counters terminates, and in every final state each
    argument array holds what it was launched with. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.RDat.θ_run_regions_kit (pcfgs (F := F)) adm (rdats m) () cellOf_inj embL defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun c => by
        show iprop((∃ V, ⌜Off91 m c V⌝ ∗ StableHlo.held (c : Thread nD τ) (Pipeline.ucRefs τ sig) V) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11))
    (hfin := fun c s' => by
      iintro ⟨⟨⟨%V, %hV, Hh⟩, -⟩, HSI⟩
      unfold StableHlo.held
      ihave Hr := (pointsTo_read_all (Pipeline.ucRefs τ sig) (fun b => (((c : Thread nD τ)).1, b)) V s') $$ [Hh HSI]
      · isplitl [Hh] <;> iassumption
      icases Hr with ⟨%h, HSI⟩
      imodintro
      isplitr
      · ipureintro
        exact ⟨(h (Proc.devRef .tc main_arg0) (mem_uc main_arg0 (by decide))).trans ((hV main_arg0 (by decide)).trans (W8_main_arg0 m c)),
        (h (Proc.devRef .tc main_arg1) (mem_uc main_arg1 (by decide))).trans ((hV main_arg1 (by decide)).trans (W8_main_arg1 m c)),
        (h (Proc.devRef .tc main_arg2) (mem_uc main_arg2 (by decide))).trans ((hV main_arg2 (by decide)).trans (W8_main_arg2 m c)),
        (h (Proc.devRef .tc main_arg3) (mem_uc main_arg3 (by decide))).trans ((hV main_arg3 (by decide)).trans (W8_main_arg3 m c)),
        (h (Proc.devRef .tc main_arg4) (mem_uc main_arg4 (by decide))).trans ((hV main_arg4 (by decide)).trans (W8_main_arg4 m c)),
        (h (Proc.devRef .tc main_arg5) (mem_uc main_arg5 (by decide))).trans ((hV main_arg5 (by decide)).trans (W8_main_arg5 m c)),
        (h (Proc.devRef .tc main_arg6) (mem_uc main_arg6 (by decide))).trans ((hV main_arg6 (by decide)).trans (W8_main_arg6 m c)),
        (h (Proc.devRef .tc main_arg7) (mem_uc main_arg7 (by decide))).trans ((hV main_arg7 (by decide)).trans (W8_main_arg7 m c)),
        (h (Proc.devRef .tc main_arg8) (mem_uc main_arg8 (by decide))).trans ((hV main_arg8 (by decide)).trans (W8_main_arg8 m c)),
        (h (Proc.devRef .tc main_arg9) (mem_uc main_arg9 (by decide))).trans ((hV main_arg9 (by decide)).trans (W8_main_arg9 m c)),
        (h (Proc.devRef .tc main_arg10) (mem_uc main_arg10 (by decide))).trans ((hV main_arg10 (by decide)).trans (W8_main_arg10 m c)),
        (h (Proc.devRef .tc main_arg11) (mem_uc main_arg11 (by decide))).trans ((hV main_arg11 (by decide)).trans (W8_main_arg11 m c))⟩
      · iexact HSI)
    (hQ := fun s h c => h c)

end Cert.Kernel.Hand

end
-- ==== Proof.KIReg0.lean ====
/-
  Region 0 of the program: the first dense layer's product, one block of 1000 rows of the node features
  (1000 x 768) against the whole weight matrix (768 x 10) per grid point, fifteen points. The kernel body
  loads both staged blocks whole, multiplies them (the narrowing to bf16 is part of the payload) and stores
  the 1000 x 10 product whole. Stated at a parameter `V`, the buffer contents when the region is entered.
-/
import proofs.«132953_j50156628082716_1_alg».proof.Proof.Gen.KernelIdeal.Launch
import proofs.«132953_j50156628082716_1_alg».proof.Proof.Gen.KernelIdeal.Skeleton
import proofs.«132953_j50156628082716_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one rectangle the body stores through: the whole 1000 x 10 staging block. -/
abbrev r0_out : Rect S1000x10 := Rect.unit (s := S1000x10) ![0, 0] S1000x10.size inb_S1000x10_S1000x10_0_0

/-- The rectangles the body loads through: each input's whole staging block. -/
abbrev r0_x : Rect S1000x768 := Rect.unit (s := S1000x768) ![0, 0] S1000x768.size inb_S1000x768_S1000x768_0_0
abbrev r0_w : Rect S768x10 := Rect.unit (s := S768x10) ![0, 0] S768x10.size inb_S768x10_S768x10_0_0

/-- What the body leaves in the output's staging block: the product payload of the two input blocks as loaded. -/
def out0_2 (x0 : Vec F S1000x768 .f32) (x1 : Vec F S768x10 .f32) : Vec F S1000x10 .f32 :=
  View.canon [⟨r0_out, k0_pay1 (View.ld x0 r0_x) (View.ld x1 r0_w)⟩]

theorem cover0_2 (p0 : Vec F S1000x10 .f32) (y : S1000x10.Idx) :
    ∃ pc ∈ ([⟨r0_out, p0⟩] : List (View.Piece (Elt F) S1000x10 .f32)), y ∈ pc.1.set :=
  View.cover_of_tiled [⟨r0_out, p0⟩] S1000x10.size (by rfl) y

set_option maxHeartbeats 1000000 in
/-- The body on whole staging memrefs: the inputs are read and left as they were, the output ends at the product. -/
theorem sound_kernel0 (c : Dev nD) (E : Set ℕ) (i : grid0.Coords)
    (arg1 : Memref sig .tc .vmem S1000x768 .f32) (harg1 : arg1.IsWhole) (arg2 : Memref sig .tc .vmem S768x10 .f32) (harg2 : arg2.IsWhole)
    (arg3 : Memref sig .tc .vmem S1000x10 .f32) (harg3 : arg3.IsWhole)
    (x0 : Vec F S1000x768 .f32) (x1 : Vec F S768x10 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 (F := F) _)

/-- The proof data of pipeline 0 on core `c`: arrays as found; after the body each input's buffer at its block,
    the output's at the product of the two blocks; the class invariant; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1.lean ====
/- Region 1 of the program: the second dense layer's product, one block of 1000 rows of the hidden features
  (1000 x 10) against the whole weight matrix (10 x 128) per grid point, fifteen points. The kernel body
  loads both staged blocks whole, multiplies them and stores the 1000 x 128 product whole. Stated at a
  parameter `V`, the buffer contents when the region is entered.
-/
import proofs.«132953_j50156628082716_1_alg».proof.Proof.Gen.KernelIdeal.Launch
import proofs.«132953_j50156628082716_1_alg».proof.Proof.Gen.KernelIdeal.Skeleton
import proofs.«132953_j50156628082716_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The one rectangle the body stores through: the whole 1000 x 10 staging block. -/
abbrev r1_out : Rect S1000x128 := Rect.unit (s := S1000x128) ![0, 0] S1000x128.size inb_S1000x128_S1000x128_0_0

/-- The rectangles the body loads through: each input's whole staging block. -/
abbrev r1_x : Rect S1000x10 := Rect.unit (s := S1000x10) ![0, 0] S1000x10.size inb_S1000x10_S1000x10_0_0
abbrev r1_w : Rect S10x128 := Rect.unit (s := S10x128) ![0, 0] S10x128.size inb_S10x128_S10x128_0_0

/-- What the body leaves in the output's staging block: the product payload of the two input blocks as loaded. -/
def out1_2 (x0 : Vec F S1000x10 .f32) (x1 : Vec F S10x128 .f32) : Vec F S1000x128 .f32 :=
  View.canon [⟨r1_out, k1_pay1 (View.ld x0 r1_x) (View.ld x1 r1_w)⟩]

theorem cover1_2 (p0 : Vec F S1000x128 .f32) (y : S1000x128.Idx) :
    ∃ pc ∈ ([⟨r1_out, p0⟩] : List (View.Piece (Elt F) S1000x128 .f32)), y ∈ pc.1.set :=
  View.cover_of_tiled [⟨r1_out, p0⟩] S1000x128.size (by rfl) y

set_option maxHeartbeats 1000000 in
/-- The body on whole staging memrefs: the inputs are read and left as they were, the output ends at the product. -/
theorem sound_kernel1 (c : Dev nD) (E : Set ℕ) (i : grid1.Coords)
    (arg1 : Memref sig .tc .vmem S1000x10 .f32) (harg1 : arg1.IsWhole) (arg2 : Memref sig .tc .vmem S10x128 .f32) (harg2 : arg2.IsWhole)
    (arg3 : Memref sig .tc .vmem S1000x128 .f32) (harg3 : arg3.IsWhole)
    (x0 : Vec F S1000x10 .f32) (x1 : Vec F S10x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 (F := F) _)

/-- The proof data of pipeline 1 on core `c`: arrays as found; after the body each input's buffer at its block,
    the output's at the product of the two blocks; the class invariant; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIReg2.lean ====
/-
  Region 2 of the program: the per-triple scoring launch, 49 grid points of 2048 triples each over 100000 triples,
  so the last block (rows 98304..100351) overhangs the arrays by 352 rows. The three row-blocked inputs (head
  vectors, relation embeddings, tail vectors) and the row-blocked output are cut at the arrays' end; the four
  weight operands are whole and fetched once. The body loads the seven staged blocks whole, computes one score
  per row and stores the 2048 scores whole. Stated at a parameter `V`, the buffer contents at region entry.
  Rows of a staging buffer past the arrays' end hold words nothing names: every statement below speaks of the
  rows inside the array only.
-/
import proofs.«132953_j50156628082716_1_alg».proof.Proof.Gen.KernelIdeal.Launch
import proofs.«132953_j50156628082716_1_alg».proof.Proof.Gen.KernelIdeal.Skeleton
import proofs.«132953_j50156628082716_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at grid point `t`, its part inside the array, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The same block filled out to the staging buffer's 2048 rows with the zero word past the array's end
    (a filler of the proof's choosing: nothing reads it). -/
def fblk2_0 (c : Dev nD) (t : Fin cfg2.N) : S2048x128.Idx → Elt F .f32 :=
  win2_0.fill (grid2.coords t) (fun _ => Scalar.ofBits .f32 0#32) (iblk2 V c 0 t)
def fblk2_1 (c : Dev nD) (t : Fin cfg2.N) : S2048x768.Idx → Elt F .f32 :=
  win2_1.fill (grid2.coords t) (fun _ => Scalar.ofBits .f32 0#32) (iblk2 V c 1 t)
def fblk2_2 (c : Dev nD) (t : Fin cfg2.N) : S2048x128.Idx → Elt F .f32 :=
  win2_2.fill (grid2.coords t) (fun _ => Scalar.ofBits .f32 0#32) (iblk2 V c 2 t)

/-- The rectangles of the body's whole loads and its whole store. -/
abbrev r2_h : Rect S2048x128 := Rect.unit (s := S2048x128) ![0, 0] S2048x128.size inb_S2048x128_S2048x128_0_0
abbrev r2_r : Rect S2048x768 := Rect.unit (s := S2048x768) ![0, 0] S2048x768.size inb_S2048x768_S2048x768_0_0
abbrev r2_wa : Rect S128x512 := Rect.unit (s := S128x512) ![0, 0] S128x512.size inb_S128x512_S128x512_0_0
abbrev r2_wb : Rect S768x512 := Rect.unit (s := S768x512) ![0, 0] S768x512.size inb_S768x512_S768x512_0_0
abbrev r2_b : Rect S1x512 := Rect.unit (s := S1x512) ![0, 0] S1x512.size inb_S1x512_S1x512_0_0
abbrev r2_out : Rect S2048 := Rect.unit (s := S2048) ![0] S2048.size inb_S2048_S2048_0

/-- What the body leaves in the output's staging buffer, from what the seven input buffers hold. -/
def out2_7 (x0 : Vec F S2048x128 .f32) (x1 : Vec F S2048x768 .f32) (x2 : Vec F S2048x128 .f32)
    (x3 : Vec F S128x512 .f32) (x4 : Vec F S768x512 .f32) (x5 : Vec F S128x512 .f32) (x6 : Vec F S1x512 .f32) : Vec F S2048 .f32 :=
  View.canon [⟨r2_out, k2_pay1 (View.ld x0 r2_h) (View.ld x1 r2_r) (View.ld x2 r2_h) (View.ld x3 r2_wa) (View.ld x4 r2_wb) (View.ld x5 r2_wa) (View.ld x6 r2_b)⟩]

/-- The one stored rectangle is the whole staging block: every index of the block lies in it. -/
theorem cover2_7 (p0 : Vec F S2048 .f32) (y : S2048.Idx) :
    ∃ pc ∈ ([⟨r2_out, p0⟩] : List (View.Piece (Elt F) S2048 .f32)), y ∈ pc.1.set :=
  View.cover_of_tiled [⟨r2_out, p0⟩] S2048.size (by rfl) y

set_option maxHeartbeats 1000000 in
/-- The body on whole staging memrefs: the seven inputs are read and left as they were, whatever they hold;
    the output's buffer ends at `out2_7` of what they hold. -/
theorem sound_kernel2 (c : Dev nD) (E : Set ℕ) (i : grid2.Coords)
    (arg1 : Memref sig .tc .vmem S2048x128 .f32) (harg1 : arg1.IsWhole) (arg2 : Memref sig .tc .vmem S2048x768 .f32) (harg2 : arg2.IsWhole)
    (arg3 : Memref sig .tc .vmem S2048x128 .f32) (harg3 : arg3.IsWhole) (arg4 : Memref sig .tc .vmem S128x512 .f32) (harg4 : arg4.IsWhole)
    (arg5 : Memref sig .tc .vmem S768x512 .f32) (harg5 : arg5.IsWhole) (arg6 : Memref sig .tc .vmem S128x512 .f32) (harg6 : arg6.IsWhole)
    (arg7 : Memref sig .tc .vmem S1x512 .f32) (harg7 : arg7.IsWhole) (arg8 : Memref sig .tc .vmem S2048 .f32) (harg8 : arg8.IsWhole)
    (x0 : Vec F S2048x128 .f32) (x1 : Vec F S2048x768 .f32) (x2 : Vec F S2048x128 .f32)
    (x3 : Vec F S128x512 .f32) (x4 : Vec F S768x512 .f32) (x5 : Vec F S128x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E
          (cc2__lstm_score_kernel i arg1 harg1 arg2 harg2 arg3 harg3 arg4 harg4 arg5 harg5 arg6 harg6 arg7 harg7 arg8 harg8) K := by
  simp only [cc2__lstm_score_kernel_eq_skeleton]; unfold cc2__lstm_score_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 (F := F) _)

/-- The proof data of pipeline 2 on core `c`: arrays as found; after the body the three cut inputs' buffers at
    their blocks (zero-filled past the array), the four weight buffers at their blocks, the output's at the scores of
    the zero-filled blocks; the class invariant; nothing owed; full shares. -/
def dat2 (c : Dev nD) : Dat τ (Elt F) Unit ℕ (Pipeline.UD sig nD τ) ℕ cfg2 c where
  A w := V c (Pipeline.arrRef spec2 w)
  after w t := match w with
    | ⟨0, _⟩ => fblk2_0 V c t
    | ⟨1, _⟩ => fblk2_1 V c t
    | ⟨2, _⟩ => fblk2_2 V c t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (fblk2_0 V c t) (fblk2_1 V c t) (fblk2_2 V c t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = fblk2_0 V c t := by dsimp only [dat2]
theorem after2_1 (c : Dev nD) (t : Fin cfg2.N) : (dat2 V c).after 1 t = fblk2_1 V c t := by dsimp only [dat2]
theorem after2_2 (c : Dev nD) (t : Fin cfg2.N) : (dat2 V c).after 2 t = fblk2_2 V c t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t
    = out2_7 (fblk2_0 V c t) (fblk2_1 V c t) (fblk2_2 V c t) (iblk2 V c 3 t) (iblk2 V c 4 t) (iblk2 V c 5 t) (iblk2 V c 6 t) := by dsimp only [dat2]

/-- What the body finds: a cut input's buffer just fetched holds its block on the rows inside the array and `d` past them; -/
theorem before2_0 (c : Dev nD) (t : Fin cfg2.N) (d) :
    (dat2 V c).before 0 t d = win2_0.fill (grid2.coords t) d (iblk2 V c 0 t) := by
  unfold Dat.before; rw [if_pos (fetch2_0 t)]; rfl
theorem before2_1 (c : Dev nD) (t : Fin cfg2.N) (d) :
    (dat2 V c).before 1 t d = win2_1.fill (grid2.coords t) d (iblk2 V c 1 t) := by
  unfold Dat.before; rw [if_pos (fetch2_1 t)]; rfl
theorem before2_2 (c : Dev nD) (t : Fin cfg2.N) (d) :
    (dat2 V c).before 2 t d = win2_2.fill (grid2.coords t) d (iblk2 V c 2 t) := by
  unfold Dat.before; rw [if_pos (fetch2_2 t)]; rfl
/-- a weight buffer holds its whole block at every point, fetched there or not. -/
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)

/-- The body as the pipeline calls it at point `t`, on the point's current staging buffers: `sound_kernel2` there. -/
theorem sound_at2 (c : Dev nD) (t : Fin cfg2.N)
    (x0 : Vec F S2048x128 .f32) (x1 : Vec F S2048x768 .f32) (x2 : Vec F S2048x128 .f32)
    (x3 : Vec F S128x512 .f32) (x4 : Vec F S768x512 .f32) (x5 : Vec F S128x512 .f32) (x6 : Vec F S1x512 .f32) (K : PUnit → sProp 𝕄) :
    iprop(owns (c : Thread nD τ) (st2_0 t) fullShare x0 ∗ owns (c : Thread nD τ) (st2_1 t) fullShare x1 ∗ owns (c : Thread nD τ) (st2_2 t) fullShare x2
        ∗ owns (c : Thread nD τ) (st2_3 t) fullShare x3 ∗ owns (c : Thread nD τ) (st2_4 t) fullShare x4 ∗ owns (c : Thread nD τ) (st2_5 t) fullShare x5
        ∗ owns (c : Thread nD τ) (st2_6 t) fullShare x6 ∗ (∃ d, owns (c : Thread nD τ) (st2_7 t) fullShare d)
        ∗ (iprop(owns (c : Thread nD τ) (st2_0 t) fullShare x0 ∗ owns (c : Thread nD τ) (st2_1 t) fullShare x1 ∗ owns (c : Thread nD τ) (st2_2 t) fullShare x2
            ∗ owns (c : Thread nD τ) (st2_3 t) fullShare x3 ∗ owns (c : Thread nD τ) (st2_4 t) fullShare x4 ∗ owns (c : Thread nD τ) (st2_5 t) fullShare x5
            ∗ owns (c : Thread nD τ) (st2_6 t) fullShare x6 ∗ owns (c : Thread nD τ) (st2_7 t) fullShare (out2_7 x0 x1 x2 x3 x4 x5 x6)) -∗ K ⟨⟩))
      ⊢ wp frame (wpE (defs₀ (F := F)) Variants.none c none) Set.univ (defs₀ (F := F) .tc cfg2.body (cfg2.bodyArgs t (cfg2.slots t))) K :=
  sound_kernel2 c Set.univ (grid2.coords t) _ (hstage2_0 ((cfg2.slots t 0).cast nbuf2_0)) _ (hstage2_1 ((cfg2.slots t 1).cast nbuf2_1))
    _ (hstage2_2 ((cfg2.slots t 2).cast nbuf2_2)) _ (hstage2_3 ((cfg2.slots t 3).cast nbuf2_3)) _ (hstage2_4 ((cfg2.slots t 4).cast nbuf2_4))
    _ (hstage2_5 ((cfg2.slots t 5).cast nbuf2_5)) _ (hstage2_6 ((cfg2.slots t 6).cast nbuf2_6)) _ (hstage2_7 ((cfg2.slots t 7).cast nbuf2_7))
    x0 x1 x2 x3 x4 x5 x6 K

/-- The body obligation with the OUTPUT window (7) left unnamed: at any float instance the inputs are handed back as
    found (each cut one stated on the rows inside the array), the output at whatever the body wrote. This is what
    a claim that does not read the scores needs. -/
theorem body_obligation2_unnamed (c : Dev nD) :
    BodyObligationLoose (dat2 (F := F) V c) (defs₀ (F := F)) Variants.none () Set.univ
      (fun w => match w with | ⟨7, _⟩ => true | _ => false) := fun t => by
  rw [bigSep_W2, bigSep_W2]
  simp only [show (7 : Fin 8) = ⟨7, by omega⟩ from rfl]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%X7, H7⟩⟩
  rw [before2_0 V c t d0, before2_1 V c t d1, before2_2 V c t d2, before2_3 V c t d3, before2_4 V c t d4,
    before2_5 V c t d5, before2_6 V c t d6, after2_0, after2_1, after2_2, after2_3, after2_4, after2_5, after2_6]
  iapply (sound_at2 c t (win2_0.fill (grid2.coords t) d0 (iblk2 V c 0 t)) (win2_1.fill (grid2.coords t) d1 (iblk2 V c 1 t))
    (win2_2.fill (grid2.coords t) d2 (iblk2 V c 2 t)) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  have h0 : win2_0.cut (grid2.coords t) (fblk2_0 V c t) = iblk2 V c 0 t := win2_0.cut_fill _ _ _
  have h1 : win2_1.cut (grid2.coords t) (fblk2_1 V c t) = iblk2 V c 1 t := win2_1.cut_fill _ _ _
  have h2 : win2_2.cut (grid2.coords t) (fblk2_2 V c t) = iblk2 V c 2 t := win2_2.cut_fill _ _ _
  isplitl [H0]
  · iexists d0
    change _ ⊢ owns (c : Thread nD τ) (st2_0 t) fullShare (win2_0.fill (grid2.coords t) d0 (win2_0.cut (grid2.coords t) (fblk2_0 V c t)))
    rw [h0]
  isplitl [H1]
  · iexists d1
    change _ ⊢ owns (c : Thread nD τ) (st2_1 t) fullShare (win2_1.fill (grid2.coords t) d1 (win2_1.cut (grid2.coords t) (fblk2_1 V c t)))
    rw [h1]
  isplitl [H2]
  · iexists d2
    change _ ⊢ owns (c : Thread nD τ) (st2_2 t) fullShare (win2_2.fill (grid2.coords t) d2 (win2_2.cut (grid2.coords t) (fblk2_2 V c t)))
    rw [h2]
  isplitl [H3]; · iexact H3
  isplitl [H4]; · iexact H4
  isplitl [H5]; · iexact H5
  isplitl [H6]; · iexact H6
  iexists _; iexact H7

/-- The body obligation with the output NAMED, given that the rows of the scores inside the array do not depend on
    what the cut inputs' buffers hold past the array's end (true where the arithmetic is row by row: at the exact
    instance; the hypothesis is discharged there). -/
theorem body_obligation2_of (c : Dev nD)
    (hrow : ∀ (t : Fin cfg2.N) (d0 : S2048x128.Idx → Elt F .f32) (d1 : S2048x768.Idx → Elt F .f32) (d2 : S2048x128.Idx → Elt F .f32),
      win2_7.cut (grid2.coords t) (out2_7 (win2_0.fill (grid2.coords t) d0 (iblk2 V c 0 t)) (win2_1.fill (grid2.coords t) d1 (iblk2 V c 1 t))
          (win2_2.fill (grid2.coords t) d2 (iblk2 V c 2 t)) (iblk2 V c 3 t) (iblk2 V c 4 t) (iblk2 V c 5 t) (iblk2 V c 6 t))
        = win2_7.cut (grid2.coords t) (out2_7 (fblk2_0 V c t) (fblk2_1 V c t) (fblk2_2 V c t) (iblk2 V c 3 t) (iblk2 V c 4 t) (iblk2 V c 5 t) (iblk2 V c 6 t))) :
    BodyObligationLoose (dat2 (F := F) V c) (defs₀ (F := F)) Variants.none () Set.univ := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before2_0 V c t d0, before2_1 V c t d1, before2_2 V c t d2, before2_3 V c t d3, before2_4 V c t d4,
    before2_5 V c t d5, before2_6 V c t d6, after2_0, after2_1, after2_2, after2_3, after2_4, after2_5, after2_6, after2_7]
  iapply (sound_at2 c t (win2_0.fill (grid2.coords t) d0 (iblk2 V c 0 t)) (win2_1.fill (grid2.coords t) d1 (iblk2 V c 1 t))
    (win2_2.fill (grid2.coords t) d2 (iblk2 V c 2 t)) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  have h0 : win2_0.cut (grid2.coords t) (fblk2_0 V c t) = iblk2 V c 0 t := win2_0.cut_fill _ _ _
  have h1 : win2_1.cut (grid2.coords t) (fblk2_1 V c t) = iblk2 V c 1 t := win2_1.cut_fill _ _ _
  have h2 : win2_2.cut (grid2.coords t) (fblk2_2 V c t) = iblk2 V c 2 t := win2_2.cut_fill _ _ _
  isplitl [H0]
  · iexists d0
    change _ ⊢ owns (c : Thread nD τ) (st2_0 t) fullShare (win2_0.fill (grid2.coords t) d0 (win2_0.cut (grid2.coords t) (fblk2_0 V c t)))
    rw [h0]
  isplitl [H1]
  · iexists d1
    change _ ⊢ owns (c : Thread nD τ) (st2_1 t) fullShare (win2_1.fill (grid2.coords t) d1 (win2_1.cut (grid2.coords t) (fblk2_1 V c t)))
    rw [h1]
  isplitl [H2]
  · iexists d2
    change _ ⊢ owns (c : Thread nD τ) (st2_2 t) fullShare (win2_2.fill (grid2.coords t) d2 (win2_2.cut (grid2.coords t) (fblk2_2 V c t)))
    rw [h2]
  isplitl [H3]; · iexact H3
  isplitl [H4]; · iexact H4
  isplitl [H5]; · iexact H5
  isplitl [H6]; · iexact H6
  -- the scores as computed agree on the rows inside the array with the scores of the zero-filled blocks (`hrow`):
  -- the buffer's own contents are the filler that states them so
  iexists (out2_7 (win2_0.fill (grid2.coords t) d0 (iblk2 V c 0 t)) (win2_1.fill (grid2.coords t) d1 (iblk2 V c 1 t))
    (win2_2.fill (grid2.coords t) d2 (iblk2 V c 2 t)) (iblk2 V c 3 t) (iblk2 V c 4 t) (iblk2 V c 5 t) (iblk2 V c 6 t))
  change _ ⊢ owns (c : Thread nD τ) (st2_7 t) fullShare (win2_7.fill (grid2.coords t)
    (out2_7 (win2_0.fill (grid2.coords t) d0 (iblk2 V c 0 t)) (win2_1.fill (grid2.coords t) d1 (iblk2 V c 1 t))
      (win2_2.fill (grid2.coords t) d2 (iblk2 V c 2 t)) (iblk2 V c 3 t) (iblk2 V c 4 t) (iblk2 V c 5 t) (iblk2 V c 6 t))
    (win2_7.cut (grid2.coords t) (out2_7 (fblk2_0 V c t) (fblk2_1 V c t) (fblk2_2 V c t) (iblk2 V c 3 t) (iblk2 V c 4 t) (iblk2 V c 5 t) (iblk2 V c 6 t))))
  rw [← hrow t d0 d1 d2, win2_7.fill_cut]

end Cert.KernelIdeal.Hand

end
-- ==== Proof.KIRun.lean ====
/-
  The run of the whole program: @main is nine items — three stretches of host operations (indices, degrees,
  normalisation), launch 0 (first dense product), two stretches (gather, scale, scatter-add, bias, relu), launch 1
  (second dense product), one stretch (the second aggregation, the per-triple row gathers, the split weights and the
  bias row), launch 2 (the scores). The contents of every unscoped buffer are followed from the launch memory through
  each item: a host stretch applies its operations, a launch leaves its arrays at what its write-backs leave. Every
  weakly fair execution terminates with every unscoped buffer at the last of these valuations.
-/
import proofs.«132953_j50156628082716_1_alg».proof.Proof.KIReg0
import proofs.«132953_j50156628082716_1_alg».proof.Proof.KIReg1
import proofs.«132953_j50156628082716_1_alg».proof.Proof.KIReg2
import proofs.«132953_j50156628082716_1_alg».proof.Proof.Gen.KernelIdeal.Regions
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ)

/-! ## The buffers' contents between the items -/

/-- Core `c`'s unscoped buffers at launch, then after each of the first three host stretches. -/
abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
/-- The same read at the TensorCore's references: what launch 0 is entered with. -/
abbrev U3 : (c : Dev nD) → (b : Ref sig .tc) → Buf (Elt F) ((c : Thread nD τ).loc b) := fun c b => W3 m c b

/-- After launch 0: its arrays at what the write-backs leave, every other buffer as the launch found it. -/
def W4 (c : Dev nD) : Valuation τ sig (Elt F) :=
  Pipeline.withArrays spec0 c (W3 m c) fun w => (dat0 (U3 m) c).arrAt w cfg0.N
theorem W4_arr (c : Dev nD) (w : Fin cfg0.W) :
    W4 m c (Proc.devRef .tc (Pipeline.arrRef spec0 w)) = (dat0 (U3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem hF0 (c : Dev nD) (w : Fin cfg0.W) : (dat0 (U3 m) c).arrAt w cfg0.N = W4 m c (Pipeline.arrRef spec0 w) :=
  (W4_arr m c w).symm
theorem hrest0 (c : Dev nD) : ∀ b, b ∉ Finset.univ.image (Pipeline.arrRef spec0) → (fun b : Ref sig .tc => W4 m c b) b = U3 m c b :=
  fun b hb => W4_of_ne m c b fun w e => hb (Finset.mem_image.mpr ⟨w, Finset.mem_univ _, e⟩)

abbrev W5 (c : Dev nD) : Valuation τ sig (Elt F) := StableHlo.after hostOps1 (W4 m c)
abbrev W6 (c : Dev nD) : Valuation τ sig (Elt F) := StableHlo.after hostOps1_1 (W5 m c)
/-- What launch 1 is entered with. -/
abbrev U6 : (c : Dev nD) → (b : Ref sig .tc) → Buf (Elt F) ((c : Thread nD τ).loc b) := fun c b => W6 m c b

/-- After launch 1: its arrays at what the write-backs leave, every other buffer as the launch found it. -/
def W7 (c : Dev nD) : Valuation τ sig (Elt F) :=
  Pipeline.withArrays spec1 c (W6 m c) fun w => (dat1 (U6 m) c).arrAt w cfg1.N
theorem W7_arr (c : Dev nD) (w : Fin cfg1.W) :
    W7 m c (Proc.devRef .tc (Pipeline.arrRef spec1 w)) = (dat1 (U6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
theorem hF1 (c : Dev nD) (w : Fin cfg1.W) : (dat1 (U6 m) c).arrAt w cfg1.N = W7 m c (Pipeline.arrRef spec1 w) :=
  (W7_arr m c w).symm
theorem hrest1 (c : Dev nD) : ∀ b, b ∉ Finset.univ.image (Pipeline.arrRef spec1) → (fun b : Ref sig .tc => W7 m c b) b = U6 m c b :=
  fun b hb => W7_of_ne m c b fun w e => hb (Finset.mem_image.mpr ⟨w, Finset.mem_univ _, e⟩)

abbrev W8 (c : Dev nD) : Valuation τ sig (Elt F) := StableHlo.after hostOps2 (W7 m c)
/-- What launch 2 is entered with. -/
abbrev U8 : (c : Dev nD) → (b : Ref sig .tc) → Buf (Elt F) ((c : Thread nD τ).loc b) := fun c b => W8 m c b

/-- After launch 2: its arrays at what the write-backs leave, every other buffer as the launch found it. -/
def W9 (c : Dev nD) : Valuation τ sig (Elt F) :=
  Pipeline.withArrays spec2 c (W8 m c) fun w => (dat2 (U8 m) c).arrAt w cfg2.N
theorem W9_arr (c : Dev nD) (w : Fin cfg2.W) :
    W9 m c (Proc.devRef .tc (Pipeline.arrRef spec2 w)) = (dat2 (U8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
theorem hF2 (c : Dev nD) (w : Fin cfg2.W) : (dat2 (U8 m) c).arrAt w cfg2.N = W9 m c (Pipeline.arrRef spec2 w) :=
  (W9_arr m c w).symm
theorem hrest2 (c : Dev nD) : ∀ b, b ∉ Finset.univ.image (Pipeline.arrRef spec2) → (fun b : Ref sig .tc => W9 m c b) b = U8 m c b :=
  fun b hb => W9_of_ne m c b fun w e => hb (Finset.mem_image.mpr ⟨w, Finset.mem_univ _, e⟩)

/-! ## The proof data family and the thread state -/

/-- No launch has a prefetched table. -/
abbrev adm : (p : Fin 3) → (pcfgs (F := F) p).Adm := fun p => (cfgs p).toPCfg_adm
/-- Each launch's proof data at the contents it is entered with (a literal match on the launch's number). -/
def pdats : (p : Fin 3) → (c : Dev nD) → Dat τ (Elt F) Unit ℕ (Pipeline.UD sig nD τ) ℕ (Pipeline.pin (pcfgs (F := F)) adm p) c
  | ⟨0, _⟩ => fun c => dat0 (U3 m) c
  | ⟨1, _⟩ => fun c => dat1 (U6 m) c
  | ⟨2, _⟩ => fun c => dat2 (U8 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last contents, the register at some state. -/
abbrev Tₙ (c : Dev nD) : sProp 𝕄 := iprop(StableHlo.held (c : Thread nD τ) (Pipeline.ucRefs τ sig) (W9 m c) ∗ ∃ r, prngReg c r)

/-! ## The launches as segments -/

-- Launch 2's body obligation is a hypothesis here: its proof needs the arithmetic to be row by row.
variable (hb2 : ∀ c : Dev nD, BodyObligationLoose (dat2 (F := F) (U8 m) c) (defs₀ (F := F)) Variants.none () Set.univ)

-- unification of the library's statements over the pinned configuration unfolds plain definitions in a metavariable's type
set_option backward.isDefEq.respectTransparency.types false in
/-- Launch 0 as a segment of @main: entered with every unscoped buffer at `W3`, left with them at `W4`.
    The launch's arrays are split out of the unscoped buffers at entry and put back at exit at what the
    write-backs leave; the generator register goes into the class invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (U3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (U3 m c) (fun b => W4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's statements over the pinned configuration unfolds plain definitions in a metavariable's type
set_option backward.isDefEq.respectTransparency.types false in
/-- Launch 1 as a segment of @main: entered with every unscoped buffer at `W6`, left with them at `W7`.
    The launch's arrays are split out of the unscoped buffers at entry and put back at exit at what the
    write-backs leave; the generator register goes into the class invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (U6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (U6 m c) (fun b => W7 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's statements over the pinned configuration unfolds plain definitions in a metavariable's type
set_option backward.isDefEq.respectTransparency.types false in
/-- Launch 2 as a segment of @main: entered with every unscoped buffer at `W8`, left with them at `W9`.
    The launch's arrays are split out of the unscoped buffers at entry and put back at exit at what the
    write-backs leave; the generator register goes into the class invariant and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := hb2 c
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (U8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (U8 m c) (fun b => W9 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .region (reg1 m),
    .host (hseg hostOps2 hostOps2_sub hostOps2_fresh (W7 m)),
    .region (reg2 m hb2) ]

theorem main_run (c : Dev nD) : main (F := F) c = Pipeline.Seg.run (segs m hb2) := (main_chain c).trans (by chain_rfl)

include hb2 in
set_option backward.isDefEq.respectTransparency.types false in
/-- Every weakly fair execution of @main from memory `m` with zero counters terminates, and in every final state each
    unscoped buffer holds what the last valuation says. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj embL defs₀ 𝒱₀ L lv m ρ main (segs m hb2)
    (fun c Q => by rw [main_run m hb2 c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun c => by
        show iprop(StableHlo.held (c : Thread nD τ) (Pipeline.ucRefs τ sig) (W9 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.KernelIdeal.Hand

end
-- ==== Proof.KIArgs.lean ====
/- No item of @main changes an argument array: a host stretch writes only the buffers it defines, a launch writes
  only its output array and leaves each input array as it found it. So the last valuation of the run holds every
  argument at its launch contents.
-/
import proofs.«132953_j50156628082716_1_alg».proof.Proof.KIRun

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- The host stretch hostOps0 leaves every buffer it does not write as it found it. -/
theorem W1_of (c : Dev nD) (r : Ref sig .tc) (h : r ∉ hostOps0_W) : W1 m c (Proc.devRef .tc r) = W0 m c (Proc.devRef .tc r) :=
  StableHlo.after_of_writes_sub hostOps0 _ hostOps0_writes h
/-- The host stretch hostOps0_1 leaves every buffer it does not write as it found it. -/
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
/-- The host stretch hostOps0_2 leaves every buffer it does not write as it found it. -/
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
/-- The host stretch hostOps1 leaves every buffer it does not write as it found it. -/
theorem W5_of (c : Dev nD) (r : Ref sig .tc) (h : r ∉ hostOps1_W) : W5 m c (Proc.devRef .tc r) = W4 m c (Proc.devRef .tc r) :=
  StableHlo.after_of_writes_sub hostOps1 _ hostOps1_writes h
/-- The host stretch hostOps1_1 leaves every buffer it does not write as it found it. -/
theorem W6_of (c : Dev nD) (r : Ref sig .tc) (h : r ∉ hostOps1_1_W) : W6 m c (Proc.devRef .tc r) = W5 m c (Proc.devRef .tc r) :=
  StableHlo.after_of_writes_sub hostOps1_1 _ hostOps1_1_writes h
/-- The host stretch hostOps2 leaves every buffer it does not write as it found it. -/
theorem W8_of (c : Dev nD) (r : Ref sig .tc) (h : r ∉ hostOps2_W) : W8 m c (Proc.devRef .tc r) = W7 m c (Proc.devRef .tc r) :=
  StableHlo.after_of_writes_sub hostOps2 _ hostOps2_writes h

/-- Argument 0 reaches the end as launched. -/
theorem W9_main_arg0 (c : Dev nD) : W9 m c (Proc.devRef .tc main_arg0) = m ((c : Thread nD τ).loc main_arg0) :=
  calc W9 m c (Proc.devRef .tc main_arg0)
    _ = W8 m c (Proc.devRef .tc main_arg0) := W9_of_ne m c main_arg0 (by decide)
    _ = W7 m c (Proc.devRef .tc main_arg0) := W8_of m c main_arg0 (by decide)
    _ = W6 m c (Proc.devRef .tc main_arg0) := W7_of_ne m c main_arg0 (by decide)
    _ = W5 m c (Proc.devRef .tc main_arg0) := W6_of m c main_arg0 (by decide)
    _ = W4 m c (Proc.devRef .tc main_arg0) := W5_of m c main_arg0 (by decide)
    _ = W3 m c (Proc.devRef .tc main_arg0) := (W4_arr m c 0).trans (((dat0 (U3 m) c).arrAt_in 0 rfl _).trans (A_eq0 (U3 m) c 0))
    _ = W2 m c (Proc.devRef .tc main_arg0) := W3_of m c main_arg0 (by decide)
    _ = W1 m c (Proc.devRef .tc main_arg0) := W2_of m c main_arg0 (by decide)
    _ = W0 m c (Proc.devRef .tc main_arg0) := W1_of m c main_arg0 (by decide)
    _ = m ((c : Thread nD τ).loc main_arg0) := rfl

/-- Argument 1 reaches the end as launched. -/
theorem W9_main_arg1 (c : Dev nD) : W9 m c (Proc.devRef .tc main_arg1) = m ((c : Thread nD τ).loc main_arg1) :=
  calc W9 m c (Proc.devRef .tc main_arg1)
    _ = W8 m c (Proc.devRef .tc main_arg1) := (W9_arr m c 1).trans (((dat2 (U8 m) c).arrAt_in 1 rfl _).trans (A_eq2 (U8 m) c 1))
    _ = W7 m c (Proc.devRef .tc main_arg1) := W8_of m c main_arg1 (by decide)
    _ = W6 m c (Proc.devRef .tc main_arg1) := W7_of_ne m c main_arg1 (by decide)
    _ = W5 m c (Proc.devRef .tc main_arg1) := W6_of m c main_arg1 (by decide)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of m c main_arg1 (by decide)
    _ = W0 m c (Proc.devRef .tc main_arg1) := W1_of m c main_arg1 (by decide)
    _ = m ((c : Thread nD τ).loc main_arg1) := rfl

/-- Argument 2 reaches the end as launched. -/
theorem W9_main_arg2 (c : Dev nD) : W9 m c (Proc.devRef .tc main_arg2) = m ((c : Thread nD τ).loc main_arg2) :=
  calc W9 m c (Proc.devRef .tc main_arg2)
    _ = W8 m c (Proc.devRef .tc main_arg2) := W9_of_ne m c main_arg2 (by decide)
    _ = W7 m c (Proc.devRef .tc main_arg2) := W8_of m c main_arg2 (by decide)
    _ = W6 m c (Proc.devRef .tc main_arg2) := W7_of_ne m c main_arg2 (by decide)
    _ = W5 m c (Proc.devRef .tc main_arg2) := W6_of m c main_arg2 (by decide)
    _ = W4 m c (Proc.devRef .tc main_arg2) := W5_of m c main_arg2 (by decide)
    _ = W3 m c (Proc.devRef .tc main_arg2) := (W4_arr m c 1).trans (((dat0 (U3 m) c).arrAt_in 1 rfl _).trans (A_eq0 (U3 m) c 1))
    _ = W2 m c (Proc.devRef .tc main_arg2) := W3_of m c main_arg2 (by decide)
    _ = W1 m c (Proc.devRef .tc main_arg2) := W2_of m c main_arg2 (by decide)
    _ = W0 m c (Proc.devRef .tc main_arg2) := W1_of m c main_arg2 (by decide)
    _ = m ((c : Thread nD τ).loc main_arg2) := rfl

/-- Argument 3 reaches the end as launched. -/
theorem W9_main_arg3 (c : Dev nD) : W9 m c (Proc.devRef .tc main_arg3) = m ((c : Thread nD τ).loc main_arg3) :=
  calc W9 m c (Proc.devRef .tc main_arg3)
    _ = W8 m c (Proc.devRef .tc main_arg3) := W9_of_ne m c main_arg3 (by decide)
    _ = W7 m c (Proc.devRef .tc main_arg3) := W8_of m c main_arg3 (by decide)
    _ = W6 m c (Proc.devRef .tc main_arg3) := W7_of_ne m c main_arg3 (by decide)
    _ = W5 m c (Proc.devRef .tc main_arg3) := W6_of m c main_arg3 (by decide)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of m c main_arg3 (by decide)
    _ = W0 m c (Proc.devRef .tc main_arg3) := W1_of m c main_arg3 (by decide)
    _ = m ((c : Thread nD τ).loc main_arg3) := rfl

/-- Argument 4 reaches the end as launched. -/
theorem W9_main_arg4 (c : Dev nD) : W9 m c (Proc.devRef .tc main_arg4) = m ((c : Thread nD τ).loc main_arg4) :=
  calc W9 m c (Proc.devRef .tc main_arg4)
    _ = W8 m c (Proc.devRef .tc main_arg4) := W9_of_ne m c main_arg4 (by decide)
    _ = W7 m c (Proc.devRef .tc main_arg4) := W8_of m c main_arg4 (by decide)
    _ = W6 m c (Proc.devRef .tc main_arg4) := (W7_arr m c 1).trans (((dat1 (U6 m) c).arrAt_in 1 rfl _).trans (A_eq1 (U6 m) c 1))
    _ = W5 m c (Proc.devRef .tc main_arg4) := W6_of m c main_arg4 (by decide)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of m c main_arg4 (by decide)
    _ = W0 m c (Proc.devRef .tc main_arg4) := W1_of m c main_arg4 (by decide)
    _ = m ((c : Thread nD τ).loc main_arg4) := rfl

/-- Argument 5 reaches the end as launched. -/
theorem W9_main_arg5 (c : Dev nD) : W9 m c (Proc.devRef .tc main_arg5) = m ((c : Thread nD τ).loc main_arg5) :=
  calc W9 m c (Proc.devRef .tc main_arg5)
    _ = W8 m c (Proc.devRef .tc main_arg5) := W9_of_ne m c main_arg5 (by decide)
    _ = W7 m c (Proc.devRef .tc main_arg5) := W8_of m c main_arg5 (by decide)
    _ = W6 m c (Proc.devRef .tc main_arg5) := W7_of_ne m c main_arg5 (by decide)
    _ = W5 m c (Proc.devRef .tc main_arg5) := W6_of m c main_arg5 (by decide)
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of m c main_arg5 (by decide)
    _ = W0 m c (Proc.devRef .tc main_arg5) := W1_of m c main_arg5 (by decide)
    _ = m ((c : Thread nD τ).loc main_arg5) := rfl

/-- Argument 6 reaches the end as launched. -/
theorem W9_main_arg6 (c : Dev nD) : W9 m c (Proc.devRef .tc main_arg6) = m ((c : Thread nD τ).loc main_arg6) :=
  calc W9 m c (Proc.devRef .tc main_arg6)
    _ = W8 m c (Proc.devRef .tc main_arg6) := W9_of_ne m c main_arg6 (by decide)
    _ = W7 m c (Proc.devRef .tc main_arg6) := W8_of m c main_arg6 (by decide)
    _ = W6 m c (Proc.devRef .tc main_arg6) := W7_of_ne m c main_arg6 (by decide)
    _ = W5 m c (Proc.devRef .tc main_arg6) := W6_of m c main_arg6 (by decide)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of m c main_arg6 (by decide)
    _ = W0 m c (Proc.devRef .tc main_arg6) := W1_of m c main_arg6 (by decide)
    _ = m ((c : Thread nD τ).loc main_arg6) := rfl

/-- Argument 7 reaches the end as launched. -/
theorem W9_main_arg7 (c : Dev nD) : W9 m c (Proc.devRef .tc main_arg7) = m ((c : Thread nD τ).loc main_arg7) :=
  calc W9 m c (Proc.devRef .tc main_arg7)
    _ = W8 m c (Proc.devRef .tc main_arg7) := W9_of_ne m c main_arg7 (by decide)
    _ = W7 m c (Proc.devRef .tc main_arg7) := W8_of m c main_arg7 (by decide)
    _ = W6 m c (Proc.devRef .tc main_arg7) := W7_of_ne m c main_arg7 (by decide)
    _ = W5 m c (Proc.devRef .tc main_arg7) := W6_of m c main_arg7 (by decide)
    _ = W4 m c (Proc.devRef .tc main_arg7) := W5_of m c main_arg7 (by decide)
    _ = W3 m c (Proc.devRef .tc main_arg7) := W4_of_ne m c main_arg7 (by decide)
    _ = W2 m c (Proc.devRef .tc main_arg7) := W3_of m c main_arg7 (by decide)
    _ = W1 m c (Proc.devRef .tc main_arg7) := W2_of m c main_arg7 (by decide)
    _ = W0 m c (Proc.devRef .tc main_arg7) := W1_of m c main_arg7 (by decide)
    _ = m ((c : Thread nD τ).loc main_arg7) := rfl

/-- Argument 8 reaches the end as launched. -/
theorem W9_main_arg8 (c : Dev nD) : W9 m c (Proc.devRef .tc main_arg8) = m ((c : Thread nD τ).loc main_arg8) :=
  calc W9 m c (Proc.devRef .tc main_arg8)
    _ = W8 m c (Proc.devRef .tc main_arg8) := W9_of_ne m c main_arg8 (by decide)
    _ = W7 m c (Proc.devRef .tc main_arg8) := W8_of m c main_arg8 (by decide)
    _ = W6 m c (Proc.devRef .tc main_arg8) := W7_of_ne m c main_arg8 (by decide)
    _ = W5 m c (Proc.devRef .tc main_arg8) := W6_of m c main_arg8 (by decide)
    _ = W4 m c (Proc.devRef .tc main_arg8) := W5_of m c main_arg8 (by decide)
    _ = W3 m c (Proc.devRef .tc main_arg8) := W4_of_ne m c main_arg8 (by decide)
    _ = W2 m c (Proc.devRef .tc main_arg8) := W3_of m c main_arg8 (by decide)
    _ = W1 m c (Proc.devRef .tc main_arg8) := W2_of m c main_arg8 (by decide)
    _ = W0 m c (Proc.devRef .tc main_arg8) := W1_of m c main_arg8 (by decide)
    _ = m ((c : Thread nD τ).loc main_arg8) := rfl

/-- Argument 9 reaches the end as launched. -/
theorem W9_main_arg9 (c : Dev nD) : W9 m c (Proc.devRef .tc main_arg9) = m ((c : Thread nD τ).loc main_arg9) :=
  calc W9 m c (Proc.devRef .tc main_arg9)
    _ = W8 m c (Proc.devRef .tc main_arg9) := W9_of_ne m c main_arg9 (by decide)
    _ = W7 m c (Proc.devRef .tc main_arg9) := W8_of m c main_arg9 (by decide)
    _ = W6 m c (Proc.devRef .tc main_arg9) := W7_of_ne m c main_arg9 (by decide)
    _ = W5 m c (Proc.devRef .tc main_arg9) := W6_of m c main_arg9 (by decide)
    _ = W4 m c (Proc.devRef .tc main_arg9) := W5_of m c main_arg9 (by decide)
    _ = W3 m c (Proc.devRef .tc main_arg9) := W4_of_ne m c main_arg9 (by decide)
    _ = W2 m c (Proc.devRef .tc main_arg9) := W3_of m c main_arg9 (by decide)
    _ = W1 m c (Proc.devRef .tc main_arg9) := W2_of m c main_arg9 (by decide)
    _ = W0 m c (Proc.devRef .tc main_arg9) := W1_of m c main_arg9 (by decide)
    _ = m ((c : Thread nD τ).loc main_arg9) := rfl

/-- Argument 10 reaches the end as launched. -/
theorem W9_main_arg10 (c : Dev nD) : W9 m c (Proc.devRef .tc main_arg10) = m ((c : Thread nD τ).loc main_arg10) :=
  calc W9 m c (Proc.devRef .tc main_arg10)
    _ = W8 m c (Proc.devRef .tc main_arg10) := W9_of_ne m c main_arg10 (by decide)
    _ = W7 m c (Proc.devRef .tc main_arg10) := W8_of m c main_arg10 (by decide)
    _ = W6 m c (Proc.devRef .tc main_arg10) := W7_of_ne m c main_arg10 (by decide)
    _ = W5 m c (Proc.devRef .tc main_arg10) := W6_of m c main_arg10 (by decide)
    _ = W4 m c (Proc.devRef .tc main_arg10) := W5_of m c main_arg10 (by decide)
    _ = W3 m c (Proc.devRef .tc main_arg10) := W4_of_ne m c main_arg10 (by decide)
    _ = W2 m c (Proc.devRef .tc main_arg10) := W3_of m c main_arg10 (by decide)
    _ = W1 m c (Proc.devRef .tc main_arg10) := W2_of m c main_arg10 (by decide)
    _ = W0 m c (Proc.devRef .tc main_arg10) := W1_of m c main_arg10 (by decide)
    _ = m ((c : Thread nD τ).loc main_arg10) := rfl

/-- Argument 11 reaches the end as launched. -/
theorem W9_main_arg11 (c : Dev nD) : W9 m c (Proc.devRef .tc main_arg11) = m ((c : Thread nD τ).loc main_arg11) :=
  calc W9 m c (Proc.devRef .tc main_arg11)
    _ = W8 m c (Proc.devRef .tc main_arg11) := W9_of_ne m c main_arg11 (by decide)
    _ = W7 m c (Proc.devRef .tc main_arg11) := W8_of m c main_arg11 (by decide)
    _ = W6 m c (Proc.devRef .tc main_arg11) := W7_of_ne m c main_arg11 (by decide)
    _ = W5 m c (Proc.devRef .tc main_arg11) := W6_of m c main_arg11 (by decide)
    _ = W4 m c (Proc.devRef .tc main_arg11) := W5_of m c main_arg11 (by decide)
    _ = W3 m c (Proc.devRef .tc main_arg11) := W4_of_ne m c main_arg11 (by decide)
    _ = W2 m c (Proc.devRef .tc main_arg11) := W3_of m c main_arg11 (by decide)
    _ = W1 m c (Proc.devRef .tc main_arg11) := W2_of m c main_arg11 (by decide)
    _ = W0 m c (Proc.devRef .tc main_arg11) := W1_of m c main_arg11 (by decide)
    _ = m ((c : Thread nD τ).loc main_arg11) := rfl

end Cert.KernelIdeal.Hand

end
-- ==== Proof.Spec.lean ====
/-
  The mathematics the three kernel launches compute, over the extended reals, as whole-array functions.
  `mm`: a plain matrix product, entry (a, b) the sum over k of x(a, k) * w(k, b).
  `gate`: the pre-activation of one LSTM gate column j for triple t: three partial products over the head
  vector (128 columns), the relation embedding (768 columns) and the tail vector (128 columns), plus the bias row.
  `score`: with zero initial cell and hidden state the forget gate drops out; the cell is
  sigmoid(input gate) * tanh(candidate), the output sigmoid(output gate) * tanh(cell), and the score of triple t
  is the sigmoid of the sum of the 128 outputs. Gate columns: input 0..127, candidate 256..383, output 384..511.
-/
import Idealize.ShloMosaic.Lib.ValueIdx
import Idealize.ShloMosaic.PureOps.Ideal

noncomputable section

namespace Cert.Spec

open Idealize.ShloMosaic Idealize.ShloMosaic.ValueIdx

/-- A rank-2 shape of literal extents. -/
abbrev T2 (a b : Nat) : Shape := ⟨2, ![a, b]⟩
/-- A rank-1 shape of a literal extent. -/
abbrev T1 (a : Nat) : Shape := ⟨1, ![a]⟩

/-- The matrix product: entry `i` is the sum over `k` of `x (i 0, k) * w (k, i 1)`. -/
def mm {A K B : Nat} (x : (T2 A K).Idx → EReal) (w : (T2 K B).Idx → EReal) : (T2 A B).Idx → EReal :=
  fun i => ∑ k : Fin K, x (ix2 (n0 := A) (n1 := K) (i 0) k) * w (ix2 (n0 := K) (n1 := B) k (i 1))

/-- Gate column `j` of triple `t` before the nonlinearity. -/
def gate (h : (T2 100000 128).Idx → EReal) (r : (T2 100000 768).Idx → EReal) (tv : (T2 100000 128).Idx → EReal)
    (w1 : (T2 128 512).Idx → EReal) (w2 : (T2 768 512).Idx → EReal) (w3 : (T2 128 512).Idx → EReal)
    (b : (T2 1 512).Idx → EReal) (t : Fin 100000) (j : Fin 512) : EReal :=
  (∑ k : Fin 128, h (ix2 t k) * w1 (ix2 k j)) + (∑ k : Fin 768, r (ix2 t k) * w2 (ix2 k j))
    + (∑ k : Fin 128, tv (ix2 t k) * w3 (ix2 k j)) + b (ix2 (0 : Fin 1) j)

/-- Column `q` of gate block `g` (blocks of 128 columns; block 0 input, 2 candidate, 3 output). -/
def col (g : Fin 4) (q : Fin 128) : Fin 512 := ⟨g.val * 128 + q.val, by have := g.isLt; have := q.isLt; omega⟩

/-- One output unit `q` of triple `t`, given the gate pre-activations of that triple. -/
def unit (G : Fin 512 → EReal) (q : Fin 128) : EReal :=
  Ideal.logistic (G (col 3 q)) * Ideal.tanh (Ideal.logistic (G (col 0 q)) * Ideal.tanh (G (col 2 q)))

/-- The score of every triple. -/
def score (h : (T2 100000 128).Idx → EReal) (r : (T2 100000 768).Idx → EReal) (tv : (T2 100000 128).Idx → EReal)
    (w1 : (T2 128 512).Idx → EReal) (w2 : (T2 768 512).Idx → EReal) (w3 : (T2 128 512).Idx → EReal)
    (b : (T2 1 512).Idx → EReal) : (T1 100000).Idx → EReal :=
  fun i => Ideal.logistic (∑ q : Fin 128, unit (gate h r tv w1 w2 w3 b (i 0)) q)

end Cert.Spec

end
-- ==== Proof.KIVal0.lean ====
/-
  Region 0, the value: the fifteen row blocks the launch writes back are the row blocks of ONE matrix, the product
  of the node features (15000 x 768) and the weight (768 x 10). Entry (p, q) of a block's product is the sum over
  k of the feature block at (p, k) times the weight at (k, q); the narrowing of both operands to bf16 is the
  identity over the extended reals, and the accumulator starts at zero. Block t holds rows 1000 t .. 1000 t + 999,
  and the fifteen blocks tile the 15000 rows, so the array ends at the product.
-/
import proofs.«132953_j50156628082716_1_alg».proof.Proof.KIReg0
import proofs.«132953_j50156628082716_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The product payload at an index -/

/-- The left operand's index at output (i, q): row from the output's row. -/
theorem lhs_k0_0 (i : S1000x10.Idx) (q : dot_S1000x768_S768x10_S1000x10_1_0_0_1_n_n.contr.Idx) :
    (dot_S1000x768_S768x10_S1000x10_1_0_0_1_n_n.lhsIdx i q 0).val = (i 0).val := by
  unfold DotDims.lhsIdx
  rw [dif_neg (show ¬(0 : Fin S1000x768.rank) ∈ dot_S1000x768_S768x10_S1000x10_1_0_0_1_n_n.lhsBatch by decide), dif_pos (show (0 : Fin S1000x768.rank) ∈ dot_S1000x768_S768x10_S1000x10_1_0_0_1_n_n.lhsNonContracting by decide)]
  rfl
/-- Its column is the contraction index. -/
theorem lhs_k0_1 (i : S1000x10.Idx) (q : dot_S1000x768_S768x10_S1000x10_1_0_0_1_n_n.contr.Idx) :
    (dot_S1000x768_S768x10_S1000x10_1_0_0_1_n_n.lhsIdx i q 1).val = (q ⟨0, by decide⟩).val :=
  dot_S1000x768_S768x10_S1000x10_1_0_0_1_n_n.lhsIdx_val_of_single rfl i q
/-- The right operand's row is the contraction index. -/
theorem rhs_k0_0 (i : S1000x10.Idx) (q : dot_S1000x768_S768x10_S1000x10_1_0_0_1_n_n.contr.Idx) :
    (dot_S1000x768_S768x10_S1000x10_1_0_0_1_n_n.rhsIdx i q 0).val = (q ⟨0, by decide⟩).val :=
  dot_S1000x768_S768x10_S1000x10_1_0_0_1_n_n.rhsIdx_val_of_single rfl i q
/-- Its column is the output's column. -/
theorem rhs_k0_1 (i : S1000x10.Idx) (q : dot_S1000x768_S768x10_S1000x10_1_0_0_1_n_n.contr.Idx) :
    (dot_S1000x768_S768x10_S1000x10_1_0_0_1_n_n.rhsIdx i q 1).val = (i 1).val := by
  unfold DotDims.rhsIdx
  rw [dif_neg (show ¬(1 : Fin S768x10.rank) ∈ dot_S1000x768_S768x10_S1000x10_1_0_0_1_n_n.rhsBatch by decide), dif_pos (show (1 : Fin S768x10.rank) ∈ dot_S1000x768_S768x10_S1000x10_1_0_0_1_n_n.rhsNonContracting by decide)]
  rfl

/-- Entry (p, q) of the payload: the sum over k of the left block at (p, k) times the right block at (k, q). -/
theorem pay0_apply (x0 : Vec Ideal S1000x768 .f32) (x1 : Vec Ideal S768x10 .f32) (p : Fin 1000) (q : Fin 10) :
    (k0_pay1 (F := Ideal) x0 x1 : S1000x10.Idx → EReal) (ix2 p q) = ∑ k : Fin 768, x0 (ix2 p k) * x1 (ix2 k q) := by
  unfold k0_pay1
  simp only [matmul]
  rw [Ideal.matmul_constant_zero_apply, ← Equiv.sum_comp (ValueIdx.contrEquiv1 dot_S1000x768_S768x10_S1000x10_1_0_0_1_n_n 768 rfl rfl).symm]
  refine Finset.sum_congr rfl fun k _ => ?_
  have hk := ValueIdx.contrEquiv1_symm_val dot_S1000x768_S768x10_S1000x10_1_0_0_1_n_n 768 rfl rfl k
  have el : dot_S1000x768_S768x10_S1000x10_1_0_0_1_n_n.lhsIdx (ix2 p q) ((ValueIdx.contrEquiv1 dot_S1000x768_S768x10_S1000x10_1_0_0_1_n_n 768 rfl rfl).symm k) = ix2 p k := funext fun a => Fin.ext (by
    match a with
    | ⟨0, _⟩ => exact lhs_k0_0 _ _
    | ⟨1, _⟩ => exact (lhs_k0_1 _ _).trans hk)
  have er : dot_S1000x768_S768x10_S1000x10_1_0_0_1_n_n.rhsIdx (ix2 p q) ((ValueIdx.contrEquiv1 dot_S1000x768_S768x10_S1000x10_1_0_0_1_n_n 768 rfl rfl).symm k) = ix2 k q := funext fun a => Fin.ext (by
    match a with
    | ⟨0, _⟩ => exact (rhs_k0_0 _ _).trans hk
    | ⟨1, _⟩ => exact rhs_k0_1 _ _)
  rw [el, er]
  rfl

/-! ## The blocks as rows of the arrays -/

theorem zero_off0 : (![0, 0] : Fin 2 → Nat) = fun _ => 0 := funext fun a => by fin_cases a <;> rfl

/-- The windows' block indices over the grid: the feature and result blocks move down one block of rows per
    point, the weight's block stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, q) of a block's payload is entry (r, q) of the whole product, when the left block is rows
    r - p .. of the left matrix and the right block is the right matrix. -/
theorem pay0_eq_mm (x0 : Vec Ideal S1000x768 .f32) (x1 : Vec Ideal S768x10 .f32)
    (X : S15000x768.Idx → EReal) (W : S768x10.Idx → EReal) (p : Fin 1000) (q : Fin 10) (r : Fin 15000)
    (h0 : ∀ k : Fin 768, x0 (ix2 p k) = X (ix2 r k)) (h1 : ∀ k : Fin 768, x1 (ix2 k q) = W (ix2 k q)) :
    (k0_pay1 (F := Ideal) x0 x1 : S1000x10.Idx → EReal) (ix2 p q) = Cert.Spec.mm (A := 15000) (K := 768) (B := 10) X W (ix2 r q) := by
  rw [pay0_apply]
  unfold Cert.Spec.mm
  exact Finset.sum_congr rfl fun k _ => by rw [h0 k, h1 k]

variable (V : (c : Dev nD) → (b : Ref sig .tc) → Buf (Elt Ideal) ((c : Thread nD τ).loc b))

/-- The feature block at point t is rows 1000 t .. 1000 t + 999 of the features. -/
theorem iblk0_0_apply (c : Dev nD) (t : Fin cfg0.N) (p : Fin 1000) (k : Fin 768) (r : Fin 15000) (hr : r.val = 1000 * t.val + p.val) :
    (iblk0 V c 0 t : S1000x768.Idx → EReal) (ix2 p k) = (V c main_arg0 : S15000x768.Idx → EReal) (ix2 r k) := by
  obtain ⟨e0, e1, -⟩ := idx_facts0 t
  unfold iblk0
  rw [View.read_apply]
  show (V c main_arg0 : S15000x768.Idx → EReal) _ = _
  congr 1
  funext a
  apply Fin.ext
  match a with
  | ⟨0, _⟩ => show win0_0.index t (0 : Fin 2) * 1000 + 1 * p.val = r.val; rw [e0, hr]; omega
  | ⟨1, _⟩ => show win0_0.index t (1 : Fin 2) * 768 + 1 * k.val = k.val; rw [e1]; omega

/-- The weight block at every point is the whole weight. -/
theorem iblk0_1_apply (c : Dev nD) (t : Fin cfg0.N) (k : Fin 768) (q : Fin 10) :
    (iblk0 V c 1 t : S768x10.Idx → EReal) (ix2 k q) = (V c main_arg2 : S768x10.Idx → EReal) (ix2 k q) := by
  obtain ⟨-, -, e0, e1, -⟩ := idx_facts0 t
  unfold iblk0
  rw [View.read_apply]
  show (V c main_arg2 : S768x10.Idx → EReal) _ = _
  congr 1
  funext a
  apply Fin.ext
  match a with
  | ⟨0, _⟩ => show win0_1.index t (0 : Fin 2) * 768 + 1 * k.val = k.val; rw [e0]; omega
  | ⟨1, _⟩ => show win0_1.index t (1 : Fin 2) * 10 + 1 * q.val = q.val; rw [e1]; omega

/-- Where an element of the result block at point t sits in the result array. -/
theorem emb0_2 (t : Fin cfg0.N) (p : Fin 1000) (q : Fin 10) (r : Fin 15000) (hr : r.val = 1000 * t.val + p.val) :
    (((cfg0.win 2).blk t).view.emb (ix2 p q) : S15000x10.Idx) = ix2 r q := by
  obtain ⟨-, -, -, -, e0, e1⟩ := idx_facts0 t
  funext a
  apply Fin.ext
  match a with
  | ⟨0, _⟩ => show win0_2.index t (0 : Fin 2) * 1000 + 1 * p.val = r.val; rw [e0, hr]; omega
  | ⟨1, _⟩ => show win0_2.index t (1 : Fin 2) * 10 + 1 * q.val = q.val; rw [e1]; omega

/-! ## What a point writes back, and the array after the launch -/

/-- What point t writes back is block t of the product of the two arrays as the region finds them. -/
theorem flushed0_eq (c : Dev nD) (t : Fin cfg0.N) :
    (dat0 (F := Ideal) V c).flushed 2 t
      = ((cfg0.win 2).blk t).view.read (Elt Ideal) (Cert.Spec.mm (A := 15000) (K := 768) (B := 10) (V c main_arg0) (V c main_arg2)) := by
  show (cfg0.win 2).cut (grid0.coords t) ((dat0 (F := Ideal) V c).after 2 t) = _
  rw [after0_2]
  unfold out0_2
  rw [View.canon_unit_zero zero_off0]
  simp only [View.ld_unit_zero (S := S1000x768) zero_off0, View.ld_unit_zero (S := S768x10) zero_off0]
  funext j
  obtain ⟨p, q, rfl⟩ : ∃ (p : Fin 1000) (q : Fin 10), j = ix2 p q := ⟨j 0, j 1, eq_ix2 j⟩
  have ht : t.val < 15 := t.isLt
  have hp : p.val < 1000 := p.isLt
  rw [View.read_apply, emb0_2 t p q ⟨1000 * t.val + p.val, by omega⟩ rfl]
  exact pay0_eq_mm _ _ _ _ p q ⟨1000 * t.val + p.val, by omega⟩
    (fun k => iblk0_0_apply V c t p k _ rfl) (fun k => iblk0_1_apply V c t k q)

/-- An index of the result array is in point t's block iff each coordinate is in the block's range on its axis. -/
theorem mem_blk0 (t : Fin cfg0.N) (i : S15000x10.Idx) :
    i ∈ ((cfg0.win 2).blk t).view.set ↔ ∀ a : Fin 2, win0_2.index t a * S1000x10.size a ≤ (i a).val ∧ (i a).val < win0_2.index t a * S1000x10.size a + S1000x10.size a := by
  show i ∈ ((View.whole main_v30).slice (win0_2.rect t)).set ↔ _
  rw [View.set_slice_whole, Rect.mem_set_unit]
  exact Iff.rfl

/-- Every row of the result is in the block of the point its thousand names. -/
theorem cover0 (i : S15000x10.Idx) : ∃ t : Fin cfg0.N, (cfg0.win 2).flush t = true ∧ i ∈ ((cfg0.win 2).blk t).view.set := by
  have hi0 : (i 0).val < 15000 := (i 0).isLt
  have hi1 : (i 1).val < 10 := (i 1).isLt
  refine ⟨⟨(i 0).val / 1000, by show (i 0).val / 1000 < 15; omega⟩, flush0_2 _, ?_⟩
  rw [mem_blk0]
  obtain ⟨-, -, -, -, e0, e1⟩ := idx_facts0 ⟨(i 0).val / 1000, by show (i 0).val / 1000 < 15; omega⟩
  intro a
  match a with
  | ⟨0, _⟩ => show win0_2.index _ (0 : Fin 2) * 1000 ≤ (i 0).val ∧ (i 0).val < win0_2.index _ (0 : Fin 2) * 1000 + 1000; rw [e0]; show (i 0).val / 1000 * 1000 ≤ (i 0).val ∧ (i 0).val < (i 0).val / 1000 * 1000 + 1000; omega
  | ⟨1, _⟩ => show win0_2.index _ (1 : Fin 2) * 10 ≤ (i 1).val ∧ (i 1).val < win0_2.index _ (1 : Fin 2) * 10 + 10; rw [e1]; omega

/-- The result array after the launch is the product. -/
theorem arr0 (c : Dev nD) :
    (dat0 (F := Ideal) V c).arrAt 2 cfg0.N = Cert.Spec.mm (A := 15000) (K := 768) (B := 10) (V c main_arg0) (V c main_arg2) :=
  (dat0 (F := Ideal) V c).arrAt_eq_of_cover 2 _ (fun t _ => flushed0_eq V c t) cover0

end Cert.KernelIdeal.Hand

end
-- ==== Proof.KIVal1.lean ====
/-
  Region 1, the value: the fifteen row blocks the launch writes back are the row blocks of ONE matrix, the product
  of the hidden features (15000 x 10) and the second weight (10 x 128). Entry (p, q) of a block's product is the
  sum over k of the feature block at (p, k) times the weight at (k, q); the cast of the feature block to its own
  shape and the narrowing of both operands to bf16 are the identity over the extended reals, and the accumulator
  starts at zero. Block t holds rows 1000 t .. 1000 t + 999, and the fifteen blocks tile the 15000 rows, so the
  array ends at the product.
-/
import proofs.«132953_j50156628082716_1_alg».proof.Proof.KIReg1
import proofs.«132953_j50156628082716_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The product payload at an index -/

/-- The left operand's index at output (i, q): row from the output's row. -/
theorem lhs_k1_0 (i : S1000x128.Idx) (q : dot_S1000x10_S10x128_S1000x128_1_0_0_1_n_n.contr.Idx) :
    (dot_S1000x10_S10x128_S1000x128_1_0_0_1_n_n.lhsIdx i q 0).val = (i 0).val := by
  unfold DotDims.lhsIdx
  rw [dif_neg (show ¬(0 : Fin S1000x10.rank) ∈ dot_S1000x10_S10x128_S1000x128_1_0_0_1_n_n.lhsBatch by decide), dif_pos (show (0 : Fin S1000x10.rank) ∈ dot_S1000x10_S10x128_S1000x128_1_0_0_1_n_n.lhsNonContracting by decide)]
  rfl
/-- Its column is the contraction index. -/
theorem lhs_k1_1 (i : S1000x128.Idx) (q : dot_S1000x10_S10x128_S1000x128_1_0_0_1_n_n.contr.Idx) :
    (dot_S1000x10_S10x128_S1000x128_1_0_0_1_n_n.lhsIdx i q 1).val = (q ⟨0, by decide⟩).val :=
  dot_S1000x10_S10x128_S1000x128_1_0_0_1_n_n.lhsIdx_val_of_single rfl i q
/-- The right operand's row is the contraction index. -/
theorem rhs_k1_0 (i : S1000x128.Idx) (q : dot_S1000x10_S10x128_S1000x128_1_0_0_1_n_n.contr.Idx) :
    (dot_S1000x10_S10x128_S1000x128_1_0_0_1_n_n.rhsIdx i q 0).val = (q ⟨0, by decide⟩).val :=
  dot_S1000x10_S10x128_S1000x128_1_0_0_1_n_n.rhsIdx_val_of_single rfl i q
/-- Its column is the output's column. -/
theorem rhs_k1_1 (i : S1000x128.Idx) (q : dot_S1000x10_S10x128_S1000x128_1_0_0_1_n_n.contr.Idx) :
    (dot_S1000x10_S10x128_S1000x128_1_0_0_1_n_n.rhsIdx i q 1).val = (i 1).val := by
  unfold DotDims.rhsIdx
  rw [dif_neg (show ¬(1 : Fin S10x128.rank) ∈ dot_S1000x10_S10x128_S1000x128_1_0_0_1_n_n.rhsBatch by decide), dif_pos (show (1 : Fin S10x128.rank) ∈ dot_S1000x10_S10x128_S1000x128_1_0_0_1_n_n.rhsNonContracting by decide)]
  rfl

/-- Entry (p, q) of the payload: the sum over k of the left block at (p, k) times the right block at (k, q). -/
theorem pay1_apply (x0 : Vec Ideal S1000x10 .f32) (x1 : Vec Ideal S10x128 .f32) (p : Fin 1000) (q : Fin 128) :
    (k1_pay1 (F := Ideal) x0 x1 : S1000x128.Idx → EReal) (ix2 p q) = ∑ k : Fin 10, x0 (ix2 p k) * x1 (ix2 k q) := by
  unfold k1_pay1
  simp only [matmul, shapeCast_self]
  rw [Ideal.matmul_constant_zero_apply, ← Equiv.sum_comp (ValueIdx.contrEquiv1 dot_S1000x10_S10x128_S1000x128_1_0_0_1_n_n 10 rfl rfl).symm]
  refine Finset.sum_congr rfl fun k _ => ?_
  have hk := ValueIdx.contrEquiv1_symm_val dot_S1000x10_S10x128_S1000x128_1_0_0_1_n_n 10 rfl rfl k
  have el : dot_S1000x10_S10x128_S1000x128_1_0_0_1_n_n.lhsIdx (ix2 p q) ((ValueIdx.contrEquiv1 dot_S1000x10_S10x128_S1000x128_1_0_0_1_n_n 10 rfl rfl).symm k) = ix2 p k := funext fun a => Fin.ext (by
    match a with
    | ⟨0, _⟩ => exact lhs_k1_0 _ _
    | ⟨1, _⟩ => exact (lhs_k1_1 _ _).trans hk)
  have er : dot_S1000x10_S10x128_S1000x128_1_0_0_1_n_n.rhsIdx (ix2 p q) ((ValueIdx.contrEquiv1 dot_S1000x10_S10x128_S1000x128_1_0_0_1_n_n 10 rfl rfl).symm k) = ix2 k q := funext fun a => Fin.ext (by
    match a with
    | ⟨0, _⟩ => exact (rhs_k1_0 _ _).trans hk
    | ⟨1, _⟩ => exact rhs_k1_1 _ _)
  rw [el, er]
  rfl

/-! ## The blocks as rows of the arrays -/

theorem zero_off1 : (![0, 0] : Fin 2 → Nat) = fun _ => 0 := funext fun a => by fin_cases a <;> rfl

/-- The windows' block indices over the grid: the feature and result blocks move down one block of rows per
    point, the weight's block stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, q) of a block's payload is entry (r, q) of the whole product, when the left block is rows
    r - p .. of the left matrix and the right block is the right matrix. -/
theorem pay1_eq_mm (x0 : Vec Ideal S1000x10 .f32) (x1 : Vec Ideal S10x128 .f32)
    (X : S15000x10.Idx → EReal) (W : S10x128.Idx → EReal) (p : Fin 1000) (q : Fin 128) (r : Fin 15000)
    (h0 : ∀ k : Fin 10, x0 (ix2 p k) = X (ix2 r k)) (h1 : ∀ k : Fin 10, x1 (ix2 k q) = W (ix2 k q)) :
    (k1_pay1 (F := Ideal) x0 x1 : S1000x128.Idx → EReal) (ix2 p q) = Cert.Spec.mm (A := 15000) (K := 10) (B := 128) X W (ix2 r q) := by
  rw [pay1_apply]
  unfold Cert.Spec.mm
  exact Finset.sum_congr rfl fun k _ => by rw [h0 k, h1 k]

variable (V : (c : Dev nD) → (b : Ref sig .tc) → Buf (Elt Ideal) ((c : Thread nD τ).loc b))

/-- The feature block at point t is rows 1000 t .. 1000 t + 999 of the features. -/
theorem iblk1_0_apply (c : Dev nD) (t : Fin cfg1.N) (p : Fin 1000) (k : Fin 10) (r : Fin 15000) (hr : r.val = 1000 * t.val + p.val) :
    (iblk1 V c 0 t : S1000x10.Idx → EReal) (ix2 p k) = (V c main_v47 : S15000x10.Idx → EReal) (ix2 r k) := by
  obtain ⟨e0, e1, -⟩ := idx_facts1 t
  unfold iblk1
  rw [View.read_apply]
  show (V c main_v47 : S15000x10.Idx → EReal) _ = _
  congr 1
  funext a
  apply Fin.ext
  match a with
  | ⟨0, _⟩ => show win1_0.index t (0 : Fin 2) * 1000 + 1 * p.val = r.val; rw [e0, hr]; omega
  | ⟨1, _⟩ => show win1_0.index t (1 : Fin 2) * 10 + 1 * k.val = k.val; rw [e1]; omega

/-- The weight block at every point is the whole weight. -/
theorem iblk1_1_apply (c : Dev nD) (t : Fin cfg1.N) (k : Fin 10) (q : Fin 128) :
    (iblk1 V c 1 t : S10x128.Idx → EReal) (ix2 k q) = (V c main_arg4 : S10x128.Idx → EReal) (ix2 k q) := by
  obtain ⟨-, -, e0, e1, -⟩ := idx_facts1 t
  unfold iblk1
  rw [View.read_apply]
  show (V c main_arg4 : S10x128.Idx → EReal) _ = _
  congr 1
  funext a
  apply Fin.ext
  match a with
  | ⟨0, _⟩ => show win1_1.index t (0 : Fin 2) * 10 + 1 * k.val = k.val; rw [e0]; omega
  | ⟨1, _⟩ => show win1_1.index t (1 : Fin 2) * 128 + 1 * q.val = q.val; rw [e1]; omega

/-- Where an element of the result block at point t sits in the result array. -/
theorem emb1_2 (t : Fin cfg1.N) (p : Fin 1000) (q : Fin 128) (r : Fin 15000) (hr : r.val = 1000 * t.val + p.val) :
    (((cfg1.win 2).blk t).view.emb (ix2 p q) : S15000x128.Idx) = ix2 r q := by
  obtain ⟨-, -, -, -, e0, e1⟩ := idx_facts1 t
  funext a
  apply Fin.ext
  match a with
  | ⟨0, _⟩ => show win1_2.index t (0 : Fin 2) * 1000 + 1 * p.val = r.val; rw [e0, hr]; omega
  | ⟨1, _⟩ => show win1_2.index t (1 : Fin 2) * 128 + 1 * q.val = q.val; rw [e1]; omega

/-! ## What a point writes back, and the array after the launch -/

/-- What point t writes back is block t of the product of the two arrays as the region finds them. -/
theorem flushed1_eq (c : Dev nD) (t : Fin cfg1.N) :
    (dat1 (F := Ideal) V c).flushed 2 t
      = ((cfg1.win 2).blk t).view.read (Elt Ideal) (Cert.Spec.mm (A := 15000) (K := 10) (B := 128) (V c main_v47) (V c main_arg4)) := by
  show (cfg1.win 2).cut (grid1.coords t) ((dat1 (F := Ideal) V c).after 2 t) = _
  rw [after1_2]
  unfold out1_2
  rw [View.canon_unit_zero zero_off1]
  simp only [View.ld_unit_zero (S := S1000x10) zero_off1, View.ld_unit_zero (S := S10x128) zero_off1]
  funext j
  obtain ⟨p, q, rfl⟩ : ∃ (p : Fin 1000) (q : Fin 128), j = ix2 p q := ⟨j 0, j 1, eq_ix2 j⟩
  have ht : t.val < 15 := t.isLt
  have hp : p.val < 1000 := p.isLt
  rw [View.read_apply, emb1_2 t p q ⟨1000 * t.val + p.val, by omega⟩ rfl]
  exact pay1_eq_mm _ _ _ _ p q ⟨1000 * t.val + p.val, by omega⟩
    (fun k => iblk1_0_apply V c t p k _ rfl) (fun k => iblk1_1_apply V c t k q)

/-- An index of the result array is in point t's block iff each coordinate is in the block's range on its axis. -/
theorem mem_blk1 (t : Fin cfg1.N) (i : S15000x128.Idx) :
    i ∈ ((cfg1.win 2).blk t).view.set ↔ ∀ a : Fin 2, win1_2.index t a * S1000x128.size a ≤ (i a).val ∧ (i a).val < win1_2.index t a * S1000x128.size a + S1000x128.size a := by
  show i ∈ ((View.whole main_v48).slice (win1_2.rect t)).set ↔ _
  rw [View.set_slice_whole, Rect.mem_set_unit]
  exact Iff.rfl

/-- Every row of the result is in the block of the point its thousand names. -/
theorem cover1 (i : S15000x128.Idx) : ∃ t : Fin cfg1.N, (cfg1.win 2).flush t = true ∧ i ∈ ((cfg1.win 2).blk t).view.set := by
  have hi0 : (i 0).val < 15000 := (i 0).isLt
  have hi1 : (i 1).val < 128 := (i 1).isLt
  refine ⟨⟨(i 0).val / 1000, by show (i 0).val / 1000 < 15; omega⟩, flush1_2 _, ?_⟩
  rw [mem_blk1]
  obtain ⟨-, -, -, -, e0, e1⟩ := idx_facts1 ⟨(i 0).val / 1000, by show (i 0).val / 1000 < 15; omega⟩
  intro a
  match a with
  | ⟨0, _⟩ => show win1_2.index _ (0 : Fin 2) * 1000 ≤ (i 0).val ∧ (i 0).val < win1_2.index _ (0 : Fin 2) * 1000 + 1000; rw [e0]; show (i 0).val / 1000 * 1000 ≤ (i 0).val ∧ (i 0).val < (i 0).val / 1000 * 1000 + 1000; omega
  | ⟨1, _⟩ => show win1_2.index _ (1 : Fin 2) * 128 ≤ (i 1).val ∧ (i 1).val < win1_2.index _ (1 : Fin 2) * 128 + 128; rw [e1]; omega

/-- The result array after the launch is the product. -/
theorem arr1 (c : Dev nD) :
    (dat1 (F := Ideal) V c).arrAt 2 cfg1.N = Cert.Spec.mm (A := 15000) (K := 10) (B := 128) (V c main_v47) (V c main_arg4) :=
  (dat1 (F := Ideal) V c).arrAt_eq_of_cover 2 _ (fun t _ => flushed1_eq V c t) cover1

end Cert.KernelIdeal.Hand

end
-- ==== Proof.KIVal2.lean ====
/-
  The value of the scoring launch over the extended reals. One row of the body's payload is the score of that row:
  three matrix products into zero accumulators summed with the bias row, the input, candidate and output gate columns
  (offsets 0, 256, 384) through sigmoid and tanh, the lane sum, sigmoid. A row of a block inside the array does not
  see what the staging buffers hold past the array's end, and the 49 cut blocks of 2048 rows cover the 100000 rows.
-/
import proofs.«132953_j50156628082716_1_alg».proof.Proof.KIReg2
import proofs.«132953_j50156628082716_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)

namespace Val2

/-! ## The three products read at an entry -/

theorem lhsA_0 (i : S2048x512.Idx) (q : dot_S2048x128_S128x512_S2048x512_1_0_0_1_n_n.contr.Idx) :
    (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem lhsA_1 (i : S2048x512.Idx) (q : dot_S2048x128_S128x512_S2048x512_1_0_0_1_n_n.contr.Idx) :
    (dot_S2048x128_S128x512_S2048x512_1_0_0_1_n_n.lhsIdx i q 1).val = (q ⟨0, by decide⟩).val :=
  dot_S2048x128_S128x512_S2048x512_1_0_0_1_n_n.lhsIdx_val_of_single rfl i q
theorem rhsA_0 (i : S2048x512.Idx) (q : dot_S2048x128_S128x512_S2048x512_1_0_0_1_n_n.contr.Idx) :
    (dot_S2048x128_S128x512_S2048x512_1_0_0_1_n_n.rhsIdx i q 0).val = (q ⟨0, by decide⟩).val :=
  dot_S2048x128_S128x512_S2048x512_1_0_0_1_n_n.rhsIdx_val_of_single rfl i q
theorem rhsA_1 (i : S2048x512.Idx) (q : dot_S2048x128_S128x512_S2048x512_1_0_0_1_n_n.contr.Idx) :
    (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- The 128-deep product into the zero splat, at entry (p, j). -/
theorem mmA_apply (a : FVec Ideal S2048x128 .bf16) (b : FVec Ideal S128x512 .bf16) (p : Fin 2048) (j : Fin 512) :
    matmul dot_S2048x128_S128x512_S2048x512_1_0_0_1_n_n none a b (constant S2048x512 .f32 0x00000000#32) (ix2 p j)
      = ∑ k : Fin 128, a (ix2 p k) * b (ix2 k j) := by
  refine (Ideal.matmul_constant_zero_apply dot_S2048x128_S128x512_S2048x512_1_0_0_1_n_n none a b (ix2 p j)).trans ?_
  rw [← Equiv.sum_comp (ValueIdx.contrEquiv1 dot_S2048x128_S128x512_S2048x512_1_0_0_1_n_n 128 rfl rfl).symm]
  refine Finset.sum_congr rfl fun k _ => ?_
  have hk := ValueIdx.contrEquiv1_symm_val dot_S2048x128_S128x512_S2048x512_1_0_0_1_n_n 128 rfl rfl k
  have el : dot_S2048x128_S128x512_S2048x512_1_0_0_1_n_n.lhsIdx (ix2 p j) ((ValueIdx.contrEquiv1 dot_S2048x128_S128x512_S2048x512_1_0_0_1_n_n 128 rfl rfl).symm k) = ix2 p k := funext fun c => Fin.ext (by
    match c with
    | ⟨0, _⟩ => exact lhsA_0 _ _
    | ⟨1, _⟩ => exact (lhsA_1 _ _).trans hk)
  have er : dot_S2048x128_S128x512_S2048x512_1_0_0_1_n_n.rhsIdx (ix2 p j) ((ValueIdx.contrEquiv1 dot_S2048x128_S128x512_S2048x512_1_0_0_1_n_n 128 rfl rfl).symm k) = ix2 k j := funext fun c => Fin.ext (by
    match c with
    | ⟨0, _⟩ => exact (rhsA_0 _ _).trans hk
    | ⟨1, _⟩ => exact rhsA_1 _ _)
  rw [el, er]

theorem lhsB_0 (i : S2048x512.Idx) (q : dot_S2048x768_S768x512_S2048x512_1_0_0_1_n_n.contr.Idx) :
    (dot_S2048x768_S768x512_S2048x512_1_0_0_1_n_n.lhsIdx i q 0).val = (i 0).val := by
  unfold DotDims.lhsIdx
  rw [dif_neg (show ¬(0 : Fin S2048x768.rank) ∈ dot_S2048x768_S768x512_S2048x512_1_0_0_1_n_n.lhsBatch by decide), dif_pos (show (0 : Fin S2048x768.rank) ∈ dot_S2048x768_S768x512_S2048x512_1_0_0_1_n_n.lhsNonContracting by decide)]
  rfl
theorem lhsB_1 (i : S2048x512.Idx) (q : dot_S2048x768_S768x512_S2048x512_1_0_0_1_n_n.contr.Idx) :
    (dot_S2048x768_S768x512_S2048x512_1_0_0_1_n_n.lhsIdx i q 1).val = (q ⟨0, by decide⟩).val :=
  dot_S2048x768_S768x512_S2048x512_1_0_0_1_n_n.lhsIdx_val_of_single rfl i q
theorem rhsB_0 (i : S2048x512.Idx) (q : dot_S2048x768_S768x512_S2048x512_1_0_0_1_n_n.contr.Idx) :
    (dot_S2048x768_S768x512_S2048x512_1_0_0_1_n_n.rhsIdx i q 0).val = (q ⟨0, by decide⟩).val :=
  dot_S2048x768_S768x512_S2048x512_1_0_0_1_n_n.rhsIdx_val_of_single rfl i q
theorem rhsB_1 (i : S2048x512.Idx) (q : dot_S2048x768_S768x512_S2048x512_1_0_0_1_n_n.contr.Idx) :
    (dot_S2048x768_S768x512_S2048x512_1_0_0_1_n_n.rhsIdx i q 1).val = (i 1).val := by
  unfold DotDims.rhsIdx
  rw [dif_neg (show ¬(1 : Fin S768x512.rank) ∈ dot_S2048x768_S768x512_S2048x512_1_0_0_1_n_n.rhsBatch by decide), dif_pos (show (1 : Fin S768x512.rank) ∈ dot_S2048x768_S768x512_S2048x512_1_0_0_1_n_n.rhsNonContracting by decide)]
  rfl

/-- The 768-deep product into the zero splat, at entry (p, j). -/
theorem mmB_apply (a : FVec Ideal S2048x768 .bf16) (b : FVec Ideal S768x512 .bf16) (p : Fin 2048) (j : Fin 512) :
    matmul dot_S2048x768_S768x512_S2048x512_1_0_0_1_n_n none a b (constant S2048x512 .f32 0x00000000#32) (ix2 p j)
      = ∑ k : Fin 768, a (ix2 p k) * b (ix2 k j) := by
  refine (Ideal.matmul_constant_zero_apply dot_S2048x768_S768x512_S2048x512_1_0_0_1_n_n none a b (ix2 p j)).trans ?_
  rw [← Equiv.sum_comp (ValueIdx.contrEquiv1 dot_S2048x768_S768x512_S2048x512_1_0_0_1_n_n 768 rfl rfl).symm]
  refine Finset.sum_congr rfl fun k _ => ?_
  have hk := ValueIdx.contrEquiv1_symm_val dot_S2048x768_S768x512_S2048x512_1_0_0_1_n_n 768 rfl rfl k
  have el : dot_S2048x768_S768x512_S2048x512_1_0_0_1_n_n.lhsIdx (ix2 p j) ((ValueIdx.contrEquiv1 dot_S2048x768_S768x512_S2048x512_1_0_0_1_n_n 768 rfl rfl).symm k) = ix2 p k := funext fun c => Fin.ext (by
    match c with
    | ⟨0, _⟩ => exact lhsB_0 _ _
    | ⟨1, _⟩ => exact (lhsB_1 _ _).trans hk)
  have er : dot_S2048x768_S768x512_S2048x512_1_0_0_1_n_n.rhsIdx (ix2 p j) ((ValueIdx.contrEquiv1 dot_S2048x768_S768x512_S2048x512_1_0_0_1_n_n 768 rfl rfl).symm k) = ix2 k j := funext fun c => Fin.ext (by
    match c with
    | ⟨0, _⟩ => exact (rhsB_0 _ _).trans hk
    | ⟨1, _⟩ => exact rhsB_1 _ _)
  rw [el, er]

/-! ## The bias row, the gate slices, the lane sum -/

/-- The bias row broadcast down the 2048 rows reads its column. -/
theorem bias_apply (b : FVec Ideal S1x512 .f32) (p : Fin 2048) (j : Fin 512) :
    broadcastTo S2048x512 b broadcasts_S1x512_S2048x512 (ix2 p j) = b (ix2 (0 : Fin 1) j) :=
  broadcastTo_apply b broadcasts_S1x512_S2048x512 (ix2 p j) (ix2 (0 : Fin 1) j) (fun a => by
    match a with
    | ⟨0, _⟩ => rfl
    | ⟨1, _⟩ => rfl)

/-- The pre-activations: the three products summed, plus the bias row. -/
theorem pre_apply (a0 : FVec Ideal S2048x128 .bf16) (a1 : FVec Ideal S2048x768 .bf16) (a2 : FVec Ideal S2048x128 .bf16)
    (b3 : FVec Ideal S128x512 .bf16) (b4 : FVec Ideal S768x512 .bf16) (b5 : FVec Ideal S128x512 .bf16)
    (c6 : FVec Ideal S1x512 .f32) (p : Fin 2048) (j : Fin 512) :
    addf (addf (addf (matmul dot_S2048x128_S128x512_S2048x512_1_0_0_1_n_n none a0 b3 (constant S2048x512 .f32 0x00000000#32))
          (matmul dot_S2048x768_S768x512_S2048x512_1_0_0_1_n_n none a1 b4 (constant S2048x512 .f32 0x00000000#32)))
        (matmul dot_S2048x128_S128x512_S2048x512_1_0_0_1_n_n none a2 b5 (constant S2048x512 .f32 0x00000000#32)))
      (broadcastTo S2048x512 c6 broadcasts_S1x512_S2048x512) (ix2 p j)
      = (∑ k : Fin 128, a0 (ix2 p k) * b3 (ix2 k j)) + (∑ k : Fin 768, a1 (ix2 p k) * b4 (ix2 k j))
        + (∑ k : Fin 128, a2 (ix2 p k) * b5 (ix2 k j)) + c6 (ix2 (0 : Fin 1) j) := by
  rw [addf_apply, addf_apply, addf_apply, mmA_apply, mmB_apply, mmA_apply, bias_apply]

/-- Columns 0..127, 256..383, 384..511 of the pre-activations through the gate nonlinearities: one output unit. -/
theorem unit_apply (G : FVec Ideal S2048x512 .f32) (p : Fin 2048) (q : Fin 128) :
    mulf (logistic (extractStridedSlice S2048x128 ![0, 384] G slices_S2048x512_o0_384_S2048x128))
        (tanh (mulf (logistic (extractStridedSlice S2048x128 ![0, 0] G slices_S2048x512_o0_0_S2048x128))
          (tanh (extractStridedSlice S2048x128 ![0, 256] G slices_S2048x512_o0_256_S2048x128)))) (ix2 p q)
      = Cert.Spec.unit (fun j => G (ix2 p j)) q := by
  have e0 : extractStridedSlice S2048x128 ![0, 0] G slices_S2048x512_o0_0_S2048x128 (ix2 p q) = G (ix2 p (Cert.Spec.col 0 q)) :=
    extractStridedSlice_apply _ G _ (ix2 p q) (ix2 p (Cert.Spec.col 0 q)) (fun a => by
      match a with
      | ⟨0, _⟩ => exact (Nat.zero_add _).symm
      | ⟨1, _⟩ => show (0 : Fin 4).val * 128 + q.val = 0 + q.val; simp)
  have e2 : extractStridedSlice S2048x128 ![0, 256] G slices_S2048x512_o0_256_S2048x128 (ix2 p q) = G (ix2 p (Cert.Spec.col 2 q)) :=
    extractStridedSlice_apply _ G _ (ix2 p q) (ix2 p (Cert.Spec.col 2 q)) (fun a => by
      match a with
      | ⟨0, _⟩ => exact (Nat.zero_add _).symm
      | ⟨1, _⟩ => show (2 : Fin 4).val * 128 + q.val = 256 + q.val; rfl)
  have e3 : extractStridedSlice S2048x128 ![0, 384] G slices_S2048x512_o0_384_S2048x128 (ix2 p q) = G (ix2 p (Cert.Spec.col 3 q)) :=
    extractStridedSlice_apply _ G _ (ix2 p q) (ix2 p (Cert.Spec.col 3 q)) (fun a => by
      match a with
      | ⟨0, _⟩ => exact (Nat.zero_add _).symm
      | ⟨1, _⟩ => show (3 : Fin 4).val * 128 + q.val = 384 + q.val; rfl)
  show Ideal.logistic (extractStridedSlice S2048x128 ![0, 384] G slices_S2048x512_o0_384_S2048x128 (ix2 p q))
      * Ideal.tanh (Ideal.logistic (extractStridedSlice S2048x128 ![0, 0] G slices_S2048x512_o0_0_S2048x128 (ix2 p q))
        * Ideal.tanh (extractStridedSlice S2048x128 ![0, 256] G slices_S2048x512_o0_256_S2048x128 (ix2 p q))) = _
  rw [e0, e2, e3]
  rfl

/-- The lane sum of a row into the zero accumulator. -/
theorem lanes_apply (v : FVec Ideal S2048x128 .f32) (hacc : (0x00000000#32 : BitVec 32) = 0x00000000#32) (r : Fin 2048) :
    multiReduction .add [1] S2048 v 0x00000000#32 reduces_S2048x128_S2048 (.inl rfl) hacc (ix1 r) = ∑ q : Fin 128, v (ix2 r q) := by
  refine (Ideal.multiReduction_add_single v 0x00000000#32 reduces_S2048x128_S2048 (.inl rfl) hacc (ix1 r)).trans ?_
  refine Finset.sum_congr rfl fun q _ => ?_
  refine congrArg v (funext fun c => Fin.ext ?_)
  match c with
  | ⟨0, _⟩ => rfl
  | ⟨1, _⟩ => rfl

/-! ## One row of the scoring payload -/

end Val2

open Val2

/-- one row of the payload depends on that row of the three row-blocked inputs only -/
theorem pay2_row (x0 : Vec Ideal S2048x128 .f32) (x1 : Vec Ideal S2048x768 .f32) (x2 : Vec Ideal S2048x128 .f32)
    (x3 : Vec Ideal S128x512 .f32) (x4 : Vec Ideal S768x512 .f32) (x5 : Vec Ideal S128x512 .f32) (x6 : Vec Ideal S1x512 .f32) (r : Fin 2048) :
    k2_pay1 (F := Ideal) x0 x1 x2 x3 x4 x5 x6 (ix1 r)
      = Ideal.logistic (∑ q : Fin 128, Cert.Spec.unit (fun j => (∑ k : Fin 128, x0 (ix2 r k) * x3 (ix2 k j))
          + (∑ k : Fin 768, x1 (ix2 r k) * x4 (ix2 k j)) + (∑ k : Fin 128, x2 (ix2 r k) * x5 (ix2 k j)) + x6 (ix2 (0 : Fin 1) j)) q) := by
  unfold k2_pay1
  simp only [shapeCast_self]
  refine congrArg Ideal.logistic ?_
  refine (lanes_apply _ rfl r).trans ?_
  refine Finset.sum_congr rfl fun q _ => ?_
  refine (unit_apply _ r q).trans ?_
  refine congrArg (fun G => Cert.Spec.unit G q) (funext fun j => ?_)
  exact pre_apply _ _ _ _ _ _ _ r j

namespace Val2

/-! ## Rows inside the array do not see the filler -/

theorem hz1 : (![0] : Fin 1 → Nat) = fun _ => 0 := funext fun a => by fin_cases a; rfl
theorem hz2 : (![0, 0] : Fin 2 → Nat) = fun _ => 0 := funext fun a => by fin_cases a <;> rfl

/-- The body loads its seven blocks whole and stores the scores whole: the output buffer ends at the payload. -/
theorem out2_7_eq (x0 : Vec Ideal S2048x128 .f32) (x1 : Vec Ideal S2048x768 .f32) (x2 : Vec Ideal S2048x128 .f32)
    (x3 : Vec Ideal S128x512 .f32) (x4 : Vec Ideal S768x512 .f32) (x5 : Vec Ideal S128x512 .f32) (x6 : Vec Ideal S1x512 .f32) :
    out2_7 (F := Ideal) x0 x1 x2 x3 x4 x5 x6 = k2_pay1 (F := Ideal) x0 x1 x2 x3 x4 x5 x6 := by
  unfold out2_7
  rw [View.canon_unit_zero hz1]
  simp only [View.ld_unit_zero (S := S2048x128) hz2, View.ld_unit_zero (S := S2048x768) hz2, View.ld_unit_zero (S := S128x512) hz2,
    View.ld_unit_zero (S := S768x512) hz2, View.ld_unit_zero (S := S1x512) hz2]

/-- Two fills that differ in the filler agree on what the transfer moves. -/
theorem fill_congr_moved {G : Pipeline.Grid} (w : Window sig G) {α : Type} (i : G.Coords) (d d' : w.block.Idx → α)
    (g : (w.xblock i).Idx → α) (j : w.block.Idx) (h : w.moved i j = true) : w.fill i d g j = w.fill i d' g j := by
  unfold Pipeline.Window.fill
  rw [dif_pos h, dif_pos h]

/-- The cuts, decided over the grid: the three row-blocked inputs are cut on the rows exactly as the output is, and
    not on the columns. -/
theorem cut_facts2 : ∀ t : Fin cfg2.N,
    win2_0.xsize (grid2.coords t) (0 : Fin 2) = win2_7.xsize (grid2.coords t) (0 : Fin 1) ∧ win2_0.xsize (grid2.coords t) (1 : Fin 2) = 128
    ∧ win2_1.xsize (grid2.coords t) (0 : Fin 2) = win2_7.xsize (grid2.coords t) (0 : Fin 1) ∧ win2_1.xsize (grid2.coords t) (1 : Fin 2) = 768
    ∧ win2_2.xsize (grid2.coords t) (0 : Fin 2) = win2_7.xsize (grid2.coords t) (0 : Fin 1) ∧ win2_2.xsize (grid2.coords t) (1 : Fin 2) = 128 :=
  (by decide +kernel : ∀ t : Fin grid2.N, _)

/-- A row of the scores reads that row of the three row-blocked inputs only. -/
theorem out2_7_row_congr (x0 x0' : Vec Ideal S2048x128 .f32) (x1 x1' : Vec Ideal S2048x768 .f32) (x2 x2' : Vec Ideal S2048x128 .f32)
    (x3 : Vec Ideal S128x512 .f32) (x4 : Vec Ideal S768x512 .f32) (x5 : Vec Ideal S128x512 .f32) (x6 : Vec Ideal S1x512 .f32) (r : Fin 2048)
    (h0 : ∀ k : Fin 128, x0 (ix2 r k) = x0' (ix2 r k)) (h1 : ∀ k : Fin 768, x1 (ix2 r k) = x1' (ix2 r k))
    (h2 : ∀ k : Fin 128, x2 (ix2 r k) = x2' (ix2 r k)) :
    out2_7 (F := Ideal) x0 x1 x2 x3 x4 x5 x6 (ix1 r) = out2_7 (F := Ideal) x0' x1' x2' x3 x4 x5 x6 (ix1 r) := by
  rw [out2_7_eq, out2_7_eq, pay2_row, pay2_row]
  simp only [h0, h1, h2]

end Val2

/-- exactly the row hypothesis of the body obligation, over the extended reals -/
theorem hrow2 (V : (c : Dev nD) → (b : Ref sig .tc) → Buf (Elt Ideal) ((c : Thread nD τ).loc b)) (c : Dev nD) :
    ∀ (t : Fin cfg2.N) (d0 : S2048x128.Idx → Elt Ideal .f32) (d1 : S2048x768.Idx → Elt Ideal .f32) (d2 : S2048x128.Idx → Elt Ideal .f32),
      win2_7.cut (grid2.coords t) (out2_7 (win2_0.fill (grid2.coords t) d0 (iblk2 V c 0 t)) (win2_1.fill (grid2.coords t) d1 (iblk2 V c 1 t))
          (win2_2.fill (grid2.coords t) d2 (iblk2 V c 2 t)) (iblk2 V c 3 t) (iblk2 V c 4 t) (iblk2 V c 5 t) (iblk2 V c 6 t))
        = win2_7.cut (grid2.coords t) (out2_7 (fblk2_0 V c t) (fblk2_1 V c t) (fblk2_2 V c t) (iblk2 V c 3 t) (iblk2 V c 4 t) (iblk2 V c 5 t) (iblk2 V c 6 t)) := by
  intro t d0 d1 d2
  obtain ⟨e00, e01, e10, e11, e20, e21⟩ := cut_facts2 t
  funext j
  have hj : (j 0).val < win2_7.xsize (grid2.coords t) (0 : Fin 1) := (j 0).isLt
  have hr : (j 0).val < 2048 := Nat.lt_of_lt_of_le hj (win2_7.xsize_le (grid2.coords t) 0)
  obtain ⟨r, hrv⟩ : ∃ r : Fin 2048, r.val = (j 0).val := ⟨⟨(j 0).val, hr⟩, rfl⟩
  have hx : win2_7.xinj (grid2.coords t) j = ix1 r := funext fun a => Fin.ext (by
    match a with
    | ⟨0, _⟩ => exact hrv.symm)
  have hm0 : ∀ k : Fin 128, win2_0.moved (grid2.coords t) (ix2 r k) = true := fun k =>
    (win2_0.moved_iff (grid2.coords t) (ix2 r k)).mpr fun a => by
      match a with
      | ⟨0, _⟩ => exact lt_of_eq_of_lt hrv (lt_of_lt_of_eq hj e00.symm)
      | ⟨1, _⟩ => exact lt_of_lt_of_eq k.isLt e01.symm
  have hm1 : ∀ k : Fin 768, win2_1.moved (grid2.coords t) (ix2 r k) = true := fun k =>
    (win2_1.moved_iff (grid2.coords t) (ix2 r k)).mpr fun a => by
      match a with
      | ⟨0, _⟩ => exact lt_of_eq_of_lt hrv (lt_of_lt_of_eq hj e10.symm)
      | ⟨1, _⟩ => exact lt_of_lt_of_eq k.isLt e11.symm
  have hm2 : ∀ k : Fin 128, win2_2.moved (grid2.coords t) (ix2 r k) = true := fun k =>
    (win2_2.moved_iff (grid2.coords t) (ix2 r k)).mpr fun a => by
      match a with
      | ⟨0, _⟩ => exact lt_of_eq_of_lt hrv (lt_of_lt_of_eq hj e20.symm)
      | ⟨1, _⟩ => exact lt_of_lt_of_eq k.isLt e21.symm
  have key := out2_7_row_congr (win2_0.fill (grid2.coords t) d0 (iblk2 V c 0 t)) (fblk2_0 V c t)
    (win2_1.fill (grid2.coords t) d1 (iblk2 V c 1 t)) (fblk2_1 V c t) (win2_2.fill (grid2.coords t) d2 (iblk2 V c 2 t)) (fblk2_2 V c t)
    (iblk2 V c 3 t) (iblk2 V c 4 t) (iblk2 V c 5 t) (iblk2 V c 6 t) r
    (fun k => fill_congr_moved win2_0 (grid2.coords t) d0 _ (iblk2 V c 0 t) (ix2 r k) (hm0 k))
    (fun k => fill_congr_moved win2_1 (grid2.coords t) d1 _ (iblk2 V c 1 t) (ix2 r k) (hm1 k))
    (fun k => fill_congr_moved win2_2 (grid2.coords t) d2 _ (iblk2 V c 2 t) (ix2 r k) (hm2 k))
  show out2_7 _ _ _ _ _ _ _ (win2_7.xinj (grid2.coords t) j) = out2_7 _ _ _ _ _ _ _ (win2_7.xinj (grid2.coords t) j)
  rw [hx]
  exact key

namespace Val2

/-! ## From the 49 cut blocks to the array -/

/-- The printed index maps, decided over the grid: the output and the three row-blocked inputs take block `t` of
    rows at point `t` and block 0 of columns; the weights take their one block; the output's block ends at the
    next multiple of 2048 or at the array's end. -/
theorem idx_facts2 : ∀ t : Fin cfg2.N,
    win2_7.index t (0 : Fin 1) = t.val
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ t.val * 2048 + win2_7.xsize (grid2.coords t) (0 : Fin 1) = min ((t.val + 1) * 2048) 100000 :=
  (by decide +kernel : ∀ t : Fin grid2.N, _)

/-- An index of the score array is in point `t`'s block iff its row is among the block's rows inside the array. -/
theorem mem_blk2_7 (t : Fin cfg2.N) (i : S100000.Idx) :
    i ∈ ((cfg2.win 7).blk t).view.set ↔ ∀ a : Fin 1, win2_7.index t a * S2048.size a ≤ (i a).val
      ∧ (i a).val < win2_7.index t a * S2048.size a + win2_7.xsize (grid2.coords t) a := by
  show i ∈ ((View.whole main_v91).slice (win2_7.rect t)).set ↔ _
  rw [View.set_slice_whole, Rect.mem_set_unit]
  exact Iff.rfl

/-- Row `r` is in the block of point `r / 2048`. -/
theorem rows_covered (i : S100000.Idx) : ∃ t : Fin cfg2.N, (cfg2.win 7).flush t = true ∧ i ∈ ((cfg2.win 7).blk t).view.set := by
  have hi : (i 0).val < 100000 := (i 0).isLt
  obtain ⟨t, ht⟩ : ∃ t : Fin cfg2.N, t.val = (i 0).val / 2048 := ⟨⟨(i 0).val / 2048, by show _ < 49; omega⟩, rfl⟩
  obtain ⟨e7, -, -, -, -, -, -, -, -, -, -, -, -, -, -, ex⟩ := idx_facts2 t
  refine ⟨t, flush2_7 t, ?_⟩
  rw [mem_blk2_7]
  intro a
  match a with
  | ⟨0, _⟩ =>
    show win2_7.index t (0 : Fin 1) * 2048 ≤ (i 0).val ∧ (i 0).val < win2_7.index t (0 : Fin 1) * 2048 + win2_7.xsize (grid2.coords t) (0 : Fin 1)
    rw [e7]
    omega

/-- A fill read where the transfer moves is what was fetched. -/
theorem fill_of_moved {G : Pipeline.Grid} (w : Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Pipeline.Window.fill
  rw [dif_pos h]

/-! A row `p` of point `t`'s block inside the array is row `t * 2048 + p` of the array: the three row-blocked inputs
    there, and the weights whole. -/

theorem fblk2_0_row (V : (c : Dev nD) → (b : Ref sig .tc) → Buf (Elt Ideal) ((c : Thread nD τ).loc b)) (c : Dev nD) (t : Fin cfg2.N) (p : Fin 2048) (k : Fin 128) (m : Fin 100000)
    (hp : p.val < win2_7.xsize (grid2.coords t) (0 : Fin 1)) (hm : m.val = t.val * 2048 + p.val) :
    fblk2_0 V c t (ix2 p k) = V c main_v73 (ix2 m k) := by
  obtain ⟨e00, e01, -, -, -, -⟩ := cut_facts2 t
  obtain ⟨-, i00, i01, -, -, -, -, -, -, -, -, -, -, -, -, -⟩ := idx_facts2 t
  have hmv : win2_0.moved (grid2.coords t) (ix2 p k) = true :=
    (win2_0.moved_iff (grid2.coords t) (ix2 p k)).mpr fun a => by
      match a with
      | ⟨0, _⟩ => exact lt_of_lt_of_eq hp e00.symm
      | ⟨1, _⟩ => exact lt_of_lt_of_eq k.isLt e01.symm
  unfold fblk2_0
  refine (fill_of_moved win2_0 (grid2.coords t) _ (iblk2 V c 0 t) (ix2 p k) hmv).trans ?_
  show V c main_v73 (((cfg2.win 0).blk t).view.emb _) = V c main_v73 (ix2 m k)
  refine congrArg (V c main_v73) (funext fun a => Fin.ext ?_)
  match a with
  | ⟨0, _⟩ => show win2_0.index t (0 : Fin 2) * 2048 + 1 * p.val = m.val; rw [i00]; omega
  | ⟨1, _⟩ => show win2_0.index t (1 : Fin 2) * 128 + 1 * k.val = k.val; rw [i01]; omega

theorem fblk2_1_row (V : (c : Dev nD) → (b : Ref sig .tc) → Buf (Elt Ideal) ((c : Thread nD τ).loc b)) (c : Dev nD) (t : Fin cfg2.N) (p : Fin 2048) (k : Fin 768) (m : Fin 100000)
    (hp : p.val < win2_7.xsize (grid2.coords t) (0 : Fin 1)) (hm : m.val = t.val * 2048 + p.val) :
    fblk2_1 V c t (ix2 p k) = V c main_arg1 (ix2 m k) := by
  obtain ⟨-, -, e10, e11, -, -⟩ := cut_facts2 t
  obtain ⟨-, -, -, i10, i11, -, -, -, -, -, -, -, -, -, -, -⟩ := idx_facts2 t
  have hmv : win2_1.moved (grid2.coords t) (ix2 p k) = true :=
    (win2_1.moved_iff (grid2.coords t) (ix2 p k)).mpr fun a => by
      match a with
      | ⟨0, _⟩ => exact lt_of_lt_of_eq hp e10.symm
      | ⟨1, _⟩ => exact lt_of_lt_of_eq k.isLt e11.symm
  unfold fblk2_1
  refine (fill_of_moved win2_1 (grid2.coords t) _ (iblk2 V c 1 t) (ix2 p k) hmv).trans ?_
  show V c main_arg1 (((cfg2.win 1).blk t).view.emb _) = V c main_arg1 (ix2 m k)
  refine congrArg (V c main_arg1) (funext fun a => Fin.ext ?_)
  match a with
  | ⟨0, _⟩ => show win2_1.index t (0 : Fin 2) * 2048 + 1 * p.val = m.val; rw [i10]; omega
  | ⟨1, _⟩ => show win2_1.index t (1 : Fin 2) * 768 + 1 * k.val = k.val; rw [i11]; omega

theorem fblk2_2_row (V : (c : Dev nD) → (b : Ref sig .tc) → Buf (Elt Ideal) ((c : Thread nD τ).loc b)) (c : Dev nD) (t : Fin cfg2.N) (p : Fin 2048) (k : Fin 128) (m : Fin 100000)
    (hp : p.val < win2_7.xsize (grid2.coords t) (0 : Fin 1)) (hm : m.val = t.val * 2048 + p.val) :
    fblk2_2 V c t (ix2 p k) = V c main_v82 (ix2 m k) := by
  obtain ⟨-, -, -, -, e20, e21⟩ := cut_facts2 t
  obtain ⟨-, -, -, -, -, i20, i21, -, -, -, -, -, -, -, -, -⟩ := idx_facts2 t
  have hmv : win2_2.moved (grid2.coords t) (ix2 p k) = true :=
    (win2_2.moved_iff (grid2.coords t) (ix2 p k)).mpr fun a => by
      match a with
      | ⟨0, _⟩ => exact lt_of_lt_of_eq hp e20.symm
      | ⟨1, _⟩ => exact lt_of_lt_of_eq k.isLt e21.symm
  unfold fblk2_2
  refine (fill_of_moved win2_2 (grid2.coords t) _ (iblk2 V c 2 t) (ix2 p k) hmv).trans ?_
  show V c main_v82 (((cfg2.win 2).blk t).view.emb _) = V c main_v82 (ix2 m k)
  refine congrArg (V c main_v82) (funext fun a => Fin.ext ?_)
  match a with
  | ⟨0, _⟩ => show win2_2.index t (0 : Fin 2) * 2048 + 1 * p.val = m.val; rw [i20]; omega
  | ⟨1, _⟩ => show win2_2.index t (1 : Fin 2) * 128 + 1 * k.val = k.val; rw [i21]; omega

theorem iblk2_3_apply (V : (c : Dev nD) → (b : Ref sig .tc) → Buf (Elt Ideal) ((c : Thread nD τ).loc b)) (c : Dev nD) (t : Fin cfg2.N) (k : Fin 128) (j : Fin 512) :
    iblk2 V c 3 t (ix2 k j) = V c main_v84 (ix2 k j) := by
  obtain ⟨-, -, -, -, -, -, -, i30, i31, -, -, -, -, -, -, -⟩ := idx_facts2 t
  show V c main_v84 (((cfg2.win 3).blk t).view.emb (ix2 k j)) = V c main_v84 (ix2 k j)
  refine congrArg (V c main_v84) (funext fun a => Fin.ext ?_)
  match a with
  | ⟨0, _⟩ => show win2_3.index t (0 : Fin 2) * 128 + 1 * k.val = k.val; rw [i30]; omega
  | ⟨1, _⟩ => show win2_3.index t (1 : Fin 2) * 512 + 1 * j.val = j.val; rw [i31]; omega

theorem iblk2_4_apply (V : (c : Dev nD) → (b : Ref sig .tc) → Buf (Elt Ideal) ((c : Thread nD τ).loc b)) (c : Dev nD) (t : Fin cfg2.N) (k : Fin 768) (j : Fin 512) :
    iblk2 V c 4 t (ix2 k j) = V c main_v86 (ix2 k j) := by
  obtain ⟨-, -, -, -, -, -, -, -, -, i40, i41, -, -, -, -, -⟩ := idx_facts2 t
  show V c main_v86 (((cfg2.win 4).blk t).view.emb (ix2 k j)) = V c main_v86 (ix2 k j)
  refine congrArg (V c main_v86) (funext fun a => Fin.ext ?_)
  match a with
  | ⟨0, _⟩ => show win2_4.index t (0 : Fin 2) * 768 + 1 * k.val = k.val; rw [i40]; omega
  | ⟨1, _⟩ => show win2_4.index t (1 : Fin 2) * 512 + 1 * j.val = j.val; rw [i41]; omega

theorem iblk2_5_apply (V : (c : Dev nD) → (b : Ref sig .tc) → Buf (Elt Ideal) ((c : Thread nD τ).loc b)) (c : Dev nD) (t : Fin cfg2.N) (k : Fin 128) (j : Fin 512) :
    iblk2 V c 5 t (ix2 k j) = V c main_v88 (ix2 k j) := by
  obtain ⟨-, -, -, -, -, -, -, -, -, -, -, i50, i51, -, -, -⟩ := idx_facts2 t
  show V c main_v88 (((cfg2.win 5).blk t).view.emb (ix2 k j)) = V c main_v88 (ix2 k j)
  refine congrArg (V c main_v88) (funext fun a => Fin.ext ?_)
  match a with
  | ⟨0, _⟩ => show win2_5.index t (0 : Fin 2) * 128 + 1 * k.val = k.val; rw [i50]; omega
  | ⟨1, _⟩ => show win2_5.index t (1 : Fin 2) * 512 + 1 * j.val = j.val; rw [i51]; omega

theorem iblk2_6_apply (V : (c : Dev nD) → (b : Ref sig .tc) → Buf (Elt Ideal) ((c : Thread nD τ).loc b)) (c : Dev nD) (t : Fin cfg2.N) (k : Fin 1) (j : Fin 512) :
    iblk2 V c 6 t (ix2 k j) = V c main_v90 (ix2 k j) := by
  obtain ⟨-, -, -, -, -, -, -, -, -, -, -, -, -, i60, i61, -⟩ := idx_facts2 t
  show V c main_v90 (((cfg2.win 6).blk t).view.emb (ix2 k j)) = V c main_v90 (ix2 k j)
  refine congrArg (V c main_v90) (funext fun a => Fin.ext ?_)
  match a with
  | ⟨0, _⟩ => show win2_6.index t (0 : Fin 2) * 1 + 1 * k.val = k.val; rw [i60]; omega
  | ⟨1, _⟩ => show win2_6.index t (1 : Fin 2) * 512 + 1 * j.val = j.val; rw [i61]; omega

/-- The payload at row `p` of blocks that read row `m` of the arrays is the score of row `m`. -/
theorem score_row (h : (Cert.Spec.T2 100000 128).Idx → EReal) (rl : (Cert.Spec.T2 100000 768).Idx → EReal)
    (tv : (Cert.Spec.T2 100000 128).Idx → EReal) (w1 : (Cert.Spec.T2 128 512).Idx → EReal) (w2 : (Cert.Spec.T2 768 512).Idx → EReal)
    (w3 : (Cert.Spec.T2 128 512).Idx → EReal) (b : (Cert.Spec.T2 1 512).Idx → EReal)
    (x0 : Vec Ideal S2048x128 .f32) (x1 : Vec Ideal S2048x768 .f32) (x2 : Vec Ideal S2048x128 .f32)
    (x3 : Vec Ideal S128x512 .f32) (x4 : Vec Ideal S768x512 .f32) (x5 : Vec Ideal S128x512 .f32) (x6 : Vec Ideal S1x512 .f32)
    (p : Fin 2048) (m : Fin 100000)
    (h0 : ∀ k : Fin 128, x0 (ix2 p k) = h (ix2 m k)) (h1 : ∀ k : Fin 768, x1 (ix2 p k) = rl (ix2 m k))
    (h2 : ∀ k : Fin 128, x2 (ix2 p k) = tv (ix2 m k))
    (h3 : ∀ (k : Fin 128) (j : Fin 512), x3 (ix2 k j) = w1 (ix2 k j)) (h4 : ∀ (k : Fin 768) (j : Fin 512), x4 (ix2 k j) = w2 (ix2 k j))
    (h5 : ∀ (k : Fin 128) (j : Fin 512), x5 (ix2 k j) = w3 (ix2 k j)) (h6 : ∀ (k : Fin 1) (j : Fin 512), x6 (ix2 k j) = b (ix2 k j)) :
    k2_pay1 (F := Ideal) x0 x1 x2 x3 x4 x5 x6 (ix1 p) = Cert.Spec.score h rl tv w1 w2 w3 b (ix1 m) := by
  rw [pay2_row]
  simp only [h0, h1, h2, h3, h4, h5, h6]
  rfl

/-- What point `t` writes back is block `t` of the scores of the arrays as the region finds them. -/
theorem flushed2_7_eq (V : (c : Dev nD) → (b : Ref sig .tc) → Buf (Elt Ideal) ((c : Thread nD τ).loc b)) (c : Dev nD) (t : Fin cfg2.N) :
    (dat2 (F := Ideal) V c).flushed 7 t = ((cfg2.win 7).blk t).view.read (Elt Ideal)
      (Cert.Spec.score (V c main_v73) (V c main_arg1) (V c main_v82) (V c main_v84) (V c main_v86) (V c main_v88) (V c main_v90)) := by
  show (cfg2.win 7).cut (grid2.coords t) ((dat2 (F := Ideal) V c).after 7 t) = _
  rw [after2_7]
  obtain ⟨e7, -, -, -, -, -, -, -, -, -, -, -, -, -, -, ex⟩ := idx_facts2 t
  funext j
  have hj : (j 0).val < win2_7.xsize (grid2.coords t) (0 : Fin 1) := (j 0).isLt
  have hr : (j 0).val < 2048 := Nat.lt_of_lt_of_le hj (win2_7.xsize_le (grid2.coords t) 0)
  obtain ⟨p, hpv⟩ : ∃ p : Fin 2048, p.val = (j 0).val := ⟨⟨(j 0).val, hr⟩, rfl⟩
  have hp : p.val < win2_7.xsize (grid2.coords t) (0 : Fin 1) := lt_of_eq_of_lt hpv hj
  have hmlt : t.val * 2048 + p.val < 100000 := by omega
  obtain ⟨m, hmv⟩ : ∃ m : Fin 100000, m.val = t.val * 2048 + p.val := ⟨⟨t.val * 2048 + p.val, hmlt⟩, rfl⟩
  have hx : win2_7.xinj (grid2.coords t) j = ix1 p := funext fun a => Fin.ext (by
    match a with
    | ⟨0, _⟩ => exact hpv.symm)
  have hemb : ((cfg2.win 7).blk t).view.emb j = ix1 m := funext fun a => Fin.ext (by
    match a with
    | ⟨0, _⟩ => show win2_7.index t (0 : Fin 1) * 2048 + 1 * (j 0).val = m.val; rw [e7]; omega)
  show out2_7 (F := Ideal) _ _ _ _ _ _ _ (win2_7.xinj (grid2.coords t) j) = Cert.Spec.score _ _ _ _ _ _ _ (((cfg2.win 7).blk t).view.emb j)
  rw [hx, hemb]
  refine (congrFun (out2_7_eq _ _ _ _ _ _ _) (ix1 p)).trans ?_
  exact score_row _ _ _ _ _ _ _ _ _ _ _ _ _ _ p m (fun k => fblk2_0_row V c t p k m hp hmv) (fun k => fblk2_1_row V c t p k m hp hmv)
    (fun k => fblk2_2_row V c t p k m hp hmv) (iblk2_3_apply V c t) (iblk2_4_apply V c t) (iblk2_5_apply V c t) (iblk2_6_apply V c t)

end Val2

/-- The score array after the launch: the score of every triple. -/
theorem arr2 (V : (c : Dev nD) → (b : Ref sig .tc) → Buf (Elt Ideal) ((c : Thread nD τ).loc b)) (c : Dev nD) : (dat2 (F := Ideal) V c).arrAt 7 cfg2.N
    = Cert.Spec.score (V c main_v73) (V c main_arg1) (V c main_v82) (V c main_v84) (V c main_v86) (V c main_v88) (V c main_v90) :=
  (dat2 (F := Ideal) V c).arrAt_eq_of_cover 7 _ (fun t _ => flushed2_7_eq V c t) rows_covered

end Cert.KernelIdeal.Hand

end
-- ==== Proof.KIHost.lean ====
/-
  The host stretches of the kernel program read as the reference's stages.
  Around its three launches the kernel program applies the same host operations as the reference: the edge list with
  the self loops appended (sources and targets), the in-degrees by a scatter-add of ones, their inverse square roots
  where the degree is positive, the per-edge normalisation (the product of the two gathered factors), and, for each
  layer, gather the source rows, scale by the normalisation, scatter-add to the target rows, add the bias (and, after
  the first layer, the rectifier); then the rows of the second layer's output gathered by the triples' head and tail
  ids. Each stage is one operation applied to earlier stages, so a stage of the kernel program equals the reference's
  stage as soon as the stages it reads do; only the launches' results are computed differently, and those enter as
  hypotheses. The kernel program alone cuts the transposed gate weight into three column blocks and adds the two bias
  vectors into one row; those are read at an index.
-/
import proofs.«132953_j50156628082716_1_alg».proof.Proof.KIRun
import proofs.«132953_j50156628082716_1_alg».proof.Proof.KIArgs
import proofs.«132953_j50156628082716_1_alg».proof.Proof.RefReadP
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.ValueIdx
open Cert.ReferenceIdeal.ReadP (val_main_v3 val_main_v6 val_main_v12 val_main_v13 val_main_cst_2 val_main_v14 val_main_v29
  val_main_v30 val_main_v46 val_main_v47 val_main_v48 val_main_v64 val_main_v73 val_main_v82)

variable {F : FTy → Type} [FloatOps F]

/-! ## One stretch at a time, from any contents

Each lemma reads one buffer after one stretch of host operations run from contents `V`: if the buffers the stretch
reads hold the reference's stages (or the arguments), the buffer holds the reference's stage. -/

section Stretches

variable (V : Valuation τ sig (Elt F))

/-- The edge sources with the self loops appended. -/
private theorem s0_v3 (x10 : (⟨Cert.ReferenceIdeal.S2x200000, .i32⟩ : BufTy).Contents (Elt F)) (h10 : V (Proc.devRef .tc main_arg10) = x10) :
    StableHlo.after hostOps0 V (Proc.devRef .tc main_v3) = val_main_v3 (F := F) x10 := by
  after_results
  rw [h10]
  rfl

/-- The edge targets with the self loops appended. -/
private theorem s0_v6 (x10 : (⟨Cert.ReferenceIdeal.S2x200000, .i32⟩ : BufTy).Contents (Elt F)) (h10 : V (Proc.devRef .tc main_arg10) = x10) :
    StableHlo.after hostOps0 V (Proc.devRef .tc main_v6) = val_main_v6 (F := F) x10 := by
  after_results
  rw [h10]
  rfl

/-- Where the in-degree is positive. -/
private theorem s0_v12 (x10 : (⟨Cert.ReferenceIdeal.S2x200000, .i32⟩ : BufTy).Contents (Elt F)) (h10 : V (Proc.devRef .tc main_arg10) = x10) :
    StableHlo.after hostOps0 V (Proc.devRef .tc main_v12) = val_main_v12 (F := F) x10 := by
  after_results
  rw [h10]
  rfl

/-- The inverse square roots of the in-degrees. -/
private theorem s0_v13 (x10 : (⟨Cert.ReferenceIdeal.S2x200000, .i32⟩ : BufTy).Contents (Elt F)) (h10 : V (Proc.devRef .tc main_arg10) = x10) :
    StableHlo.after hostOps0 V (Proc.devRef .tc main_v13) = val_main_v13 (F := F) x10 := by
  after_results
  rw [h10]
  rfl

/-- The zero the normalisation falls back to. -/
private theorem s0_cst_2 :
    StableHlo.after hostOps0 V (Proc.devRef .tc main_cst_2) = val_main_cst_2 (F := F) := by
  after_results_simp
  rfl

/-- The per-node normalisation factor: the inverse square root where the degree is positive, zero elsewhere. -/
private theorem s01_v14 (x10 : (⟨Cert.ReferenceIdeal.S2x200000, .i32⟩ : BufTy).Contents (Elt F))
    (h12 : V (Proc.devRef .tc main_v12) = val_main_v12 (F := F) x10) (h13 : V (Proc.devRef .tc main_v13) = val_main_v13 (F := F) x10)
    (hc : V (Proc.devRef .tc main_cst_2) = val_main_cst_2 (F := F)) :
    StableHlo.after hostOps0_1 V (Proc.devRef .tc main_v14) = val_main_v14 (F := F) x10 := by
  after_results_simp
  rw [h12, h13, hc]
  rfl

/-- The per-edge normalisation: the source's factor times the target's. -/
private theorem s02_v29 (x10 : (⟨Cert.ReferenceIdeal.S2x200000, .i32⟩ : BufTy).Contents (Elt F))
    (h3 : V (Proc.devRef .tc main_v3) = val_main_v3 (F := F) x10) (h6 : V (Proc.devRef .tc main_v6) = val_main_v6 (F := F) x10)
    (h14 : V (Proc.devRef .tc main_v14) = val_main_v14 (F := F) x10) :
    StableHlo.after hostOps0_2 V (Proc.devRef .tc main_v29) = val_main_v29 (F := F) x10 := by
  after_results_simp
  rw [h3, h6, h14]
  rfl

/-- The first layer's aggregation plus its bias. -/
private theorem s1_v46 (x0 : (⟨Cert.ReferenceIdeal.S15000x768, .f32⟩ : BufTy).Contents (Elt F)) (x2 : (⟨Cert.ReferenceIdeal.S768x10, .f32⟩ : BufTy).Contents (Elt F)) (x3 : (⟨Cert.ReferenceIdeal.S10, .f32⟩ : BufTy).Contents (Elt F)) (x10 : (⟨Cert.ReferenceIdeal.S2x200000, .i32⟩ : BufTy).Contents (Elt F))
    (h30 : V (Proc.devRef .tc main_v30) = val_main_v30 (F := F) x0 x2)
    (h3 : V (Proc.devRef .tc main_v3) = val_main_v3 (F := F) x10) (h6 : V (Proc.devRef .tc main_v6) = val_main_v6 (F := F) x10)
    (h29 : V (Proc.devRef .tc main_v29) = val_main_v29 (F := F) x10) (ha3 : V (Proc.devRef .tc main_arg3) = x3) :
    StableHlo.after hostOps1 V (Proc.devRef .tc main_v46) = val_main_v46 (F := F) x0 x2 x3 x10 := by
  after_results_simp
  rw [h30, h3, h6, h29, ha3]
  rfl

/-- The rectifier after the first layer. -/
private theorem s11_v47 (x0 : (⟨Cert.ReferenceIdeal.S15000x768, .f32⟩ : BufTy).Contents (Elt F)) (x2 : (⟨Cert.ReferenceIdeal.S768x10, .f32⟩ : BufTy).Contents (Elt F)) (x3 : (⟨Cert.ReferenceIdeal.S10, .f32⟩ : BufTy).Contents (Elt F)) (x10 : (⟨Cert.ReferenceIdeal.S2x200000, .i32⟩ : BufTy).Contents (Elt F))
    (h46 : V (Proc.devRef .tc main_v46) = val_main_v46 (F := F) x0 x2 x3 x10) :
    StableHlo.after hostOps1_1 V (Proc.devRef .tc main_v47) = val_main_v47 (F := F) x0 x2 x3 x10 := by
  after_results_simp
  rw [h46]
  rfl

/-- The second layer's aggregation plus its bias. -/
private theorem s2_v64 (x0 : (⟨Cert.ReferenceIdeal.S15000x768, .f32⟩ : BufTy).Contents (Elt F)) (x2 : (⟨Cert.ReferenceIdeal.S768x10, .f32⟩ : BufTy).Contents (Elt F)) (x3 : (⟨Cert.ReferenceIdeal.S10, .f32⟩ : BufTy).Contents (Elt F)) (x4 : (⟨Cert.ReferenceIdeal.S10x128, .f32⟩ : BufTy).Contents (Elt F))
    (x5 : (⟨Cert.ReferenceIdeal.S128, .f32⟩ : BufTy).Contents (Elt F)) (x10 : (⟨Cert.ReferenceIdeal.S2x200000, .i32⟩ : BufTy).Contents (Elt F))
    (h48 : V (Proc.devRef .tc main_v48) = val_main_v48 (F := F) x0 x2 x3 x4 x10)
    (h3 : V (Proc.devRef .tc main_v3) = val_main_v3 (F := F) x10) (h6 : V (Proc.devRef .tc main_v6) = val_main_v6 (F := F) x10)
    (h29 : V (Proc.devRef .tc main_v29) = val_main_v29 (F := F) x10) (ha5 : V (Proc.devRef .tc main_arg5) = x5) :
    StableHlo.after hostOps2 V (Proc.devRef .tc main_v64) = val_main_v64 (F := F) x0 x2 x3 x4 x5 x10 := by
  after_results_simp
  rw [h48, h3, h6, h29, ha5]
  rfl

/-- The rows of the second layer's output at the triples' head ids. -/
private theorem s2_v73 (x0 : (⟨Cert.ReferenceIdeal.S15000x768, .f32⟩ : BufTy).Contents (Elt F)) (x2 : (⟨Cert.ReferenceIdeal.S768x10, .f32⟩ : BufTy).Contents (Elt F)) (x3 : (⟨Cert.ReferenceIdeal.S10, .f32⟩ : BufTy).Contents (Elt F)) (x4 : (⟨Cert.ReferenceIdeal.S10x128, .f32⟩ : BufTy).Contents (Elt F))
    (x5 : (⟨Cert.ReferenceIdeal.S128, .f32⟩ : BufTy).Contents (Elt F)) (x10 : (⟨Cert.ReferenceIdeal.S2x200000, .i32⟩ : BufTy).Contents (Elt F)) (x11 : (⟨Cert.ReferenceIdeal.S100000x3, .i32⟩ : BufTy).Contents (Elt F))
    (h48 : V (Proc.devRef .tc main_v48) = val_main_v48 (F := F) x0 x2 x3 x4 x10)
    (h3 : V (Proc.devRef .tc main_v3) = val_main_v3 (F := F) x10) (h6 : V (Proc.devRef .tc main_v6) = val_main_v6 (F := F) x10)
    (h29 : V (Proc.devRef .tc main_v29) = val_main_v29 (F := F) x10) (ha5 : V (Proc.devRef .tc main_arg5) = x5)
    (ha11 : V (Proc.devRef .tc main_arg11) = x11) :
    StableHlo.after hostOps2 V (Proc.devRef .tc main_v73) = val_main_v73 (F := F) x0 x2 x3 x4 x5 x10 x11 := by
  after_results_simp
  rw [h48, h3, h6, h29, ha5, ha11]
  rfl

/-- The rows of the second layer's output at the triples' tail ids. -/
private theorem s2_v82 (x0 : (⟨Cert.ReferenceIdeal.S15000x768, .f32⟩ : BufTy).Contents (Elt F)) (x2 : (⟨Cert.ReferenceIdeal.S768x10, .f32⟩ : BufTy).Contents (Elt F)) (x3 : (⟨Cert.ReferenceIdeal.S10, .f32⟩ : BufTy).Contents (Elt F)) (x4 : (⟨Cert.ReferenceIdeal.S10x128, .f32⟩ : BufTy).Contents (Elt F))
    (x5 : (⟨Cert.ReferenceIdeal.S128, .f32⟩ : BufTy).Contents (Elt F)) (x10 : (⟨Cert.ReferenceIdeal.S2x200000, .i32⟩ : BufTy).Contents (Elt F)) (x11 : (⟨Cert.ReferenceIdeal.S100000x3, .i32⟩ : BufTy).Contents (Elt F))
    (h48 : V (Proc.devRef .tc main_v48) = val_main_v48 (F := F) x0 x2 x3 x4 x10)
    (h3 : V (Proc.devRef .tc main_v3) = val_main_v3 (F := F) x10) (h6 : V (Proc.devRef .tc main_v6) = val_main_v6 (F := F) x10)
    (h29 : V (Proc.devRef .tc main_v29) = val_main_v29 (F := F) x10) (ha5 : V (Proc.devRef .tc main_arg5) = x5)
    (ha11 : V (Proc.devRef .tc main_arg11) = x11) :
    StableHlo.after hostOps2 V (Proc.devRef .tc main_v82) = val_main_v82 (F := F) x0 x2 x3 x4 x5 x10 x11 := by
  after_results_simp
  rw [h48, h3, h6, h29, ha5, ha11]
  rfl

/-- The gate weight's columns 0..127, transposed. -/
private theorem s2_v84 :
    StableHlo.after hostOps2 V (Proc.devRef .tc main_v84)
      = transpose S128x512 [1, 0] (extractStridedSlice S512x128 ![0, 0] (V (Proc.devRef .tc main_arg6)) slices_S512x1024_S512x128_0_0)
          transposes_S512x128_S128x512_1_0 := by
  after_results_simp

/-- The gate weight's columns 128..895, transposed. -/
private theorem s2_v86 :
    StableHlo.after hostOps2 V (Proc.devRef .tc main_v86)
      = transpose S768x512 [1, 0] (extractStridedSlice S512x768 ![0, 128] (V (Proc.devRef .tc main_arg6)) slices_S512x1024_S512x768_0_128)
          transposes_S512x768_S768x512_1_0 := by
  after_results_simp

/-- The gate weight's columns 896..1023, transposed. -/
private theorem s2_v88 :
    StableHlo.after hostOps2 V (Proc.devRef .tc main_v88)
      = transpose S128x512 [1, 0] (extractStridedSlice S512x128 ![0, 896] (V (Proc.devRef .tc main_arg6)) slices_S512x1024_S512x128_0_896)
          transposes_S512x128_S128x512_1_0 := by
  after_results_simp

/-- The two bias vectors added, as one row. -/
private theorem s2_v90 :
    StableHlo.after hostOps2 V (Proc.devRef .tc main_v90)
      = shapeCast S1x512 (addf (V (Proc.devRef .tc main_arg8)) (V (Proc.devRef .tc main_arg9))) shapeCasts_S512_S1x512 := by
  after_results_simp
  rfl

end Stretches

/-! ## The stages before each launch -/

variable (m : (ℓ : Loc nD τ sig) → Buf (Elt F) ℓ)

/-- A buffer no stretch writes and no launch before the third has among its arrays is, at the third launch's
    entry and before its last stretch, what the launch memory holds. -/
private theorem w7_arg (c : Dev nD) (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : r ∉ hostOps1_1_W) (h6 : ∀ w, Pipeline.arrRef spec1 w ≠ r) :
    W7 m c (Proc.devRef .tc r) = m ((c : Thread nD τ).loc r) :=
  (W7_of_ne m c r h6).trans <| (W6_of m c r h5).trans <| (W5_of m c r h4).trans <| (W4_of_ne m c r h3).trans <|
    (W3_of m c r h2).trans <| (W2_of m c r h1).trans <| (W1_of m c r h0)

/-- What the first three stretches leave and nothing later writes is still there before the third launch's stretch. -/
private theorem w7_of_w3 (c : Dev nD) (r : Ref sig .tc)
    (h3 : ∀ w, Pipeline.arrRef spec0 w ≠ r) (h4 : r ∉ hostOps1_W) (h5 : r ∉ hostOps1_1_W) (h6 : ∀ w, Pipeline.arrRef spec1 w ≠ r) :
    W7 m c (Proc.devRef .tc r) = W3 m c (Proc.devRef .tc r) :=
  (W7_of_ne m c r h6).trans <| (W6_of m c r h5).trans <| (W5_of m c r h4).trans <| (W4_of_ne m c r h3)

private theorem w3_v3 (c : Dev nD) : W3 m c (Proc.devRef .tc main_v3) = val_main_v3 (F := F) (m ((c : Thread nD τ).loc main_arg10)) :=
  (W3_of m c main_v3 (by decide)).trans <| (W2_of m c main_v3 (by decide)).trans <| s0_v3 (W0 m c) _ rfl

private theorem w3_v6 (c : Dev nD) : W3 m c (Proc.devRef .tc main_v6) = val_main_v6 (F := F) (m ((c : Thread nD τ).loc main_arg10)) :=
  (W3_of m c main_v6 (by decide)).trans <| (W2_of m c main_v6 (by decide)).trans <| s0_v6 (W0 m c) _ rfl

private theorem w2_v14 (c : Dev nD) : W2 m c (Proc.devRef .tc main_v14) = val_main_v14 (F := F) (m ((c : Thread nD τ).loc main_arg10)) :=
  s01_v14 (W1 m c) _ (s0_v12 (W0 m c) _ rfl) (s0_v13 (W0 m c) _ rfl) (s0_cst_2 (W0 m c))

private theorem w3_v29 (c : Dev nD) : W3 m c (Proc.devRef .tc main_v29) = val_main_v29 (F := F) (m ((c : Thread nD τ).loc main_arg10)) :=
  s02_v29 (W2 m c) _ ((W2_of m c main_v3 (by decide)).trans (s0_v3 (W0 m c) _ rfl))
    ((W2_of m c main_v6 (by decide)).trans (s0_v6 (W0 m c) _ rfl)) (w2_v14 m c)

/-! ## The statements -/

/-- The first layer's output after the rectifier is the reference's, once the first launch's product is. -/
theorem host_v47 (c : Dev nD)
    (h30 : W4 m c (Proc.devRef .tc main_v30) = val_main_v30 (F := F) (m ((c : Thread nD τ).loc main_arg0)) (m ((c : Thread nD τ).loc main_arg2))) :
    W6 m c (Proc.devRef .tc main_v47) = val_main_v47 (F := F) (m ((c : Thread nD τ).loc main_arg0)) (m ((c : Thread nD τ).loc main_arg2)) (m ((c : Thread nD τ).loc main_arg3)) (m ((c : Thread nD τ).loc main_arg10)) :=
  s11_v47 (W5 m c) _ _ _ _ <| s1_v46 (W4 m c) _ _ _ _ h30
    ((W4_of_ne m c main_v3 (by decide)).trans (w3_v3 m c)) ((W4_of_ne m c main_v6 (by decide)).trans (w3_v6 m c))
    ((W4_of_ne m c main_v29 (by decide)).trans (w3_v29 m c))
    ((W4_of_ne m c main_arg3 (by decide)).trans <| (W3_of m c main_arg3 (by decide)).trans <|
      (W2_of m c main_arg3 (by decide)).trans <| W1_of m c main_arg3 (by decide))

private theorem w7_v3 (c : Dev nD) : W7 m c (Proc.devRef .tc main_v3) = val_main_v3 (F := F) (m ((c : Thread nD τ).loc main_arg10)) :=
  (w7_of_w3 m c main_v3 (by decide) (by decide) (by decide) (by decide)).trans (w3_v3 m c)
private theorem w7_v6 (c : Dev nD) : W7 m c (Proc.devRef .tc main_v6) = val_main_v6 (F := F) (m ((c : Thread nD τ).loc main_arg10)) :=
  (w7_of_w3 m c main_v6 (by decide) (by decide) (by decide) (by decide)).trans (w3_v6 m c)
private theorem w7_v29 (c : Dev nD) : W7 m c (Proc.devRef .tc main_v29) = val_main_v29 (F := F) (m ((c : Thread nD τ).loc main_arg10)) :=
  (w7_of_w3 m c main_v29 (by decide) (by decide) (by decide) (by decide)).trans (w3_v29 m c)

/-- The head rows are the reference's, once the second launch's product is. -/
theorem host_v73 (c : Dev nD)
    (h48 : W7 m c (Proc.devRef .tc main_v48) = val_main_v48 (F := F) (m ((c : Thread nD τ).loc main_arg0)) (m ((c : Thread nD τ).loc main_arg2)) (m ((c : Thread nD τ).loc main_arg3)) (m ((c : Thread nD τ).loc main_arg4)) (m ((c : Thread nD τ).loc main_arg10))) :
    W8 m c (Proc.devRef .tc main_v73) = val_main_v73 (F := F) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) :=
  s2_v73 (W7 m c) _ _ _ _ _ _ _ h48 (w7_v3 m c) (w7_v6 m c) (w7_v29 m c)
    (w7_arg m c main_arg5 (by decide) (by decide) (by decide) (by decide) (by decide) (by decide) (by decide))
    (w7_arg m c main_arg11 (by decide) (by decide) (by decide) (by decide) (by decide) (by decide) (by decide))

/-- The tail rows are the reference's, once the second launch's product is. -/
theorem host_v82 (c : Dev nD)
    (h48 : W7 m c (Proc.devRef .tc main_v48) = val_main_v48 (F := F) (m ((c : Thread nD τ).loc main_arg0)) (m ((c : Thread nD τ).loc main_arg2)) (m ((c : Thread nD τ).loc main_arg3)) (m ((c : Thread nD τ).loc main_arg4)) (m ((c : Thread nD τ).loc main_arg10))) :
    W8 m c (Proc.devRef .tc main_v82) = val_main_v82 (F := F) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) :=
  s2_v82 (W7 m c) _ _ _ _ _ _ _ h48 (w7_v3 m c) (w7_v6 m c) (w7_v29 m c)
    (w7_arg m c main_arg5 (by decide) (by decide) (by decide) (by decide) (by decide) (by decide) (by decide))
    (w7_arg m c main_arg11 (by decide) (by decide) (by decide) (by decide) (by decide) (by decide) (by decide))

private theorem w7_arg6 (c : Dev nD) : W7 m c (Proc.devRef .tc main_arg6) = (m ((c : Thread nD τ).loc main_arg6)) :=
  w7_arg m c main_arg6 (by decide) (by decide) (by decide) (by decide) (by decide) (by decide) (by decide)

/-- The first weight block, read at an index: row `k`, column `j` is the gate weight's row `j`, column `k`. -/
theorem host_w1 (c : Dev nD) (k : Fin 128) (j : Fin 512) :
    W8 m c (Proc.devRef .tc main_v84) (ix2 k j) = (m ((c : Thread nD τ).loc main_arg6)) (ix2 j (⟨k.val, by omega⟩ : Fin 1024)) := by
  rw [show W8 m c (Proc.devRef .tc main_v84) = _ from s2_v84 (W7 m c), w7_arg6]
  refine (transpose_apply [1, 0] _ transposes_S512x128_S128x512_1_0 (ix2 k j) (ix2 j k) ?_).trans ?_
  · intro b
    match b with
    | ⟨0, _⟩ => rfl
    | ⟨1, _⟩ => rfl
  · refine extractStridedSlice_apply ![0, 0] _ slices_S512x1024_S512x128_0_0 (ix2 j k) (ix2 j (⟨k.val, by omega⟩ : Fin 1024)) ?_
    intro a
    match a with
    | ⟨0, _⟩ => show j.val = 0 + j.val; omega
    | ⟨1, _⟩ => show k.val = 0 + k.val; omega

/-- The second weight block, read at an index: row `k`, column `j` is the gate weight's row `j`, column `128 + k`. -/
theorem host_w2 (c : Dev nD) (k : Fin 768) (j : Fin 512) :
    W8 m c (Proc.devRef .tc main_v86) (ix2 k j) = (m ((c : Thread nD τ).loc main_arg6)) (ix2 j (⟨128 + k.val, by omega⟩ : Fin 1024)) := by
  rw [show W8 m c (Proc.devRef .tc main_v86) = _ from s2_v86 (W7 m c), w7_arg6]
  refine (transpose_apply [1, 0] _ transposes_S512x768_S768x512_1_0 (ix2 k j) (ix2 j k) ?_).trans ?_
  · intro b
    match b with
    | ⟨0, _⟩ => rfl
    | ⟨1, _⟩ => rfl
  · refine extractStridedSlice_apply ![0, 128] _ slices_S512x1024_S512x768_0_128 (ix2 j k) (ix2 j (⟨128 + k.val, by omega⟩ : Fin 1024)) ?_
    intro a
    match a with
    | ⟨0, _⟩ => show j.val = 0 + j.val; omega
    | ⟨1, _⟩ => show 128 + k.val = 128 + k.val; rfl

/-- The third weight block, read at an index: row `k`, column `j` is the gate weight's row `j`, column `896 + k`. -/
theorem host_w3 (c : Dev nD) (k : Fin 128) (j : Fin 512) :
    W8 m c (Proc.devRef .tc main_v88) (ix2 k j) = (m ((c : Thread nD τ).loc main_arg6)) (ix2 j (⟨896 + k.val, by omega⟩ : Fin 1024)) := by
  rw [show W8 m c (Proc.devRef .tc main_v88) = _ from s2_v88 (W7 m c), w7_arg6]
  refine (transpose_apply [1, 0] _ transposes_S512x128_S128x512_1_0 (ix2 k j) (ix2 j k) ?_).trans ?_
  · intro b
    match b with
    | ⟨0, _⟩ => rfl
    | ⟨1, _⟩ => rfl
  · refine extractStridedSlice_apply ![0, 896] _ slices_S512x1024_S512x128_0_896 (ix2 j k) (ix2 j (⟨896 + k.val, by omega⟩ : Fin 1024)) ?_
    intro a
    match a with
    | ⟨0, _⟩ => show j.val = 0 + j.val; omega
    | ⟨1, _⟩ => show 896 + k.val = 896 + k.val; rfl

/-- The bias row, read at an index: the sum of the two bias vectors' entries. -/
theorem host_b (c : Dev nD) (j : Fin 512) :
    W8 m c (Proc.devRef .tc main_v90) (ix2 (0 : Fin 1) j) = FloatOps.addf ((m ((c : Thread nD τ).loc main_arg8)) (ix1 j)) ((m ((c : Thread nD τ).loc main_arg9)) (ix1 j)) := by
  rw [show W8 m c (Proc.devRef .tc main_v90) = _ from s2_v90 (W7 m c),
    w7_arg m c main_arg8 (by decide) (by decide) (by decide) (by decide) (by decide) (by decide) (by decide),
    w7_arg m c main_arg9 (by decide) (by decide) (by decide) (by decide) (by decide) (by decide) (by decide)]
  refine (shapeCast_apply _ shapeCasts_S512_S1x512 (ix2 (0 : Fin 1) j) (ix1 j) ?_).trans rfl
  rw [Shape.rowMajor_val_one, Shape.rowMajor_val_two]
  show j.val = 0 * 512 + j.val
  omega

/-- The relation embeddings reach the third launch as launched. -/
theorem host_arg (c : Dev nD) : W8 m c (Proc.devRef .tc main_arg1) = (m ((c : Thread nD τ).loc main_arg1)) :=
  (W8_of m c main_arg1 (by decide)).trans
    (w7_arg m c main_arg1 (by decide) (by decide) (by decide) (by decide) (by decide) (by decide) (by decide))

end Cert.KernelIdeal.Hand
end
-- ==== Proof.RefBridge.lean ====
/-
  The reference side of the value argument, over the extended reals.
  The two dense products of the graph convolution are matrix products. The score of a triple: the row
  [head vector | relation embedding | tail vector] of 1024 columns times the transposed gate weight is, column by
  column, the sum of three partial products (over columns 0..127, 128..895 and 896..1023 of the weight's rows); with
  the two bias vectors added it is the gate pre-activation; the four blocks of 128 gate columns go through
  1 / (1 + e^(-x)) (the logistic function, once the word of 1.0 is read as one) and the hyperbolic tangent; the row
  sum starts from the word of 0.0, which is zero; and the logistic function of that sum is the score.
-/
import proofs.«132953_j50156628082716_1_alg».proof.Proof.RefReadP
import proofs.«132953_j50156628082716_1_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.ReferenceIdeal.Bridge

open Cert.ReferenceIdeal Cert.ReferenceIdeal.ReadP Idealize.ShloMosaic Idealize.ShloMosaic.ValueIdx

/-! ## Constants, the logistic function, a sum cut in three -/

/-- The single-precision word of one is the extended real one. -/
theorem ofBits_one_f32 : Ideal.ofBits .f32 0x3F800000#32 = 1 := by
  simp [Ideal.ofBits, Ideal.ieee, -EReal.coe_mul]; norm_num

/-- The host's expansion of the logistic function, `1 / (1 + e^(-x))` with its two ones as words, is the logistic function. -/
theorem host_logistic (x : EReal) :
    FloatOps.hostDivf (F := Ideal) (φ := .f32) (FloatOps.ofBits .f32 0x3F800000#32)
      (FloatOps.addf (FloatOps.ofBits .f32 0x3F800000#32) (FloatOps.hostUnary .exp (FloatOps.hostNegf x)))
      = Ideal.logistic x := by
  show Ideal.div (Ideal.ofBits .f32 0x3F800000#32) (Ideal.ofBits .f32 0x3F800000#32 + Ideal.exp (-x)) = _
  rw [ofBits_one_f32]
  rfl

/-- A sum over 1024 columns is the sum over the first 128, the middle 768 and the last 128. -/
theorem sum_1024_split {M : Type} [AddCommMonoid M] (f : Fin 1024 → M) :
    ∑ k : Fin 1024, f k
      = (∑ k : Fin 128, f ⟨k.val, by omega⟩) + (∑ k : Fin 768, f ⟨128 + k.val, by omega⟩)
        + (∑ k : Fin 128, f ⟨896 + k.val, by omega⟩) := by
  show ∑ k : Fin (128 + 768 + 128), f k = _
  rw [Fin.sum_univ_add, Fin.sum_univ_add]
  rfl

/-! ## The row concatenation [head | relation | tail] read piece by piece -/

section Concat
variable {α : Type}

/-- Columns 0..127 of the concatenated row are the first piece. -/
theorem concat3_head (a : S100000x128.Idx → α) (r : S100000x768.Idx → α) (c : S100000x128.Idx → α)
    (h : Shape.Concatenates [S100000x128, S100000x768, S100000x128] S100000x1024 1)
    (t : Fin 100000) (k : Fin 128) :
    concatenate S100000x1024 1 [⟨S100000x128, a⟩, ⟨S100000x768, r⟩, ⟨S100000x128, c⟩] h
      (ix2 t (⟨k.val, by omega⟩ : Fin 1024)) = a (ix2 t k) := by
  refine concatenate_apply_piece (t := S100000x1024) 1 [⟨S100000x128, a⟩, ⟨S100000x768, r⟩, ⟨S100000x128, c⟩] h _ 0
    (by show 0 < 3; omega) S100000x128 a rfl rfl 0 rfl (ix2 t k) ?_ ?_
  · intro b hb
    match b with
    | ⟨0, _⟩ => rfl
    | ⟨1, _⟩ => exact absurd rfl hb
  · show 0 + k.val = k.val
    omega

/-- Columns 128..895 are the second piece, 128 columns to the left. -/
theorem concat3_mid (a : S100000x128.Idx → α) (r : S100000x768.Idx → α) (c : S100000x128.Idx → α)
    (h : Shape.Concatenates [S100000x128, S100000x768, S100000x128] S100000x1024 1)
    (t : Fin 100000) (k : Fin 768) :
    concatenate S100000x1024 1 [⟨S100000x128, a⟩, ⟨S100000x768, r⟩, ⟨S100000x128, c⟩] h
      (ix2 t (⟨128 + k.val, by omega⟩ : Fin 1024)) = r (ix2 t k) := by
  refine concatenate_apply_piece (t := S100000x1024) 1 [⟨S100000x128, a⟩, ⟨S100000x768, r⟩, ⟨S100000x128, c⟩] h _ 1
    (by show 1 < 3; omega) S100000x768 r rfl rfl 128 rfl (ix2 t k) ?_ ?_
  · intro b hb
    match b with
    | ⟨0, _⟩ => rfl
    | ⟨1, _⟩ => exact absurd rfl hb
  · rfl

/-- Columns 896..1023 are the third piece, 896 columns to the left. -/
theorem concat3_last (a : S100000x128.Idx → α) (r : S100000x768.Idx → α) (c : S100000x128.Idx → α)
    (h : Shape.Concatenates [S100000x128, S100000x768, S100000x128] S100000x1024 1)
    (t : Fin 100000) (k : Fin 128) :
    concatenate S100000x1024 1 [⟨S100000x128, a⟩, ⟨S100000x768, r⟩, ⟨S100000x128, c⟩] h
      (ix2 t (⟨896 + k.val, by omega⟩ : Fin 1024)) = c (ix2 t k) := by
  refine concatenate_apply_piece (t := S100000x1024) 1 [⟨S100000x128, a⟩, ⟨S100000x768, r⟩, ⟨S100000x128, c⟩] h _ 2
    (by show 2 < 3; omega) S100000x128 c rfl rfl 896 rfl (ix2 t k) ?_ ?_
  · intro b hb
    match b with
    | ⟨0, _⟩ => rfl
    | ⟨1, _⟩ => exact absurd rfl hb
  · rfl

end Concat

/-! ## The two dense products of the graph convolution -/

/-- The first layer's product of the node features with its weight is the matrix product. -/
theorem v30_eq (x0 : (⟨S15000x768, .f32⟩ : BufTy).Contents (Elt Ideal)) (x2 : (⟨S768x10, .f32⟩ : BufTy).Contents (Elt Ideal)) :
    val_main_v30 (F := Ideal) x0 x2 = Cert.Spec.mm (A := 15000) (K := 768) (B := 10) x0 x2 := by
  funext i
  rw [val_main_v30_apply]
  show (∑ k : Fin 768, x0 (lidx_main_v30 i k) * x2 (ridx_main_v30 i k))
    = ∑ k : Fin 768, x0 (ix2 (i 0) k) * x2 (ix2 k (i 1))
  refine Finset.sum_congr rfl fun k _ => ?_
  have el : lidx_main_v30 i k = ix2 (i 0) k := funext fun a => by match a with | ⟨0, _⟩ => rfl | ⟨1, _⟩ => rfl
  have er : ridx_main_v30 i k = ix2 k (i 1) := funext fun a => by match a with | ⟨0, _⟩ => rfl | ⟨1, _⟩ => rfl
  rw [el, er]
  rfl

/-- The second layer's product of the first layer's output with its weight is the matrix product. -/
theorem v48_eq (x0 : (⟨S15000x768, .f32⟩ : BufTy).Contents (Elt Ideal)) (x2 : (⟨S768x10, .f32⟩ : BufTy).Contents (Elt Ideal))
    (x3 : (⟨S10, .f32⟩ : BufTy).Contents (Elt Ideal)) (x4 : (⟨S10x128, .f32⟩ : BufTy).Contents (Elt Ideal))
    (x10 : (⟨S2x200000, .i32⟩ : BufTy).Contents (Elt Ideal)) :
    val_main_v48 (F := Ideal) x0 x2 x3 x4 x10
      = Cert.Spec.mm (A := 15000) (K := 10) (B := 128) (val_main_v47 (F := Ideal) x0 x2 x3 x10) x4 := by
  funext i
  rw [val_main_v48_apply]
  show (∑ k : Fin 10, val_main_v47 (F := Ideal) x0 x2 x3 x10 (lidx_main_v48 i k) * x4 (ridx_main_v48 i k))
    = ∑ k : Fin 10, val_main_v47 (F := Ideal) x0 x2 x3 x10 (ix2 (i 0) k) * x4 (ix2 k (i 1))
  refine Finset.sum_congr rfl fun k _ => ?_
  have el : lidx_main_v48 i k = ix2 (i 0) k := funext fun a => by match a with | ⟨0, _⟩ => rfl | ⟨1, _⟩ => rfl
  have er : ridx_main_v48 i k = ix2 k (i 1) := funext fun a => by match a with | ⟨0, _⟩ => rfl | ⟨1, _⟩ => rfl
  rw [el, er]
  rfl

/-! ## The scoring of the triples -/

section Score
variable (x0 : (⟨S15000x768, .f32⟩ : BufTy).Contents (Elt Ideal)) (x1 : (⟨S100000x768, .f32⟩ : BufTy).Contents (Elt Ideal))
  (x2 : (⟨S768x10, .f32⟩ : BufTy).Contents (Elt Ideal)) (x3 : (⟨S10, .f32⟩ : BufTy).Contents (Elt Ideal))
  (x4 : (⟨S10x128, .f32⟩ : BufTy).Contents (Elt Ideal)) (x5 : (⟨S128, .f32⟩ : BufTy).Contents (Elt Ideal))
  (x6 : (⟨S512x1024, .f32⟩ : BufTy).Contents (Elt Ideal)) (x8 x9 : (⟨S512, .f32⟩ : BufTy).Contents (Elt Ideal))
  (x10 : (⟨S2x200000, .i32⟩ : BufTy).Contents (Elt Ideal)) (x11 : (⟨S100000x3, .i32⟩ : BufTy).Contents (Elt Ideal))

/-- Row `t` of the concatenation, columns 0..127: the head vector. -/
theorem v83_head (t : Fin 100000) (k : Fin 128) :
    val_main_v83 (F := Ideal) x0 x1 x2 x3 x4 x5 x10 x11 (ix2 t (⟨k.val, by omega⟩ : Fin 1024))
      = val_main_v73 (F := Ideal) x0 x2 x3 x4 x5 x10 x11 (ix2 t k) := by
  unfold val_main_v83
  exact concat3_head _ _ _ _ t k

/-- Columns 128..895: the relation embedding. -/
theorem v83_mid (t : Fin 100000) (k : Fin 768) :
    val_main_v83 (F := Ideal) x0 x1 x2 x3 x4 x5 x10 x11 (ix2 t (⟨128 + k.val, by omega⟩ : Fin 1024)) = x1 (ix2 t k) := by
  unfold val_main_v83
  exact concat3_mid _ _ _ _ t k

/-- Columns 896..1023: the tail vector. -/
theorem v83_last (t : Fin 100000) (k : Fin 128) :
    val_main_v83 (F := Ideal) x0 x1 x2 x3 x4 x5 x10 x11 (ix2 t (⟨896 + k.val, by omega⟩ : Fin 1024))
      = val_main_v82 (F := Ideal) x0 x2 x3 x4 x5 x10 x11 (ix2 t k) := by
  unfold val_main_v83
  exact concat3_last _ _ _ _ t k

/-- The left operand of the gate product at output `(t, j)` and contraction position `k` is read at `(t, k)`. -/
theorem lidx85 (t : Fin 100000) (j : Fin 512) (k : Fin 1024) : lidx_main_v85 (ix2 t j) k = ix2 t k :=
  funext fun a => by match a with | ⟨0, _⟩ => rfl | ⟨1, _⟩ => rfl

/-- The right operand is the transposed weight: read in the weight at `(j, k)`. -/
theorem ridx85 (t : Fin 100000) (j : Fin 512) (k : Fin 1024) : idx_main_v84 (ridx_main_v85 (ix2 t j) k) = ix2 j k :=
  funext fun a => by match a with | ⟨0, _⟩ => rfl | ⟨1, _⟩ => rfl

/-- The gate product at `(t, j)`: three partial products over the head vector, the relation embedding and the tail vector. -/
theorem v85_at (t : Fin 100000) (j : Fin 512) :
    val_main_v85 (F := Ideal) x0 x1 x2 x3 x4 x5 x6 x10 x11 (ix2 t j)
      = (∑ k : Fin 128, val_main_v73 (F := Ideal) x0 x2 x3 x4 x5 x10 x11 (ix2 t k) * x6 (ix2 j (⟨k.val, by omega⟩ : Fin 1024)))
        + (∑ k : Fin 768, x1 (ix2 t k) * x6 (ix2 j (⟨128 + k.val, by omega⟩ : Fin 1024)))
        + (∑ k : Fin 128, val_main_v82 (F := Ideal) x0 x2 x3 x4 x5 x10 x11 (ix2 t k) * x6 (ix2 j (⟨896 + k.val, by omega⟩ : Fin 1024))) := by
  rw [val_main_v85_apply, sum_1024_split]
  refine congrArg₂ (· + ·) (congrArg₂ (· + ·) ?_ ?_) ?_
  · refine Finset.sum_congr rfl fun k _ => ?_
    rw [lidx85, val_main_v84_apply, ridx85, v83_head]
  · refine Finset.sum_congr rfl fun k _ => ?_
    rw [lidx85, val_main_v84_apply, ridx85, v83_mid]
  · refine Finset.sum_congr rfl fun k _ => ?_
    rw [lidx85, val_main_v84_apply, ridx85, v83_last]

/-- The bias row broadcast over the triples, at `(t, j)`: the sum of the two bias vectors at `j`. -/
theorem v88_at (t : Fin 100000) (j : Fin 512) :
    val_main_v88 (F := Ideal) x8 x9 (ix2 t j) = x8 (ix1 j) + x9 (ix1 j) := by
  rw [val_main_v88_apply, val_main_v87_apply, val_main_v86_apply]
  have e : idx_main_v87 (idx_main_v88 (ix2 t j)) = ix1 j := funext fun a => by match a with | ⟨0, _⟩ => rfl
  rw [e]
  rfl

variable (w1 : (Cert.Spec.T2 128 512).Idx → EReal) (w2 : (Cert.Spec.T2 768 512).Idx → EReal)
  (w3 : (Cert.Spec.T2 128 512).Idx → EReal) (b : (Cert.Spec.T2 1 512).Idx → EReal)
  (hw1 : ∀ (k : Fin 128) (j : Fin 512), w1 (ix2 k j) = x6 (ix2 j (⟨k.val, by omega⟩ : Fin 1024)))
  (hw2 : ∀ (k : Fin 768) (j : Fin 512), w2 (ix2 k j) = x6 (ix2 j (⟨128 + k.val, by omega⟩ : Fin 1024)))
  (hw3 : ∀ (k : Fin 128) (j : Fin 512), w3 (ix2 k j) = x6 (ix2 j (⟨896 + k.val, by omega⟩ : Fin 1024)))
  (hb : ∀ j : Fin 512, b (ix2 (0 : Fin 1) j) = x8 (ix1 j) + x9 (ix1 j))

include hw1 hw2 hw3 hb

/-- The pre-activation at `(t, j)` is the specification's gate. -/
theorem v89_at (t : Fin 100000) (j : Fin 512) :
    val_main_v89 (F := Ideal) x0 x1 x2 x3 x4 x5 x6 x8 x9 x10 x11 (ix2 t j)
      = Cert.Spec.gate (val_main_v73 (F := Ideal) x0 x2 x3 x4 x5 x10 x11) x1 (val_main_v82 (F := Ideal) x0 x2 x3 x4 x5 x10 x11)
          w1 w2 w3 b t j := by
  rw [val_main_v89_apply, v85_at, v88_at]
  unfold Cert.Spec.gate
  simp only [hw1, hw2, hw3, hb]
  rfl

omit hw1 hw2 hw3 hb in
/-- The four gate blocks are the column blocks 0, 1, 2, 3 of the pre-activation. -/
theorem idx90 (t : Fin 100000) (q : Fin 128) : idx_main_v90 (ix2 t q) = ix2 t (Cert.Spec.col 0 q) :=
  funext fun a => Fin.ext (by
    match a with
    | ⟨0, _⟩ => rfl
    | ⟨1, _⟩ => show q.val = 0 * 128 + q.val; omega)

omit hw1 hw2 hw3 hb in
theorem idx92 (t : Fin 100000) (q : Fin 128) : idx_main_v92 (ix2 t q) = ix2 t (Cert.Spec.col 2 q) :=
  funext fun a => Fin.ext (by
    match a with
    | ⟨0, _⟩ => rfl
    | ⟨1, _⟩ => show 256 + q.val = 2 * 128 + q.val; omega)

omit hw1 hw2 hw3 hb in
theorem idx93 (t : Fin 100000) (q : Fin 128) : idx_main_v93 (ix2 t q) = ix2 t (Cert.Spec.col 3 q) :=
  funext fun a => Fin.ext (by
    match a with
    | ⟨0, _⟩ => rfl
    | ⟨1, _⟩ => show 384 + q.val = 3 * 128 + q.val; omega)

/-- Output unit `q` of triple `t`: output gate times the hyperbolic tangent of the cell. -/
theorem v109_at (t : Fin 100000) (q : Fin 128) :
    val_main_v109 (F := Ideal) x0 x1 x2 x3 x4 x5 x6 x8 x9 x10 x11 (ix2 t q)
      = Cert.Spec.unit (Cert.Spec.gate (val_main_v73 (F := Ideal) x0 x2 x3 x4 x5 x10 x11) x1
          (val_main_v82 (F := Ideal) x0 x2 x3 x4 x5 x10 x11) w1 w2 w3 b t) q := by
  simp only [val_main_v109_apply, val_main_v108_apply, val_main_v107_apply, val_main_v106_apply, val_main_cst_19_apply,
    val_main_v105_apply, val_main_v104_apply, val_main_cst_18_apply, val_main_v103_apply, val_main_v102_apply,
    val_main_v101_apply, val_main_v100_apply, val_main_v99_apply, val_main_v98_apply, val_main_cst_17_apply,
    val_main_v97_apply, val_main_v96_apply, val_main_cst_16_apply, val_main_v95_apply, val_main_v94_apply,
    val_main_v93_apply, val_main_v92_apply, val_main_v90_apply, idx90, idx92, idx93,
    v89_at x0 x1 x2 x3 x4 x5 x6 x8 x9 x10 x11 w1 w2 w3 b hw1 hw2 hw3 hb, host_logistic,
    Ideal.mulf_def, Ideal.hostUnary_tanh_def, Cert.Spec.unit]

/-- The score of every triple is the specification's. -/
theorem v116_eq :
    val_main_v116 (F := Ideal) x0 x1 x2 x3 x4 x5 x6 x8 x9 x10 x11
      = Cert.Spec.score (val_main_v73 (F := Ideal) x0 x2 x3 x4 x5 x10 x11) x1 (val_main_v82 (F := Ideal) x0 x2 x3 x4 x5 x10 x11)
          w1 w2 w3 b := by
  funext i
  obtain ⟨t, rfl⟩ : ∃ t : Fin 100000, i = ix1 t := ⟨i 0, eq_ix1 i⟩
  rw [val_main_v116_apply, val_main_v115_apply, val_main_cst_22_apply, val_main_v114_apply, val_main_v113_apply,
    val_main_cst_21_apply, val_main_v112_apply, val_main_v111_apply, host_logistic, val_main_v110_apply,
    val_main_cst_20_apply]
  show Ideal.logistic (Ideal.ofBits .f32 0x00000000#32
      + ∑ k : Fin 128, val_main_v109 (F := Ideal) x0 x1 x2 x3 x4 x5 x6 x8 x9 x10 x11 (idx_main_v110 (ix1 t) k))
    = Ideal.logistic (∑ q : Fin 128, Cert.Spec.unit (Cert.Spec.gate (val_main_v73 (F := Ideal) x0 x2 x3 x4 x5 x10 x11) x1
          (val_main_v82 (F := Ideal) x0 x2 x3 x4 x5 x10 x11) w1 w2 w3 b t) q)
  rw [Ideal.ofBits_zero_f32, zero_add]
  refine congrArg Ideal.logistic (Finset.sum_congr rfl fun q _ => ?_)
  have e : idx_main_v110 (ix1 t) q = ix2 t q := funext fun a => by match a with | ⟨0, _⟩ => rfl | ⟨1, _⟩ => rfl
  rw [e, v109_at x0 x1 x2 x3 x4 x5 x6 x8 x9 x10 x11 w1 w2 w3 b hw1 hw2 hw3 hb]

end Score

end Cert.ReferenceIdeal.Bridge

end
-- ==== Proof.KIClaims.lean ====
/-
  The claims about the idealized kernel program, assembled. Its run (every launch's output named) ends with the
  score array at the last valuation's entry; read back through the program that entry is: the scoring formula of the
  per-triple rows gathered from the second graph-convolution layer, whose input is the relu of the first layer, each
  layer a matrix product followed by the same gather / scale / scatter-add / bias host operations the reference
  applies. The reference computes the same matrix products as plain dot products and the same scores from the
  concatenated features against the transposed weight: the concatenated dot product splits into the three partial
  products over the 128 + 768 + 128 columns.
-/
import proofs.«132953_j50156628082716_1_alg».proof.Defs
import proofs.«132953_j50156628082716_1_alg».proof.Proof.Gen.Pre_finite_inputs
import proofs.«132953_j50156628082716_1_alg».proof.Proof.KIArgs
import proofs.«132953_j50156628082716_1_alg».proof.Proof.KIVal0
import proofs.«132953_j50156628082716_1_alg».proof.Proof.KIVal1
import proofs.«132953_j50156628082716_1_alg».proof.Proof.KIVal2
import proofs.«132953_j50156628082716_1_alg».proof.Proof.KIHost
import proofs.«132953_j50156628082716_1_alg».proof.Proof.RefBridge

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat BodyObligationLoose)

variable (m : (ℓ : Loc nD τ sig) → Buf (Elt Ideal) ℓ)

/-- Launch 2's body obligation at the exact instance: the scores of the rows inside the array do not see what a
    staging buffer holds past the array's end. -/
theorem hb2 (c : Dev nD) : BodyObligationLoose (dat2 (F := Ideal) (U8 m) c) (defs₀ (F := Ideal)) Variants.none () Set.univ :=
  body_obligation2_of (U8 m) c (hrow2 (U8 m) c)

/-- The run of the idealized kernel program with its result and its arguments named. -/
theorem run_pi (ρ : Dev nD → PrngReg) : θ_run defs (onTc (τ := τ) (main (F := Ideal))) ⟨m, fun _ => 0, ρ⟩ (fun r => ∀ c : Dev nD,
      r.2.mem ((c.tc : Thread nD τ).loc main_v91) = W9 m c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v91 (by decide)),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c),
     (h c _ (mem_uc main_arg9 (by decide))).trans (W9_main_arg9 m c),
     (h c _ (mem_uc main_arg10 (by decide))).trans (W9_main_arg10 m c),
     (h c _ (mem_uc main_arg11 (by decide))).trans (W9_main_arg11 m c)⟩)
    (run_all m (hb2 m) ρ)

/-! ## The result read back -/

/-- An argument is what launch 0 finds in its buffer (no host stretch before it writes an argument). -/
theorem W3_arg0 (c : Dev nD) : W3 m c (Proc.devRef .tc main_arg0) = (m ((c : Thread nD τ).loc main_arg0)) :=
  (W3_of m c main_arg0 (by decide)).trans ((W2_of m c main_arg0 (by decide)).trans (W1_of m c main_arg0 (by decide)))
theorem W3_arg2 (c : Dev nD) : W3 m c (Proc.devRef .tc main_arg2) = (m ((c : Thread nD τ).loc main_arg2)) :=
  (W3_of m c main_arg2 (by decide)).trans ((W2_of m c main_arg2 (by decide)).trans (W1_of m c main_arg2 (by decide)))
theorem W6_arg4 (c : Dev nD) : W6 m c (Proc.devRef .tc main_arg4) = (m ((c : Thread nD τ).loc main_arg4)) :=
  (W6_of m c main_arg4 (by decide)).trans ((W5_of m c main_arg4 (by decide)).trans ((W4_of_ne m c main_arg4 (by decide)).trans
    ((W3_of m c main_arg4 (by decide)).trans ((W2_of m c main_arg4 (by decide)).trans (W1_of m c main_arg4 (by decide))))))

/-- Launch 0 leaves the first layer's product where the reference has its dot product. -/
theorem out0_eq (c : Dev nD) : W4 m c (Proc.devRef .tc main_v30)
    = Cert.ReferenceIdeal.ReadP.val_main_v30 (F := Ideal) (m ((c : Thread nD τ).loc main_arg0)) (m ((c : Thread nD τ).loc main_arg2)) := by
  rw [Cert.ReferenceIdeal.Bridge.v30_eq]
  refine (W4_arr m c 2).trans ((arr0 (U3 m) c).trans ?_)
  rw [show U3 m c main_arg0 = (m ((c : Thread nD τ).loc main_arg0)) from W3_arg0 m c, show U3 m c main_arg2 = (m ((c : Thread nD τ).loc main_arg2)) from W3_arg2 m c]

/-- Launch 1 leaves the second layer's product where the reference has its dot product. -/
theorem out1_eq (c : Dev nD) : W7 m c (Proc.devRef .tc main_v48)
    = Cert.ReferenceIdeal.ReadP.val_main_v48 (F := Ideal) (m ((c : Thread nD τ).loc main_arg0)) (m ((c : Thread nD τ).loc main_arg2)) (m ((c : Thread nD τ).loc main_arg3)) (m ((c : Thread nD τ).loc main_arg4)) (m ((c : Thread nD τ).loc main_arg10)) := by
  rw [Cert.ReferenceIdeal.Bridge.v48_eq]
  refine (W7_arr m c 2).trans ((arr1 (U6 m) c).trans ?_)
  rw [show U6 m c main_v47 = _ from host_v47 m c (out0_eq m c), show U6 m c main_arg4 = (m ((c : Thread nD τ).loc main_arg4)) from W6_arg4 m c]

/-- The score array the kernel program ends with is the reference's last stage of the same arguments. -/
theorem result_eq (c : Dev nD) : W9 m c (Proc.devRef .tc main_v91)
    = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) := by
  rw [Cert.ReferenceIdeal.Bridge.v116_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11))
    (U8 m c main_v84) (U8 m c main_v86) (U8 m c main_v88) (U8 m c main_v90)
    (host_w1 m c) (host_w2 m c) (host_w3 m c) (host_b m c)]
  refine (W9_arr m c 7).trans ((arr2 (U8 m) c).trans ?_)
  rw [show U8 m c main_v73 = _ from host_v73 m c (out1_eq m c), show U8 m c main_v82 = _ from host_v82 m c (out1_eq m c),
    show U8 m c main_arg1 = (m ((c : Thread nD τ).loc main_arg1)) from host_arg m c]

end Cert.KernelIdeal.Hand

/-! ## The claims -/

namespace Cert.Proof.Claims

open Idealize.ShloMosaic Idealize.ShloMosaic.TcCoe Idealize.SL.Sem

theorem frame_pi : Cert.frame_KernelIdeal := fun m ρ _ =>
  (θ_run Cert.KernelIdeal.defs _ _).mono (fun _ h c => (h c).2) (Cert.KernelIdeal.Hand.run_pi m ρ)

theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with the same score array: the kernel program's last valuation entry, which is the
    reference's last stage at arguments that agree. -/
theorem algebraic : Cert.algebraic_KernelIdeal_ReferenceIdeal := by
  intro m ρ m' ρ' _ hagree
  refine ⟨fun c => Cert.KernelIdeal.Hand.W9 m c (Proc.devRef .tc Cert.KernelIdeal.main_v91), Cert.KernelIdeal.Hand.run_pi m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11⟩ := hagree c
  rw [Cert.ReferenceIdeal.ReadP.val_main_v116_eq, h0, h1, h2, h3, h4, h5, h6, h8, h9, h10, h11]
  exact (Cert.KernelIdeal.Hand.result_eq m c).symm

end Cert.Proof.Claims

end
-- ==== Proof.lean ====
/-
  The certificate's five claims, from their modules. The word-level kernel program runs to the end and leaves its
  arguments unchanged (its three launches' frame halves, launch 2's clipped output left unnamed); so does the idealized
  kernel program, which also ends with a named score array; the reference's run is its operations' composed term;
  the ideal pass rewrote nothing, so the preservation claim is empty; and the two idealized programs' score arrays
  are one function of the arguments: matrix products as sums, the concatenated dot product split over its three
  column ranges, the same sigmoid / tanh gates and row sum on both sides.
-/
import proofs.«132953_j50156628082716_1_alg».proof.Defs
import proofs.«132953_j50156628082716_1_alg».proof.Proof.Gen.Kernel
import proofs.«132953_j50156628082716_1_alg».proof.Proof.Gen.KernelIdeal
import proofs.«132953_j50156628082716_1_alg».proof.Proof.Gen.ReferenceIdeal
import proofs.«132953_j50156628082716_1_alg».proof.Proof.Gen.Pre_finite_inputs
import proofs.«132953_j50156628082716_1_alg».proof.Proof.KRun
import proofs.«132953_j50156628082716_1_alg».proof.Proof.KIClaims
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  Cert.Proof.Claims.frame_pi,
  Cert.Proof.Claims.frame_ri,
  trivial,
  Cert.Proof.Claims.algebraic⟩

end Cert.Proof

end
